-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S1024x512 : Shape := ⟨2, ![1024, 512]⟩
abbrev S1x512 : Shape := ⟨2, ![1, 512]⟩
abbrev S8x1x512 : Shape := ⟨3, ![8, 1, 512]⟩
abbrev S7 : Shape := ⟨1, ![7]⟩
abbrev S_ : Shape := ⟨0, ![]⟩
abbrev S512 : Shape := ⟨1, ![512]⟩
abbrev S1x1x512 : Shape := ⟨3, ![1, 1, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S8x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v39 : BitVec 32 := Scalar.addi v2 c1_i32_32
  let c8_i32_33 : BitVec 32 := 8#32
  let v40 : BitVec 32 := Scalar.remsi v39 c8_i32_33
  let c1_i32_38 : BitVec 32 := 1#32
  let v41 : BitVec 32 := Scalar.muli v40 c1_i32_38
  let v42 : BitVec 32 := Scalar.addi c0_i32_39 v41
  v42.toNat
def k0_dev9 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v51 : BitVec 32 := Scalar.addi v2 c2_i32_44
  let c8_i32_45 : BitVec 32 := 8#32
  let v52 : BitVec 32 := Scalar.remsi v51 c8_i32_45
  let c1_i32_50 : BitVec 32 := 1#32
  let v53 : BitVec 32 := Scalar.muli v52 c1_i32_50
  let v54 : BitVec 32 := Scalar.addi c0_i32_51 v53
  v54.toNat
def k0_dev10 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v63 : BitVec 32 := Scalar.addi v2 c3_i32_56
  let c8_i32_57 : BitVec 32 := 8#32
  let v64 : BitVec 32 := Scalar.remsi v63 c8_i32_57
  let c1_i32_62 : BitVec 32 := 1#32
  let v65 : BitVec 32 := Scalar.muli v64 c1_i32_62
  let v66 : BitVec 32 := Scalar.addi c0_i32_63 v65
  v66.toNat
def k0_dev11 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_68 : BitVec 32 := 4#32
  let v75 : BitVec 32 := Scalar.addi v2 c4_i32_68
  let c8_i32_69 : BitVec 32 := 8#32
  let v76 : BitVec 32 := Scalar.remsi v75 c8_i32_69
  let c1_i32_74 : BitVec 32 := 1#32
  let v77 : BitVec 32 := Scalar.muli v76 c1_i32_74
  let v78 : BitVec 32 := Scalar.addi c0_i32_75 v77
  v78.toNat
def k0_dev12 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_80 : BitVec 32 := 5#32
  let v87 : BitVec 32 := Scalar.addi v2 c5_i32_80
  let c8_i32_81 : BitVec 32 := 8#32
  let v88 : BitVec 32 := Scalar.remsi v87 c8_i32_81
  let c1_i32_86 : BitVec 32 := 1#32
  let v89 : BitVec 32 := Scalar.muli v88 c1_i32_86
  let v90 : BitVec 32 := Scalar.addi c0_i32_87 v89
  v90.toNat
def k0_dev13 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_92 : BitVec 32 := 6#32
  let v99 : BitVec 32 := Scalar.addi v2 c6_i32_92
  let c8_i32_93 : BitVec 32 := 8#32
  let v100 : BitVec 32 := Scalar.remsi v99 c8_i32_93
  let c1_i32_98 : BitVec 32 := 1#32
  let v101 : BitVec 32 := Scalar.muli v100 c1_i32_98
  let v102 : BitVec 32 := Scalar.addi c0_i32_99 v101
  v102.toNat
def k0_dev14 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_104 : BitVec 32 := 7#32
  let v111 : BitVec 32 := Scalar.addi v2 c7_i32_104
  let c8_i32_105 : BitVec 32 := 8#32
  let v112 : BitVec 32 := Scalar.remsi v111 c8_i32_105
  let c1_i32_110 : BitVec 32 := 1#32
  let v113 : BitVec 32 := Scalar.muli v112 c1_i32_110
  let v114 : BitVec 32 := Scalar.addi c0_i32_111 v113
  v114.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  inb_S8x1x512_S1x1x512_7_0_0 : ∀ a, (![7, 0, 0] : Fin 3 → Nat) a + S1x1x512.size a ≤ S8x1x512.size a
  h_S1x1x512 : 0 < S1x1x512.numel
  shapeCasts_S1x1x512_S1x512 : S1x1x512.ShapeCasts S1x512
  shapeCasts_S1x512_S1x1x512 : S1x512.ShapeCasts S1x1x512
  hamt_7 : (7#32 : BitVec 32).msb = false
  inb_S7_S1_0 : ∀ a, (![0] : Fin 1 → Nat) a + S1.size a ≤ S7.size a
  squeezes_S1_S_ : S1.Squeezes S_
  inb_S8x1x512_S1x1x512_0_0_0 : ∀ a, (![0, 0, 0] : Fin 3 → Nat) a + S1x1x512.size a ≤ S8x1x512.size a
  squeezes_S1x1x512_S1x512 : S1x1x512.Squeezes S1x512
  inb_S7_S1_1 : ∀ a, (![1] : Fin 1 → Nat) a + S1.size a ≤ S7.size a
  inb_S8x1x512_S1x1x512_1_0_0 : ∀ a, (![1, 0, 0] : Fin 3 → Nat) a + S1x1x512.size a ≤ S8x1x512.size a
  inb_S7_S1_2 : ∀ a, (![2] : Fin 1 → Nat) a + S1.size a ≤ S7.size a
  inb_S8x1x512_S1x1x512_2_0_0 : ∀ a, (![2, 0, 0] : Fin 3 → Nat) a + S1x1x512.size a ≤ S8x1x512.size a
  inb_S7_S1_3 : ∀ a, (![3] : Fin 1 → Nat) a + S1.size a ≤ S7.size a
  inb_S8x1x512_S1x1x512_3_0_0 : ∀ a, (![3, 0, 0] : Fin 3 → Nat) a + S1x1x512.size a ≤ S8x1x512.size a
  inb_S7_S1_4 : ∀ a, (![4] : Fin 1 → Nat) a + S1.size a ≤ S7.size a
  inb_S8x1x512_S1x1x512_4_0_0 : ∀ a, (![4, 0, 0] : Fin 3 → Nat) a + S1x1x512.size a ≤ S8x1x512.size a
  inb_S7_S1_5 : ∀ a, (![5] : Fin 1 → Nat) a + S1.size a ≤ S7.size a
  inb_S8x1x512_S1x1x512_5_0_0 : ∀ a, (![5, 0, 0] : Fin 3 → Nat) a + S1x1x512.size a ≤ S8x1x512.size a
  inb_S7_S1_6 : ∀ a, (![6] : Fin 1 → Nat) a + S1.size a ≤ S7.size a
  inb_S8x1x512_S1x1x512_6_0_0 : ∀ a, (![6, 0, 0] : Fin 3 → Nat) a + S1x1x512.size a ≤ S8x1x512.size a
  inb_S8x1x512_S8x1x512_0_0_0 : ∀ a, (![0, 0, 0] : Fin 3 → Nat) a + S8x1x512.size a ≤ S8x1x512.size a
  h_S8x1x512 : 0 < S8x1x512.numel
  reduces_S8x1x512_S1x512 : S8x1x512.Reduces [0] S1x512
  inb_S1x512_S1x512_0_0 : ∀ a, (![0, 0] : Fin 2 → Nat) a + S1x512.size a ≤ S1x512.size a
  h_S1x512 : 0 < S1x512.numel
  hcc0_scratch1 : 2 + S7.numel ≤ 16
  hcc0_scratch2 : 9 + S7.numel ≤ 16
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch1 : DmaSems sig S7 := SemArray.consecutive 2 S7 hcc0_scratch1
abbrev cc0_scratch2 : DmaSems sig S7 := SemArray.consecutive 9 S7 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S512, .f32⟩
  | .hbm, ⟨3, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S8192x512_S512_d0 : S8192x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.Proto.lean ====
/-
  All-reduce of column sums over eight devices: the vocabulary of the protocol.

  Device `c` holds rows [1024c, 1024c + 1024) of `x`. It adds its rows up into slot 7 of an 8-slot scratch, sends that
  slot to every other device, and adds up the eight slots. Copy `j` (`j < 7`) of device `c` goes to device
  `pk c j = c + j + 1 (mod 8)` and lands in slot `j` there, so slot `j` of `c` is written by `pk c (6 - j)`, and
  `pk (pk c j) (6 - j) = c`: going `j + 1` forward and then `7 - j` forward is a full turn.

  Before any copy, every device tells each of the seven others, on the runtime's barrier semaphore, that it is inside the
  kernel; with that unit it hands the slot the other one will write. A device waits for its seven units and only then
  copies. Each copy has a send cell on the sender (paid when the source has been read) and a receive cell on the
  receiver (paid when the slot has been written).
-/
import proofs.«901073_g7700000000001074_dist_sum_ax0_shard0_i_m1024_n512_v7x_i8_bf16_1_alg».proof.Proof.Gen.KernelIdeal.Skeleton
import proofs.«901073_g7700000000001074_dist_sum_ax0_shard0_i_m1024_n512_v7x_i8_bf16_1_alg».proof.Proof.Gen.KernelIdeal.Launch
import proofs.«901073_g7700000000001074_dist_sum_ax0_shard0_i_m1024_n512_v7x_i8_bf16_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the rounds' (duties named by `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peers -/

/-- The device `j + 1` places after `c` on the ring of eight. -/
def pk (c : Dev nD) (j : Fin 7) : Dev nD := ⟨(c.val + j.val + 1) % 8, Nat.mod_lt _ (by decide)⟩

theorem pk_pk_rev : ∀ (c : Dev nD) (j : Fin 7), pk (pk c j) j.rev = c := by decide
theorem pk_rev_pk : ∀ (c : Dev nD) (j : Fin 7), pk (pk c j.rev) j = c := by decide
theorem pk_ne_self : ∀ (c : Dev nD) (j : Fin 7), pk c j ≠ c := by decide
theorem pk_inj : ∀ (c : Dev nD) (j j' : Fin 7), pk c j = pk c j' → j = j' := by decide
theorem pk_eq_iff : ∀ (c d : Dev nD) (j : Fin 7), pk d j = c ↔ d = pk c j.rev := by decide

/-- Going `j + 1` places forward, as a permutation of the devices; its inverse goes `7 - j` forward. -/
def turn (j : Fin 7) : Dev nD ≃ Dev nD := ⟨fun c => pk c j, fun c => pk c j.rev, fun c => pk_pk_rev c j, fun c => pk_rev_pk c j⟩

/-- The kernel's device words: signal `j` and copy `j` both name `pk c j`. -/
theorem sig0_eq : ∀ c : Dev nD, (⟨k0_dev1 c, k0_dev1_lt c⟩ : Dev nD) = pk c 0 := by decide +kernel
theorem sig1_eq : ∀ c : Dev nD, (⟨k0_dev2 c, k0_dev2_lt c⟩ : Dev nD) = pk c 1 := by decide +kernel
theorem sig2_eq : ∀ c : Dev nD, (⟨k0_dev3 c, k0_dev3_lt c⟩ : Dev nD) = pk c 2 := by decide +kernel
theorem sig3_eq : ∀ c : Dev nD, (⟨k0_dev4 c, k0_dev4_lt c⟩ : Dev nD) = pk c 3 := by decide +kernel
theorem sig4_eq : ∀ c : Dev nD, (⟨k0_dev5 c, k0_dev5_lt c⟩ : Dev nD) = pk c 4 := by decide +kernel
theorem sig5_eq : ∀ c : Dev nD, (⟨k0_dev6 c, k0_dev6_lt c⟩ : Dev nD) = pk c 5 := by decide +kernel
theorem sig6_eq : ∀ c : Dev nD, (⟨k0_dev7 c, k0_dev7_lt c⟩ : Dev nD) = pk c 6 := by decide +kernel
theorem cpy0_eq : ∀ c : Dev nD, (⟨k0_dev8 c, k0_dev8_lt c⟩ : Dev nD) = pk c 0 := by decide +kernel
theorem cpy1_eq : ∀ c : Dev nD, (⟨k0_dev9 c, k0_dev9_lt c⟩ : Dev nD) = pk c 1 := by decide +kernel
theorem cpy2_eq : ∀ c : Dev nD, (⟨k0_dev10 c, k0_dev10_lt c⟩ : Dev nD) = pk c 2 := by decide +kernel
theorem cpy3_eq : ∀ c : Dev nD, (⟨k0_dev11 c, k0_dev11_lt c⟩ : Dev nD) = pk c 3 := by decide +kernel
theorem cpy4_eq : ∀ c : Dev nD, (⟨k0_dev12 c, k0_dev12_lt c⟩ : Dev nD) = pk c 4 := by decide +kernel
theorem cpy5_eq : ∀ c : Dev nD, (⟨k0_dev13 c, k0_dev13_lt c⟩ : Dev nD) = pk c 5 := by decide +kernel
theorem cpy6_eq : ∀ c : Dev nD, (⟨k0_dev14 c, k0_dev14_lt c⟩ : Dev nD) = pk c 6 := by decide +kernel

/-! ## The memrefs and the cells -/

abbrev xM : Memref sig .tc .vmem S1024x512 .f32 := Memref.whole cc0_stg0_0
abbrev oM : Memref sig .tc .vmem S1x512 .f32 := Memref.whole cc0_stg1_0
abbrev cM : Memref sig .tc .vmem S8x1x512 .f32 := Memref.whole cc0_scratch0

theorem slot_inb : ∀ (j : Fin 8) (a : Fin 3), (![j.val, 0, 0] : Fin 3 → Nat) a + S1x1x512.size a ≤ S8x1x512.size a := by decide
theorem sem_inb : ∀ (j : Fin 7) (a : Fin 1), (![j.val] : Fin 1 → Nat) a + S1.size a ≤ S7.size a := by decide

/-- Slot `j` of the scratch, as the rectangle the program slices, and as the row the copies move. -/
abbrev slotR (j : Fin 8) : Rect S8x1x512 := Rect.unit (s := S8x1x512) ![j.val, 0, 0] S1x1x512.size (slot_inb j)
abbrev slotM (j : Fin 8) : Memref sig .tc .vmem S1x512 .f32 :=
  (cM.slice (slotR j) (fun _ => rfl)).squeeze S1x512 squeezes_S1x1x512_S1x512

/-- The runtime's barrier semaphore (not scoped); the send and the receive DMA semaphore of copy `j` (scoped scratch). -/
abbrev barS : Sem sig := (SemArray.scalar (sig.barrier 0 rfl) : Sems sig S_).sem
abbrev sendS (j : Fin 7) : DmaSem sig := ((cc0_scratch1.slice (Rect.unit (s := S7) ![j.val] S1.size (sem_inb j))).squeeze S_ squeezes_S1_S_).sem
abbrev recvS (j : Fin 7) : DmaSem sig := ((cc0_scratch2.slice (Rect.unit (s := S7) ![j.val] S1.size (sem_inb j))).squeeze S_ squeezes_S1_S_).sem

theorem sendS_val : ∀ j : Fin 7, (sendS j).val = 2 + j.val := by decide
theorem recvS_val : ∀ j : Fin 7, (recvS j).val = 9 + j.val := by decide

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The units one row's copy pays on either cell. -/
abbrev N : ℕ := (slotM 0 : Memref sig .tc .vmem S1x512 .f32).view.dmaCredit
theorem N_pos : 0 < N := View.dmaCredit_pos _ (by decide)
theorem N_slot : ∀ j : Fin 8, (slotM j : Memref sig .tc .vmem S1x512 .f32).view.dmaCredit = N := by decide

/-! ## Contents

What the buffers hold is stated over the memory the run starts from, `m`. -/

/-- Device `c`'s block of `x`, as its staging buffer holds it at the body's entry. -/
def xstg (c : Dev nD) : (cc0_stg0_0 : Ref sig .tc).ty.Contents (Elt F) :=
  (win0_0.blk (0 : Fin 1)).view.read (Elt F) (m ((c : Thread nD τ).loc main_arg0))

/-- The scratch as the run finds it (any contents: only used off the elements a statement speaks of). -/
abbrev scr0 (c : Dev nD) : Buf (Elt F) ((c : Thread nD τ).loc cc0_scratch0) := m ((c : Thread nD τ).loc cc0_scratch0)

/-- The scratch with slot 7 holding the sums of the columns of `c`'s block (the body's first store). -/
def own7 (c : Dev nD) : Buf (Elt F) ((c : Thread nD τ).loc cc0_scratch0) :=
  ((cM.access (slotR 7) : View sig .tc _ _ _)).write (Elt F) (scr0 m c) (k0_pay1 (xstg m c)) Finset.univ

/-- Row `j` of a scratch's contents, as a copy reads it. -/
def rowOf (c : Dev nD) (f : Buf (Elt F) ((c : Thread nD τ).loc cc0_scratch0)) (j : Fin 8) : S1x512.Idx → Elt F .f32 :=
  (slotM j : Memref sig .tc .vmem S1x512 .f32).view.read (Elt F) f

/-- The row device `c` sends out: its column sums. -/
def partRow (c : Dev nD) : S1x512.Idx → Elt F .f32 := rowOf c (own7 m c) 7

/-- The scratch of `c` with slot `j` holding what the device that writes it sends: `pk c (6 - j)`'s column sums. -/
def landBuf (c : Dev nD) (j : Fin 7) : Buf (Elt F) ((c : Thread nD τ).loc cc0_scratch0) :=
  (slotM j.castSucc : Memref sig .tc .vmem S1x512 .f32).view.write (Elt F) (scr0 m c) (partRow m (pk c j.rev)) Finset.univ

/-- The scratch when all seven rows have landed: slot `j < 7` as landed, slot 7 the device's own sums. -/
def commBuf (c : Dev nD) : Buf (Elt F) ((c : Thread nD τ).loc cc0_scratch0) := fun i =>
  if h : (i (0 : Fin 3)).val < 7 then landBuf m c ⟨(i (0 : Fin 3)).val, h⟩ i else own7 m c i

/-- Slot `j` of device `c`'s scratch at share `q`, holding `f` there. -/
def slotPts (c : Dev nD) (j : Fin 8) (q : PosShare TreeShare) (f : Buf (Elt F) ((c : Thread nD τ).loc cc0_scratch0)) : sProp 𝕄 :=
  (slotM j : Memref sig .tc .vmem S1x512 .f32).view.loc (c : Thread nD τ) ↦[(slotM j : Memref sig .tc .vmem S1x512 .f32).view.set]{q} f

omit [FloatOps F] in
instance slotPts_storable (c : Dev nD) (j : Fin 8) (q) (f) : BI.Storable (upEmb : UEmb _ 𝕄) (slotPts (F := F) c j q f) := by unfold slotPts; infer_instance

/-! ## The schedule: one round -/

/-- What the unit `pk c i` signals on `c`'s barrier hands `c`: slot `i` of `pk c i`'s scratch, which `c`'s copy `i` writes,
    and that `pk c i` is at round 0 of its receive cell `i`. -/
def barPay (c : Dev nD) (i : Fin 7) : sProp 𝕄 :=
  iprop((∃ f, slotPts (pk c i) i.castSucc fullShare f) ∗ reached ER (recvCell (pk c i) i) 0)
/-- What the landing of copy `6 - j` of `pk c (6 - j)` hands `c`: its slot `j` holding that device's sums. -/
def recvPay (c : Dev nD) (j : Fin 7) : sProp 𝕄 := slotPts c j.castSucc fullShare (landBuf m c j)
/-- What copy `j`'s source having been read hands back: the share of slot 7 the copy was lent. -/
def sendPay (c : Dev nD) (j : Fin 7) : sProp 𝕄 := slotPts c 7 (Transfers.shareTok fullShare 7 j) (own7 m c)

/-- Which copy a DMA semaphore of the kernel's belongs to, and on which side: `false` the send cell, `true` the receive cell. -/
def xferIdx (q : DmaSem sig) : Option (Bool × Fin 7) :=
  if h : 2 ≤ q.val ∧ q.val < 9 then some (false, ⟨q.val - 2, by omega⟩)
  else if h : 9 ≤ q.val ∧ q.val < 16 then some (true, ⟨q.val - 9, by omega⟩) else none
theorem xferIdx_send : ∀ j : Fin 7, xferIdx (sendS j) = some (false, j) := by decide
theorem xferIdx_recv : ∀ j : Fin 7, xferIdx (recvS j) = some (true, j) := by decide

/-- One round, round 0. A barrier cell has seven duties of one unit, duty `i` paid by `pk c i`; a send or receive cell the
    one duty `0` of a row's credit. -/
def sched : Rounds.Schedule (GSem nD τ sig) (Fin 7) 𝕄 where
  duties g r := if r = 0 ∧ g.1.2 = .tc then
      (match g.2 with
        | .reg s => if s = barS then Finset.univ else ∅
        | .dma q => if (xferIdx q).isSome then {0} else ∅)
    else ∅
  unitless _ := False
  amount g _ _ := match g.2 with | .reg _ => 1 | .dma _ => N
  payload g _ d := match g.2 with
    | .reg s => if s = barS then barPay g.1.1 d else iprop(emp)
    | .dma q => match xferIdx q with
      | some (false, j) => sendPay m g.1.1 j
      | some (true, j) => recvPay m g.1.1 j
      | none => iprop(emp)
  amount_pos g _ _ _ := by
    cases g.2 with
    | reg _ => exact Nat.one_pos
    | dma _ => exact N_pos

instance sched_payload_storable (g : GSem nD τ sig) (r : ℕ) (d : Fin 7) :
    BI.Storable (upEmb : UEmb _ 𝕄) ((sched (F := F) m).payload g r d) := by
  dsimp only [sched]
  unfold barPay recvPay sendPay
  (repeat' split) <;> infer_instance

section Tables
variable (c : Dev nD) (j : Fin 7)

theorem duties_bar : (sched (F := F) m).duties (barCell c) 0 = Finset.univ := by
  dsimp only [sched]; rw [if_pos ⟨rfl, rfl⟩, if_pos rfl]
theorem duties_send : (sched (F := F) m).duties (sendCell c j) 0 = {0} := by
  dsimp only [sched]; rw [if_pos ⟨rfl, rfl⟩, xferIdx_send]; rfl
theorem duties_recv : (sched (F := F) m).duties (recvCell c j) 0 = {0} := by
  dsimp only [sched]; rw [if_pos ⟨rfl, rfl⟩, xferIdx_recv]; rfl
theorem duties_later (g : GSem nD τ sig) : ∀ r, 1 ≤ r → (sched (F := F) m).duties g r = ∅ :=
  fun r hr => by dsimp only [sched]; rw [if_neg fun h => by omega]

theorem amount_bar (d : Fin 7) : (sched (F := F) m).amount (barCell c) 0 d = 1 := rfl
theorem amount_send (d : Fin 7) : (sched (F := F) m).amount (sendCell c j) 0 d = N := rfl
theorem amount_recv (d : Fin 7) : (sched (F := F) m).amount (recvCell c j) 0 d = N := rfl

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (i : Fin 7) : (sched (F := F) m).payload (barCell c) 0 i = barPay c i := by
  dsimp only [sched]; rw [if_pos rfl]
theorem payload_send (d : Fin 7) : (sched (F := F) m).payload (sendCell c j) 0 d = sendPay m c j := by
  dsimp only [sched]; rw [xferIdx_send]
theorem payload_recv (d : Fin 7) : (sched (F := F) m).payload (recvCell c j) 0 d = recvPay m c j := by
  dsimp only [sched]; rw [xferIdx_recv]

end Tables

end Cert.KernelIdeal.AllSum

end
-- ==== Proof.Levels.lean ====
/-
  What each device owes at launch, and the levels that order the waits.

  Device `c` owes, in the order it pays: one unit to the barrier cell of each `pk c j` (its seven signals), then a row's credit to
  receive cell `j` of each `pk c j` (its seven copies). A wait is allowed at a level below everything the waiter still owes:
  barrier cells sit at level 1 and receive cells at level 2, everything else (the staging cells, the send cells) at 0. So a
  device may wait on its barrier while it owes only receive credits, and on any cell once it owes nothing.
-/
import proofs.«901073_g7700000000001074_dist_sum_ax0_shard0_i_m1024_n512_v7x_i8_bf16_1_alg».proof.Proof.Gen.KernelIdeal.Skeleton
import proofs.«901073_g7700000000001074_dist_sum_ax0_shard0_i_m1024_n512_v7x_i8_bf16_1_alg».proof.Proof.Gen.KernelIdeal.Launch
import proofs.«901073_g7700000000001074_dist_sum_ax0_shard0_i_m1024_n512_v7x_i8_bf16_1_alg».proof.Proof.Gen.KernelIdeal.Frame
import proofs.«901073_g7700000000001074_dist_sum_ax0_shard0_i_m1024_n512_v7x_i8_bf16_1_alg».proof.Proof.Proto
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The unit signal `j` owes, and the credit copy `j` owes. -/
abbrev sigT (c : Dev nD) (j : Fin 7) : CellTallies nD τ sig Unit := tallyAt (barCell (pk c j)) () 1
abbrev cpyT (c : Dev nD) (j : Fin 7) : CellTallies nD τ sig Unit := tallyAt (recvCell (pk c j) j) () N

/-- What the copies owe, the one fired first written last. -/
def OC (c : Dev nD) : CellTallies nD τ sig Unit :=
  cpyT c 6 + cpyT c 5 + cpyT c 4 + cpyT c 3 + cpyT c 2 + cpyT c 1 + cpyT c 0
/-- What a device owes at launch: the copies' credits and the signals' units, the one paid first written last. -/
def O₀ (c : Dev nD) : CellTallies nD τ sig Unit :=
  OC c + sigT c 6 + sigT c 5 + sigT c 4 + sigT c 3 + sigT c 2 + sigT c 1 + sigT c 0

theorem OC_eq_sum (c : Dev nD) : OC c = ∑ j : Fin 7, cpyT c j := by
  unfold OC; rw [Fin.sum_univ_seven]; ac_rfl
theorem O₀_eq_sum (c : Dev nD) : O₀ c = (∑ j : Fin 7, cpyT c j) + ∑ j : Fin 7, sigT c j := by
  unfold O₀; rw [OC_eq_sum, Fin.sum_univ_seven (f := fun j => sigT c j)]; ac_rfl

def L (g : GSem nD τ sig) : Finset Unit := if g.1.2 = .tc then {()} else ∅
/-- Barrier cells at 1, receive cells at 2, everything else at 0. -/
def lv (g : GSem nD τ sig) (_ : Unit) : ℕ :=
  match g.2 with
  | .reg _ => 1
  | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) : ∀ j : Fin 7, lv (recvCell c j) () = 2 := by
  intro j; show (if 9 ≤ (recvS j).val then 2 else 0) = 2; rw [recvS_val, if_pos (by omega)]
theorem lv_send (c : Dev nD) : ∀ j : Fin 7, lv (sendCell c j) () = 0 := by
  intro j; show (if 9 ≤ (sendS j).val then 2 else 0) = 0; rw [sendS_val, if_neg (by omega)]

/-- Whatever the copies owe is owed to a receive cell of some device's TensorCore; -/
theorem OC_pos {c : Dev nD} {g : GSem nD τ sig} {u : Unit} (h : 0 < OC c g u) : ∃ j : Fin 7, g = recvCell (pk c j) j := by
  rw [OC_eq_sum] at h
  obtain ⟨j, -, hj⟩ := Pipeline.sum_pos_exists h
  refine ⟨j, ?_⟩
  rw [tallyAt_apply] at hj
  by_contra hn
  rw [if_neg (fun h' => hn h'.1)] at hj
  exact Nat.lt_irrefl 0 hj
/-- whatever a device owes at launch, to a receive cell or to a barrier cell. -/
theorem O₀_pos {c : Dev nD} {g : GSem nD τ sig} {u : Unit} (h : 0 < O₀ c g u) :
    (∃ j : Fin 7, g = recvCell (pk c j) j) ∨ ∃ j : Fin 7, g = barCell (pk c j) := by
  rw [O₀_eq_sum] at h
  rcases Pipeline.add_pos_cases h with h | h
  · left
    obtain ⟨j, -, hj⟩ := Pipeline.sum_pos_exists h
    refine ⟨j, ?_⟩
    rw [tallyAt_apply] at hj
    by_contra hn
    rw [if_neg (fun h' => hn h'.1)] at hj
    exact Nat.lt_irrefl 0 hj
  · right
    obtain ⟨j, -, hj⟩ := Pipeline.sum_pos_exists h
    refine ⟨j, ?_⟩
    rw [tallyAt_apply] at hj
    by_contra hn
    rw [if_neg (fun h' => hn h'.1)] at hj
    exact Nat.lt_irrefl 0 hj

omit [FloatOps F] in
/-- A wait on a cell of level 0 (a staging cell, a send cell), owing the launch's debt or nothing. -/
theorem mayWait_low (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), SemLoc.dma q) () = 0 := by show (if 9 ≤ q.val then 2 else 0) = 0; rw [if_neg (by omega)]
    rcases O₀_pos hg with ⟨j, rfl⟩ | ⟨j, rfl⟩
    · exact ⟨by rw [L_tc]; exact Finset.mem_singleton_self _, by rw [h0, lv_recv]; decide⟩
    · exact ⟨by rw [L_tc]; exact Finset.mem_singleton_self _, by rw [h0, lv_bar]; decide⟩
  · rw [MayWait_zero]; iintro -; iempintro

omit [FloatOps F] in
/-- At its barrier wait a device owes the copies' credits only: receive cells, above its barrier cell. -/
theorem mayWait_bar (c : Dev nD) : (levAts L lv : sProp 𝕄) ⊢ MayWait (c : Thread nD τ) (.reg barS) () (OC c) :=
  Pipeline.mayWait_of_levAts (by rw [L_tc]; exact Finset.mem_singleton_self _) fun g u hg => by
    obtain ⟨j, rfl⟩ := OC_pos hg
    exact ⟨by rw [L_tc]; exact Finset.mem_singleton_self _, by rw [lv_bar, lv_recv]; decide⟩

end Cert.KernelIdeal.AllSum

end
-- ==== Proof.Data.lean ====
/-
  The proof data of the one region: what each device holds when its body starts and when it ends, and what its two
  windows hold after the body.

  A device's fifteen cells are named: its barrier cell, and per copy `j` its send cell and its receive cell. Every device
  knows every cell's invariant and that every cell is at round 0 (persistent facts of the whole mesh); what is its own are
  its positions on its fifteen cells and the tokens of the twenty-one duties it pays: on the barrier cell of `pk c j` the
  duty `6 - j` (the name under which that device knows `c`), on receive cell `j` of `pk c j`, and on its own send cell `j`.
-/
import proofs.«901073_g7700000000001074_dist_sum_ax0_shard0_i_m1024_n512_v7x_i8_bf16_1_alg».proof.Proof.Gen.KernelIdeal.Skeleton
import proofs.«901073_g7700000000001074_dist_sum_ax0_shard0_i_m1024_n512_v7x_i8_bf16_1_alg».proof.Proof.Gen.KernelIdeal.Launch
import proofs.«901073_g7700000000001074_dist_sum_ax0_shard0_i_m1024_n512_v7x_i8_bf16_1_alg».proof.Proof.Gen.KernelIdeal.Frame
import proofs.«901073_g7700000000001074_dist_sum_ax0_shard0_i_m1024_n512_v7x_i8_bf16_1_alg».proof.Proof.Proto
import proofs.«901073_g7700000000001074_dist_sum_ax0_shard0_i_m1024_n512_v7x_i8_bf16_1_alg».proof.Proof.Levels
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's cells, named -/

/-- `none` the barrier cell; `some (false, j)` send cell `j`; `some (true, j)` receive cell `j`. -/
abbrev CK : Type := Option (Bool × Fin 7)
abbrev csem : CK → SemLoc sig
  | none => .reg barS
  | some (false, j) => .dma (sendS j)
  | some (true, j) => .dma (recvS j)
abbrev kcell (ck : Dev nD × CK) : GSem nD τ sig := ((ck.1 : Thread nD τ), csem ck.2)

theorem csem_injective : Function.Injective (csem : CK → SemLoc sig) := by decide
theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-! ## The ghost state -/

/-- The whole mesh's persistent facts under the names `K`: every cell's invariant, and every cell at round 0. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (sched m) (K ck) (kcell ck) := by
  have h : (bigSep Finset.univ fun ck : Dev nD × CK => (cellInv ER (sched m) (K ck) (kcell ck) : sProp 𝕄)) ⊢ cellInv ER (sched m) (K ck) (kcell ck) :=
    bigSep_elim (Finset.mem_univ ck)
  unfold records; iintro ⟨HI, -⟩; iapply h; iexact HI
theorem reached_at (K : Dev nD × CK → ℕ) (ck : Dev nD × CK) : records m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨-, HR⟩; iapply h; iexact HR

/-- The tokens of the duties device `c` pays, copy by copy: its signal `j`'s, its copy `j`'s arrival, its copy `j`'s departure. -/
def payTok (c : Dev nD) (j : Fin 7) : sProp 𝕄 :=
  iprop(dutyTok ER (barCell (pk c j)) 0 j.rev ∗ dutyTok ER (recvCell (pk c j) j) 0 0 ∗ dutyTok ER (sendCell c j) 0 0)
def payToks (c : Dev nD) : sProp 𝕄 := bigSep Finset.univ fun j : Fin 7 => payTok (F := F) c j
/-- Device `c`'s positions: round 0 of each of its cells, nothing taken, nothing consumed. -/
def positions (c : Dev nD) : sProp 𝕄 := bigSep Finset.univ fun k : CK => atPos ER (kcell (c, k)) 0 ∅ 0

def ghost (K : Dev nD × CK → ℕ) (c : Dev nD) : sProp 𝕄 := iprop(records m K ∗ positions (F := F) c ∗ payToks (F := F) c)

/-- The credit the launch deals device `c`: its barrier's seven units and each receive cell's row. -/
def credits (c : Dev nD) : sProp 𝕄 :=
  iprop(cred (tallyAt (barCell c) () 7) ∗ bigSep Finset.univ fun j : Fin 7 => cred (tallyAt (recvCell c j) () N))

/-- What device `c`'s body starts from, besides its buffers. -/
def start (c : Dev nD) : sProp 𝕄 := iprop((∃ K, ghost m K c) ∗ credits (F := F) c ∗ levAts L lv)

/-- The scratch whole, at some contents. -/
def scrSome (c : Dev nD) : sProp 𝕄 := iprop(∃ f : Buf (Elt F) ((c : Thread nD τ).loc cc0_scratch0), ((c : Thread nD τ).loc cc0_scratch0) ↦{fullShare} f)

/-- Before the point: the start and the scratch. After it: the scratch, and the fourteen own cells at zero, closed. -/
def Φ₀ (c : Dev nD) : sProp 𝕄 := iprop(start m c ∗ scrSome (F := F) c)
def Φ₁ (c : Dev nD) : sProp 𝕄 :=
  iprop(scrSome (F := F) c ∗ bigSep Finset.univ fun j : Fin 7 => iprop(semVal (sendCell c j) 0 ∗ semVal (recvCell c j) 0))

/-! ## What the windows hold after the body -/

abbrev rAll : Rect S8x1x512 := Rect.unit (s := S8x1x512) ![0, 0, 0] S8x1x512.size inb_S8x1x512_S8x1x512_0_0_0

/-- The result on device `c`: the eight slots added up. -/
def outAt (c : Dev nD) : S1x512.Idx → Elt F .f32 :=
  k0_pay2 ((cM : Memref sig .tc .vmem S8x1x512 .f32).view.readAt (Elt F) rAll.toLoadRect (commBuf m c))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.AllSum

end
-- ==== Proof.Slots.lean ====
/-
  The eight slots of the scratch: where a slot's elements sit, that the slots are pairwise apart and together the whole
  scratch, and what reading or writing one row does to the others.

  Slot `j` is the row `[j, 0, ·]` of the 8 × 1 × 512 scratch: its element `y` (of the row's shape 1 × 512) sits at
  `[j, 0, y 1]`. Holding a slot means holding exactly those 512 elements; contents off them are irrelevant.
-/
import proofs.«901073_g7700000000001074_dist_sum_ax0_shard0_i_m1024_n512_v7x_i8_bf16_1_alg».proof.Proof.Gen.KernelIdeal.Skeleton
import proofs.«901073_g7700000000001074_dist_sum_ax0_shard0_i_m1024_n512_v7x_i8_bf16_1_alg».proof.Proof.Gen.KernelIdeal.Launch
import proofs.«901073_g7700000000001074_dist_sum_ax0_shard0_i_m1024_n512_v7x_i8_bf16_1_alg».proof.Proof.Gen.KernelIdeal.Frame
import proofs.«901073_g7700000000001074_dist_sum_ax0_shard0_i_m1024_n512_v7x_i8_bf16_1_alg».proof.Proof.Proto
import proofs.«901073_g7700000000001074_dist_sum_ax0_shard0_i_m1024_n512_v7x_i8_bf16_1_alg».proof.Proof.Levels
import proofs.«901073_g7700000000001074_dist_sum_ax0_shard0_i_m1024_n512_v7x_i8_bf16_1_alg».proof.Proof.Data
import Idealize.ShloMosaic.Lib.ValueIdx
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ UU ℕ

variable (m : (ℓ : Loc nD τ sig) → Buf (Elt F) ℓ) (c : Dev nD)

/-! ## Where a slot's elements sit -/

/-- Dropping the leading unit axis of a 1 × 1 × 512 block matches the row's index `(a, b)` with `(0, a, b)`:
    both have row-major position `512 a + b`. -/
theorem squeeze_idx (y : S1x512.Idx) :
    Shape.reshapeEquiv (squeezes_S1x1x512_S1x512).numel_eq y = (ix3 (0 : Fin 1) (y 0) (y 1) : S1x1x512.Idx) :=
  Shape.reshapeEquiv_eq_of_rowMajor _ (by
    rw [Shape.rowMajor_val_three, Shape.rowMajor_val_two]
    show ((0 * 1 + (y 0).val) * 512 + (y 1).val) = (y 0).val * 512 + (y 1).val
    omega)

omit [FloatOps F] in
/-- Element `y` of row `j` sits at `[j, 0, y 1]`. -/
theorem slot_emb (j : Fin 8) (y : S1x512.Idx) :
    ((slotM j : Memref sig .tc .vmem S1x512 .f32).view.emb y : S8x1x512.Idx) = ix3 j (0 : Fin 1) (y 1) := by
  show (slotR j).emb (Shape.reshapeEquiv (squeezes_S1x1x512_S1x512).numel_eq y) = _
  rw [squeeze_idx]
  funext a
  refine Fin.ext ?_
  rw [Rect.emb_apply]
  match a with
  | ⟨0, _⟩ => show j.val + 1 * 0 = j.val; omega
  | ⟨1, _⟩ => show 0 + 1 * (y 0).val = 0; have h1 : (y 0).val < 1 := (y 0).isLt; omega
  | ⟨2, _⟩ => show 0 + 1 * (y 1).val = (y 1).val; omega

/-- The scratch's middle axis has one coordinate, so an index is its first and last coordinates around `0`. -/
theorem idx_row (i : S8x1x512.Idx) : (ix3 (i 0) (0 : Fin 1) (i 2) : S8x1x512.Idx) = i := by
  funext a
  match a with
  | ⟨0, _⟩ => rfl
  | ⟨1, _⟩ => exact Fin.ext (by have h1 : (i 1).val < 1 := (i 1).isLt; show (0 : ℕ) = (i 1).val; omega)
  | ⟨2, _⟩ => rfl

omit [FloatOps F] in
/-- An element of the scratch is in slot `j` exactly when its first coordinate is `j`. -/
theorem mem_slot (j : Fin 8) (i : S8x1x512.Idx) :
    i ∈ ((slotM j : Memref sig .tc .vmem S1x512 .f32).view.set : Finset S8x1x512.Idx) ↔ i 0 = j := by
  unfold View.set
  rw [Finset.mem_map]
  constructor
  · rintro ⟨y, -, rfl⟩
    rw [slot_emb]
  · intro h
    refine ⟨ix2 (0 : Fin 1) (i 2), Finset.mem_univ _, ?_⟩
    rw [slot_emb, ← h]
    exact idx_row i

/-! ## Rows read and written -/

omit [FloatOps F] in
/-- Reading row `j` of a scratch's contents. -/
theorem rowOf_apply (f : Buf (Elt F) ((c : Thread nD τ).loc cc0_scratch0)) (j : Fin 8) (y : S1x512.Idx) :
    rowOf c f j y = (f : S8x1x512.Idx → Elt F .f32) (ix3 j (0 : Fin 1) (y 1)) := by
  unfold rowOf
  rw [View.read_apply, slot_emb]
  rfl

omit [FloatOps F] in
/-- Writing row `j` whole and reading it back. -/
theorem rowOf_write_same (f : Buf (Elt F) ((c : Thread nD τ).loc cc0_scratch0)) (j : Fin 8) (w : S1x512.Idx → Elt F .f32) :
    rowOf c ((slotM j : Memref sig .tc .vmem S1x512 .f32).view.write (Elt F) f w Finset.univ) j = w := by
  unfold rowOf
  exact View.read_write_univ (v := (slotM j : Memref sig .tc .vmem S1x512 .f32).view) f w

omit [FloatOps F] in
/-- Writing row `j` leaves every other row as it was. -/
theorem rowOf_write_other (f : Buf (Elt F) ((c : Thread nD τ).loc cc0_scratch0)) (j j' : Fin 8) (h : j' ≠ j) (w : S1x512.Idx → Elt F .f32) :
    rowOf c ((slotM j : Memref sig .tc .vmem S1x512 .f32).view.write (Elt F) f w Finset.univ) j' = rowOf c f j' := by
  funext y
  rw [rowOf_apply, rowOf_apply]
  refine View.write_of_not_mem _ _ _ fun hm => h ?_
  rw [View.setOn_univ] at hm
  exact (mem_slot j _).mp hm

omit [FloatOps F] in
/-- Element `[0, 0, k]` of the rectangle of slot `j` sits at `[j, 0, k]`. -/
theorem access_emb (j : Fin 8) (k : Fin 512) :
    (((cM : Memref sig .tc .vmem S8x1x512 .f32).access (slotR j) : View sig .tc _ _ _).emb
        (ix3 (0 : Fin 1) (0 : Fin 1) k : S1x1x512.Idx) : S8x1x512.Idx) = ix3 j (0 : Fin 1) k := by
  show (slotR j).emb (ix3 (0 : Fin 1) (0 : Fin 1) k : S1x1x512.Idx) = _
  funext a
  refine Fin.ext ?_
  rw [Rect.emb_apply]
  match a with
  | ⟨0, _⟩ => show j.val + 1 * 0 = j.val; omega
  | ⟨1, _⟩ => show 0 + 1 * 0 = 0; omega
  | ⟨2, _⟩ => show 0 + 1 * k.val = k.val; omega

omit [FloatOps F] in
/-- A store through the rectangle of slot `j`, read back at `[j, 0, k]`: the payload at `[0, 0, k]`, whatever was there. -/
theorem access_write_apply (j : Fin 8) (f : Buf (Elt F) ((c : Thread nD τ).loc cc0_scratch0)) (w : S1x1x512.Idx → Elt F .f32)
    (k : Fin 512) :
    ((((cM : Memref sig .tc .vmem S8x1x512 .f32).access (slotR j) : View sig .tc _ _ _).write (Elt F) f w Finset.univ
        : S8x1x512.Idx → Elt F .f32) (ix3 j (0 : Fin 1) k)) = w (ix3 (0 : Fin 1) (0 : Fin 1) k) := by
  rw [← access_emb j k, View.write_emb_of_mem _ _ (Finset.mem_univ _)]
  rfl

/-- The row a device sends: the sums of the columns of its block, the body's first payload read as a row. -/
theorem partRow_eq (y : S1x512.Idx) :
    partRow m c y = (k0_pay1 (xstg m c) : S1x1x512.Idx → Elt F .f32) (ix3 (0 : Fin 1) (0 : Fin 1) (y 1)) := by
  unfold partRow own7
  rw [rowOf_apply]
  exact access_write_apply c 7 (scr0 m c) (k0_pay1 (xstg m c)) (y 1)

/-- The body's first store, whatever the scratch held before, leaves slot 7 holding the device's row. -/
theorem rowOf_store7 (f : Buf (Elt F) ((c : Thread nD τ).loc cc0_scratch0)) :
    rowOf c (((cM : Memref sig .tc .vmem S8x1x512 .f32).access (slotR 7) : View sig .tc _ _ _).write (Elt F) f (k0_pay1 (xstg m c)) Finset.univ) 7
      = partRow m c := by
  funext y
  rw [partRow_eq, rowOf_apply]
  exact access_write_apply c 7 f (k0_pay1 (xstg m c)) (y 1)

/-- The landed scratch at an element of a slot below 7 is that slot's landing; at an element of slot 7, the device's own store. -/
theorem commBuf_of_lt (i : S8x1x512.Idx) (h : (i (0 : Fin 3)).val < 7) :
    (commBuf m c : S8x1x512.Idx → Elt F .f32) i = (landBuf m c ⟨(i (0 : Fin 3)).val, h⟩ : S8x1x512.Idx → Elt F .f32) i := by
  unfold commBuf
  exact dif_pos h
theorem commBuf_of_not_lt (i : S8x1x512.Idx) (h : ¬ (i (0 : Fin 3)).val < 7) :
    (commBuf m c : S8x1x512.Idx → Elt F .f32) i = (own7 m c : S8x1x512.Idx → Elt F .f32) i := by
  unfold commBuf
  exact dif_neg h

/-- The rows of the scratch once everything has landed: row `j < 7` is the row of the device that writes it, row 7 the device's own. -/
theorem rowOf_commBuf_land (j : Fin 7) : rowOf c (commBuf m c) j.castSucc = partRow m (pk c j.rev) := by
  funext y
  have hlt : ((ix3 j.castSucc (0 : Fin 1) (y 1) : S8x1x512.Idx) 0).val < 7 := j.isLt
  have hland : rowOf c (landBuf m c j) j.castSucc = partRow m (pk c j.rev) := by
    unfold landBuf
    exact rowOf_write_same c (scr0 m c) j.castSucc (partRow m (pk c j.rev))
  rw [rowOf_apply, commBuf_of_lt m c _ hlt, ← hland, rowOf_apply]
  rfl
theorem rowOf_commBuf_own : rowOf c (commBuf m c) 7 = partRow m c := by
  funext y
  have hge : ¬ ((ix3 (7 : Fin 8) (0 : Fin 1) (y 1) : S8x1x512.Idx) 0).val < 7 := by
    show ¬ (7 : ℕ) < 7
    omega
  unfold partRow
  rw [rowOf_apply, commBuf_of_not_lt m c _ hge, rowOf_apply]
theorem rowOf_landBuf (j : Fin 7) : rowOf c (landBuf m c j) j.castSucc = partRow m (pk c j.rev) := by
  unfold landBuf
  exact rowOf_write_same c (scr0 m c) j.castSucc (partRow m (pk c j.rev))

omit [FloatOps F] in
/-- The whole scratch read in one load, at an index: row `i 0` at column `i 2`. -/
theorem readAll_apply (f : Buf (Elt F) ((c : Thread nD τ).loc cc0_scratch0)) (i : S8x1x512.Idx) :
    ((cM : Memref sig .tc .vmem S8x1x512 .f32).view.readAt (Elt F) rAll.toLoadRect f : S8x1x512.Idx → Elt F .f32) i
      = rowOf c f (i 0) (ix2 (0 : Fin 1) (i 2)) := by
  have hz : (![0, 0, 0] : Fin 3 → ℕ) = fun _ => 0 := by
    funext a
    match a with
    | ⟨0, _⟩ => rfl
    | ⟨1, _⟩ => rfl
    | ⟨2, _⟩ => rfl
  have hr := Memref.readAt_unit_zero (Elt F) cc0_scratch0 hz inb_S8x1x512_S8x1x512_0_0_0 f
  refine (congrFun hr i).trans ?_
  refine Eq.trans ?_ (rowOf_apply c f (i 0) (ix2 (0 : Fin 1) (i 2))).symm
  show f i = f (ix3 (i 0) (0 : Fin 1) (i 2))
  rw [idx_row i]

/-! ## Holding the scratch slot by slot -/

/-- Different slots share no element, -/
theorem slots_disjoint : ∀ t ∈ (Finset.univ : Finset (Fin 8)), ∀ t' ∈ (Finset.univ : Finset (Fin 8)), t ≠ t' →
    Disjoint ((slotM t : Memref sig .tc .vmem S1x512 .f32).view.set : Finset S8x1x512.Idx)
      ((slotM t' : Memref sig .tc .vmem S1x512 .f32).view.set : Finset S8x1x512.Idx) := by
  intro t _ t' _ hne
  rw [Finset.disjoint_left]
  intro i hi hi'
  exact hne (((mem_slot t i).mp hi).symm.trans ((mem_slot t' i).mp hi'))

/-- and every element is in the slot its first coordinate names. -/
theorem slots_cover :
    Finset.biUnion (β := S8x1x512.Idx) (Finset.univ : Finset (Fin 8))
        (fun j => ((slotM j : Memref sig .tc .vmem S1x512 .f32).view.set : Finset S8x1x512.Idx))
      = Finset.univ := by
  ext i
  simp only [Finset.mem_biUnion, Finset.mem_univ, true_and, iff_true]
  exact ⟨i 0, (mem_slot (i 0) i).mpr rfl⟩

omit [FloatOps F] in
/-- Only a slot's own row matters to holding it. -/
theorem slotPts_congr (j : Fin 8) (q : PosShare TreeShare) (f g : Buf (Elt F) ((c : Thread nD τ).loc cc0_scratch0))
    (h : rowOf c f j = rowOf c g j) : (slotPts c j q f : sProp 𝕄) = slotPts c j q g := by
  unfold slotPts
  refine pointsTo_congr fun i hi => ?_
  have hi0 : i 0 = j := (mem_slot j i).mp hi
  have hrow := congrFun h (ix2 (0 : Fin 1) (i 2))
  rw [rowOf_apply, rowOf_apply, ← hi0] at hrow
  rw [idx_row i] at hrow
  exact hrow

omit [FloatOps F] in
/-- The scratch whole, at any share, is its eight slots. -/
theorem scratch_slots (q : PosShare TreeShare) (f : Buf (Elt F) ((c : Thread nD τ).loc cc0_scratch0)) :
    ((((c : Thread nD τ).loc cc0_scratch0) ↦{q} f) : sProp 𝕄) = bigSep Finset.univ fun j : Fin 8 => slotPts c j q f := by
  have hb := pointsTo_biUnion (nD := nD) (τ := τ) (sig := sig) (Ix := Unit) (Val := Elt F) (Name := ℕ) (U := UU) (Lvl := ℕ)
    (ℓ := (c : Thread nD τ).loc cc0_scratch0) (q := q) (f := f) (Finset.univ : Finset (Fin 8))
    (fun j => ((slotM j : Memref sig .tc .vmem S1x512 .f32).view.set : Finset S8x1x512.Idx)) slots_disjoint
  rw [slots_cover] at hb
  exact hb

omit [FloatOps F] in
/-- Eight slots at the full share, each at its own contents, are the scratch whole at some contents. -/
theorem scratch_join (fs : Fin 8 → Buf (Elt F) ((c : Thread nD τ).loc cc0_scratch0)) :
    (bigSep Finset.univ fun j : Fin 8 => (slotPts c j fullShare (fs j) : sProp 𝕄)) ⊢ scrSome (F := F) c := by
  have hb := pointsTo_biUnion_join (nD := nD) (τ := τ) (sig := sig) (Ix := Unit) (Val := Elt F) (Name := ℕ) (U := UU) (Lvl := ℕ)
    (ℓ := (c : Thread nD τ).loc cc0_scratch0) (q := fullShare) (Finset.univ : Finset (Fin 8))
    (fun j => ((slotM j : Memref sig .tc .vmem S1x512 .f32).view.set : Finset S8x1x512.Idx)) fs (fs 0) slots_disjoint
  rw [slots_cover] at hb
  refine hb.trans ?_
  unfold scrSome
  iintro H
  icases H with ⟨%g, -, H⟩
  iexists g
  iexact H

/-- The rectangle of slot `j` and the row squeezed out of it have the same elements. -/
theorem access_set (j : Fin 8) :
    ((cM : Memref sig .tc .vmem S8x1x512 .f32).access (slotR j) : View sig .tc _ _ _).setOn Finset.univ
      = (slotM j : Memref sig .tc .vmem S1x512 .f32).view.set := by
  rw [View.setOn_univ]
  show _ = (((cM : Memref sig .tc .vmem S8x1x512 .f32).view.slice (slotR j)).reshape S1x512 (squeezes_S1x1x512_S1x512).numel_eq).set
  rw [View.set_reshape]
theorem access7_set :
    ((cM : Memref sig .tc .vmem S8x1x512 .f32).access (slotR 7) : View sig .tc _ _ _).setOn Finset.univ
      = (slotM 7 : Memref sig .tc .vmem S1x512 .f32).view.set := access_set 7

omit [FloatOps F] in
/-- What the body's accesses of slot 7 need: the load's and the store's elements are the slot's. -/
theorem slot7_load_sub :
    (cM : Memref sig .tc .vmem S8x1x512 .f32).view.setOn (slotR 7).toLoadRect.set ⊆ (slotM 7 : Memref sig .tc .vmem S1x512 .f32).view.set := by
  show (cM : Memref sig .tc .vmem S8x1x512 .f32).view.setOn (slotR 7).set
    ⊆ (((cM : Memref sig .tc .vmem S8x1x512 .f32).view.slice (slotR 7)).reshape S1x512 (squeezes_S1x1x512_S1x512).numel_eq).set
  rw [View.set_reshape, View.set_slice]
  exact Finset.Subset.refl _
omit [FloatOps F] in
theorem slot7_store_sub :
    ((cM : Memref sig .tc .vmem S8x1x512 .f32).access (slotR 7) : View sig .tc _ _ _).setOn Finset.univ ⊆ (slotM 7 : Memref sig .tc .vmem S1x512 .f32).view.set := by
  rw [access7_set]

/-! ## What the statements rest on -/

/-- info: 'Cert.KernelIdeal.AllSum.slot_emb' depends on axioms: [propext, Classical.choice, Quot.sound] -/
#guard_msgs in #print axioms slot_emb
/-- info: 'Cert.KernelIdeal.AllSum.mem_slot' depends on axioms: [propext, Classical.choice, Quot.sound] -/
#guard_msgs in #print axioms mem_slot
/-- info: 'Cert.KernelIdeal.AllSum.rowOf_apply' depends on axioms: [propext, Classical.choice, Quot.sound] -/
#guard_msgs in #print axioms rowOf_apply
/-- info: 'Cert.KernelIdeal.AllSum.slotPts_congr' depends on axioms: [propext, Classical.choice, Quot.sound] -/
#guard_msgs in #print axioms slotPts_congr
/-- info: 'Cert.KernelIdeal.AllSum.scratch_slots' depends on axioms: [propext, Classical.choice, Quot.sound] -/
#guard_msgs in #print axioms scratch_slots
/-- info: 'Cert.KernelIdeal.AllSum.scratch_join' depends on axioms: [propext, Classical.choice, Quot.sound] -/
#guard_msgs in #print axioms scratch_join
/-- info: 'Cert.KernelIdeal.AllSum.slot7_load_sub' depends on axioms: [propext, Classical.choice, Quot.sound] -/
#guard_msgs in #print axioms slot7_load_sub
/-- info: 'Cert.KernelIdeal.AllSum.slot7_store_sub' depends on axioms: [propext, Classical.choice, Quot.sound] -/
#guard_msgs in #print axioms slot7_store_sub
/-- info: 'Cert.KernelIdeal.AllSum.rowOf_write_same' depends on axioms: [propext, Classical.choice, Quot.sound] -/
#guard_msgs in #print axioms rowOf_write_same
/-- info: 'Cert.KernelIdeal.AllSum.rowOf_write_other' depends on axioms: [propext, Classical.choice, Quot.sound] -/
#guard_msgs in #print axioms rowOf_write_other
/-- info: 'Cert.KernelIdeal.AllSum.partRow_eq' depends on axioms: [propext, Classical.choice, Quot.sound] -/
#guard_msgs in #print axioms partRow_eq
/-- info: 'Cert.KernelIdeal.AllSum.rowOf_store7' depends on axioms: [propext, Classical.choice, Quot.sound] -/
#guard_msgs in #print axioms rowOf_store7
/-- info: 'Cert.KernelIdeal.AllSum.rowOf_commBuf_land' depends on axioms: [propext, Classical.choice, Quot.sound] -/
#guard_msgs in #print axioms rowOf_commBuf_land
/-- info: 'Cert.KernelIdeal.AllSum.rowOf_commBuf_own' depends on axioms: [propext, Classical.choice, Quot.sound] -/
#guard_msgs in #print axioms rowOf_commBuf_own
/-- info: 'Cert.KernelIdeal.AllSum.rowOf_landBuf' depends on axioms: [propext, Classical.choice, Quot.sound] -/
#guard_msgs in #print axioms rowOf_landBuf
/-- info: 'Cert.KernelIdeal.AllSum.readAll_apply' depends on axioms: [propext, Classical.choice, Quot.sound] -/
#guard_msgs in #print axioms readAll_apply

end Cert.KernelIdeal.AllSum

end
-- ==== Proof.Steps.lean ====
/-
  The two statements of the body that reach another device, each as ONE rule over (device, copy).

  Signal `j` of device `c` pays duty `6 - j` of `pk c j`'s barrier cell and hands over `c`'s slot `6 - j` (the slot `pk c j`'s copy
  writes) together with the fact that `c`'s receive cell `6 - j` is at round 0. Copy `j` reads `c`'s slot 7 at the read share
  kept for it and writes slot `j` of `pk c j`, which `c` holds since its barrier wait; what lands is stated over the
  receiver's initial scratch, which is the same assertion because only the slot's own row matters.
-/
import proofs.«901073_g7700000000001074_dist_sum_ax0_shard0_i_m1024_n512_v7x_i8_bf16_1_alg».proof.Proof.Gen.KernelIdeal.Skeleton
import proofs.«901073_g7700000000001074_dist_sum_ax0_shard0_i_m1024_n512_v7x_i8_bf16_1_alg».proof.Proof.Gen.KernelIdeal.Launch
import proofs.«901073_g7700000000001074_dist_sum_ax0_shard0_i_m1024_n512_v7x_i8_bf16_1_alg».proof.Proof.Gen.KernelIdeal.Frame
import proofs.«901073_g7700000000001074_dist_sum_ax0_shard0_i_m1024_n512_v7x_i8_bf16_1_alg».proof.Proof.Proto
import proofs.«901073_g7700000000001074_dist_sum_ax0_shard0_i_m1024_n512_v7x_i8_bf16_1_alg».proof.Proof.Levels
import proofs.«901073_g7700000000001074_dist_sum_ax0_shard0_i_m1024_n512_v7x_i8_bf16_1_alg».proof.Proof.Data
import proofs.«901073_g7700000000001074_dist_sum_ax0_shard0_i_m1024_n512_v7x_i8_bf16_1_alg».proof.Proof.Slots
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem inv_bar (K : Dev nD × CK → ℕ) (d : Dev nD) : records m K ⊢ cellInv ER (sched m) (K (d, none)) (barCell d) := inv_at m K (d, none)
theorem inv_send (K : Dev nD × CK → ℕ) (d : Dev nD) (j : Fin 7) : records m K ⊢ cellInv ER (sched m) (K (d, some (false, j))) (sendCell d j) := inv_at m K (d, some (false, j))
theorem inv_recv (K : Dev nD × CK → ℕ) (d : Dev nD) (j : Fin 7) : records m K ⊢ cellInv ER (sched m) (K (d, some (true, j))) (recvCell d j) := inv_at m K (d, some (true, j))
theorem reached_bar (K : Dev nD × CK → ℕ) (d : Dev nD) : records m K ⊢ reached ER (barCell d) 0 := reached_at m K (d, none)
theorem reached_send (K : Dev nD × CK → ℕ) (d : Dev nD) (j : Fin 7) : records m K ⊢ reached ER (sendCell d j) 0 := reached_at m K (d, some (false, j))
theorem reached_recv (K : Dev nD × CK → ℕ) (d : Dev nD) (j : Fin 7) : records m K ⊢ reached ER (recvCell d j) 0 := reached_at m K (d, some (true, j))

/-- Signal `j`: a unit on `pk c j`'s barrier, with slot `6 - j`. -/
theorem signal_step (K : Dev nD × CK → ℕ) (c : Dev nD) (j : Fin 7) (n : Dev nD) (hn : n = pk c j)
    {α : Type} {Q : α → sProp 𝕄} {k : PUnit → Prog (TpuEff nD τ sig (Elt F) Λ₀ .tc) α}
    (O : CellTallies nD τ sig Unit) (W : Waits sig Unit) (f : Buf (Elt F) ((c : Thread nD τ).loc cc0_scratch0)) :
    iprop(records m K ∗ owes (c : Thread nD τ) (O + sigT c j) W ∗ dutyTok ER (barCell (pk c j)) 0 j.rev ∗ slotPts c j.rev.castSucc fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toNat) k) Q) := by
  subst hn
  iintro ⟨#HR, HO, Ht, Hs⟩
  iapply (Rounds.wp_signal 𝒱₀ ER (sched m) (c : Thread nD τ) none (dst := (pk c j : Thread nD τ)) (κ := K (pk c j, none)) (d := j.rev)
      (by rw [duties_bar]; exact Finset.mem_univ _) ((amount_bar m (pk c j) j.rev).trans (by decide)) () O rfl) $$ [HO Ht Hs]
  · isplitr; · iapply (inv_bar m K (pk c j)); iexact HR
    isplitl [HO]; · iexact HO
    isplitl [Ht]; · iexact Ht
    isplitl [Hs]
    · rw [payload_bar]; unfold barPay; rw [pk_pk_rev]
      isplitl [Hs]; · iexists f; iexact Hs
      iapply (reached_recv m K c j.rev); iexact HR
    · iapply (reached_bar m K (pk c j)); iexact HR

/-- What copy `j` lands on `pk c j` is what the schedule says that device receives. -/
theorem landed_eq (c : Dev nD) (j : Fin 7) (fn : Buf (Elt F) ((pk c j : Thread nD τ).loc cc0_scratch0)) :
    (slotPts (pk c j) j.castSucc fullShare
        ((slotM j.castSucc : Memref sig .tc .vmem S1x512 .f32).view.write (Elt F) fn ((slotM 7 : Memref sig .tc .vmem S1x512 .f32).view.read (Elt F) (own7 m c)) Finset.univ) : sProp 𝕄)
      = recvPay m (pk c j) j := by
  unfold recvPay
  refine slotPts_congr (pk c j) j.castSucc fullShare _ _ ?_
  rw [rowOf_write_same, rowOf_landBuf, pk_pk_rev]
  rfl

/-- Copy `j`: slot 7 of `c`, read at its share, into slot `j` of `pk c j`. -/
theorem send_step (K : Dev nD × CK → ℕ) (c : Dev nD) (j : Fin 7) (n : Dev nD) (hn : n = pk c j)
    {hsc : (slotM j.castSucc : Memref sig (Dev.tc n : Thread nD τ).2.kind .vmem S1x512 .f32).view.ref.isScScratch = false}
    {hsrc : (slotM 7 : Memref sig .tc .vmem S1x512 .f32).view.WordExact} {hdst : (slotM j.castSucc : Memref sig .tc .vmem S1x512 .f32).view.WordExact}
    {hsem : DmaTarget.Typed .vmem (.dma (recvS j)) (.remote (Dev.tc n : Thread nD τ) (slotM j.castSucc : Memref sig .tc .vmem S1x512 .f32) (.dma (sendS j)) hsc)}
    {α : Type} {Q : α → sProp 𝕄} {k : PUnit → Prog (TpuEff nD τ sig (Elt F) Λ₀ .tc) α}
    (fn : Buf (Elt F) ((pk c j : Thread nD τ).loc cc0_scratch0)) (O : CellTallies nD τ sig Unit) (W : Waits sig Unit) :
    iprop(records m K ∗ ((slotM 7 : Memref sig .tc .vmem S1x512 .f32).view.loc (c : Thread nD τ) ↦[(slotM 7 : Memref sig .tc .vmem S1x512 .f32).view.set]{Transfers.shareTok fullShare 7 j} own7 m c)
        ∗ ((slotM j.castSucc : Memref sig .tc .vmem S1x512 .f32).view.loc (pk c j : Thread nD τ) ↦[(slotM j.castSucc : Memref sig .tc .vmem S1x512 .f32).view.set]{fullShare} fn)
        ∗ owes (c : Thread nD τ) (O + cpyT c j) W
        ∗ dutyTok ER (sendCell c j) 0 0 ∗ dutyTok ER (recvCell (pk c j) j) 0 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 7 : Memref sig .tc .vmem S1x512 .f32) (.remote (Dev.tc n : Thread nD τ) (slotM j.castSucc : Memref sig .tc .vmem S1x512 .f32) (.dma (sendS j)) hsc) (.dma (recvS j)) hsrc hdst hsem) k) Q) := by
  subst hn
  iintro ⟨#HR, Hsrc, Hdst, HO, Hts, Htv⟩
  iapply (Rounds.wp_send_pointsTo 𝒱₀ ER (sched m) (c : Thread nD τ) none (c' := (pk c j : Thread nD τ))
      (src := (slotM 7 : Memref sig .tc .vmem S1x512 .f32)) (dst := (slotM j.castSucc : Memref sig .tc .vmem S1x512 .f32))
      (sS := .dma (sendS j)) (sem := .dma (recvS j)) (q := Transfers.shareTok fullShare 7 j) (fs := own7 m c)
      (κ₁ := K (c, some (false, j))) (κ₂ := K (pk c j, some (true, j)))
      (r₁ := 0) (r₂ := 0) (d₁ := 0) (d₂ := 0) (fd := fn)
      (by rw [duties_send]; exact Finset.mem_singleton_self _) (by rw [duties_recv]; exact Finset.mem_singleton_self _)
      () () N (show (slotM j.castSucc : Memref sig .tc .vmem S1x512 .f32).view.amount (.dma (recvS j)) = N from N_slot j.castSucc) (amount_send m c j 0) (amount_recv m (pk c j) j 0) O rfl (W := W)
      (by rw [payload_send]; unfold sendPay slotPts; exact BI.Entails.refl _)
      (by rw [payload_recv, ← landed_eq m c j fn]; unfold slotPts; exact BI.Entails.refl _)) $$ [Hsrc Hdst HO Hts Htv]
  isplitr; · iapply (inv_send m K c j); iexact HR
  isplitr; · iapply (inv_recv m K (pk c j) j); iexact HR
  isplitl [Hsrc]; · iexact Hsrc
  isplitl [Hdst]; · iexact Hdst
  isplitl [HO]; · iexact HO
  isplitl [Hts]; · iexact Hts
  isplitr; · iapply (reached_send m K c j); iexact HR
  isplitl [Htv]; · iexact Htv
  iapply (reached_recv m K (pk c j) j); iexact HR

/-- The last copy to be fired: afterwards the device owes nothing. -/
theorem send_step_last (K : Dev nD × CK → ℕ) (c : Dev nD) (j : Fin 7) (n : Dev nD) (hn : n = pk c j)
    {hsc : (slotM j.castSucc : Memref sig (Dev.tc n : Thread nD τ).2.kind .vmem S1x512 .f32).view.ref.isScScratch = false}
    {hsrc : (slotM 7 : Memref sig .tc .vmem S1x512 .f32).view.WordExact} {hdst : (slotM j.castSucc : Memref sig .tc .vmem S1x512 .f32).view.WordExact}
    {hsem : DmaTarget.Typed .vmem (.dma (recvS j)) (.remote (Dev.tc n : Thread nD τ) (slotM j.castSucc : Memref sig .tc .vmem S1x512 .f32) (.dma (sendS j)) hsc)}
    {α : Type} {Q : α → sProp 𝕄} {k : PUnit → Prog (TpuEff nD τ sig (Elt F) Λ₀ .tc) α}
    (fn : Buf (Elt F) ((pk c j : Thread nD τ).loc cc0_scratch0)) (W : Waits sig Unit) :
    iprop(records m K ∗ ((slotM 7 : Memref sig .tc .vmem S1x512 .f32).view.loc (c : Thread nD τ) ↦[(slotM 7 : Memref sig .tc .vmem S1x512 .f32).view.set]{Transfers.shareTok fullShare 7 j} own7 m c)
        ∗ ((slotM j.castSucc : Memref sig .tc .vmem S1x512 .f32).view.loc (pk c j : Thread nD τ) ↦[(slotM j.castSucc : Memref sig .tc .vmem S1x512 .f32).view.set]{fullShare} fn)
        ∗ owes (c : Thread nD τ) (cpyT c j) W
        ∗ dutyTok ER (sendCell c j) 0 0 ∗ dutyTok ER (recvCell (pk c j) j) 0 0)
      ⊢ iprop(((cred (tallyAt (sendCell c j) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 7 : Memref sig .tc .vmem S1x512 .f32) (.remote (Dev.tc n : Thread nD τ) (slotM j.castSucc : Memref sig .tc .vmem S1x512 .f32) (.dma (sendS j)) hsc) (.dma (recvS j)) hsrc hdst hsem) k) Q) := by
  have h := send_step m K c j n hn (hsc := hsc) (hsrc := hsrc) (hdst := hdst) (hsem := hsem) (Q := Q) (k := k) fn 0 W
  rwa [zero_add] at h

end Cert.KernelIdeal.AllSum

end
-- ==== Proof.Scratch.lean ====
/-
  Holding the scratch around the one load that reads all of it.

  When the seven rows have landed a device holds slots 0 to 6 outright and slot 7 only in part: seven read shares of it are
  lent to the copies still reading it. The load of the whole scratch needs one share of all eight slots, so each landed slot
  is cut the same way as slot 7 (a kept part and seven spare read shares) and the eight kept parts are joined. At the end
  the copies' shares are back, every slot is made whole again, and the eight slots are the scratch.
-/
import proofs.«901073_g7700000000001074_dist_sum_ax0_shard0_i_m1024_n512_v7x_i8_bf16_1_alg».proof.Proof.Gen.KernelIdeal.Skeleton
import proofs.«901073_g7700000000001074_dist_sum_ax0_shard0_i_m1024_n512_v7x_i8_bf16_1_alg».proof.Proof.Gen.KernelIdeal.Launch
import proofs.«901073_g7700000000001074_dist_sum_ax0_shard0_i_m1024_n512_v7x_i8_bf16_1_alg».proof.Proof.Gen.KernelIdeal.Frame
import proofs.«901073_g7700000000001074_dist_sum_ax0_shard0_i_m1024_n512_v7x_i8_bf16_1_alg».proof.Proof.Proto
import proofs.«901073_g7700000000001074_dist_sum_ax0_shard0_i_m1024_n512_v7x_i8_bf16_1_alg».proof.Proof.Levels
import proofs.«901073_g7700000000001074_dist_sum_ax0_shard0_i_m1024_n512_v7x_i8_bf16_1_alg».proof.Proof.Data
import proofs.«901073_g7700000000001074_dist_sum_ax0_shard0_i_m1024_n512_v7x_i8_bf16_1_alg».proof.Proof.Slots
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Transfers (shareDrop shareTok)

local notation "𝕄" => MT nD τ sig Unit (Elt F) ℕ UU ℕ

variable (m : (ℓ : Loc nD τ sig) → Buf (Elt F) ℓ)

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- The eight slots, the first seven named as the copies name them. -/
theorem bigSep_eight (Φ : Fin 8 → sProp 𝕄) : bigSep Finset.univ Φ
    = iprop(Φ (Fin.castSucc (0 : Fin 7)) ∗ Φ (Fin.castSucc (1 : Fin 7)) ∗ Φ (Fin.castSucc (2 : Fin 7)) ∗ Φ (Fin.castSucc (3 : Fin 7))
      ∗ Φ (Fin.castSucc (4 : Fin 7)) ∗ Φ (Fin.castSucc (5 : Fin 7)) ∗ Φ (Fin.castSucc (6 : Fin 7)) ∗ Φ 7) :=
  bigSep_univ_eq_bigSepL [0, 1, 2, 3, 4, 5, 6, 7] (by decide) (by decide) Φ

omit [FloatOps F] in
theorem whole_scratch (c : Dev nD) (q : PosShare TreeShare) (f : Buf (Elt F) ((c : Thread nD τ).loc cc0_scratch0)) :
    (((cM : Memref sig .tc .vmem S8x1x512 .f32).view.loc (c : Thread nD τ) ↦[(cM : Memref sig .tc .vmem S8x1x512 .f32).view.set]{q} f) : sProp 𝕄)
      = (((c : Thread nD τ).loc cc0_scratch0) ↦{q} f) := by
  rw [View.set_whole]

omit [FloatOps F] in
theorem slot_congr (c : Dev nD) (j : Fin 8) (q : PosShare TreeShare) (f g : Buf (Elt F) ((c : Thread nD τ).loc cc0_scratch0))
    (h : rowOf c f j = rowOf c g j) :
    (((slotM j : Memref sig .tc .vmem S1x512 .f32).view.loc (c : Thread nD τ) ↦[(slotM j : Memref sig .tc .vmem S1x512 .f32).view.set]{q} f) : sProp 𝕄)
      ⊢ ((slotM j : Memref sig .tc .vmem S1x512 .f32).view.loc (c : Thread nD τ) ↦[(slotM j : Memref sig .tc .vmem S1x512 .f32).view.set]{q} g) :=
  Entails.of_eq (slotPts_congr c j q f g h)

/-- Slot `j < 7` holding what landed, as the receive cell's duty hands it over. -/
abbrev landedPts (c : Dev nD) (j : Fin 7) : sProp 𝕄 :=
  ((slotM j.castSucc : Memref sig .tc .vmem S1x512 .f32).view.loc (c : Thread nD τ) ↦[(slotM j.castSucc : Memref sig .tc .vmem S1x512 .f32).view.set]{fullShare} landBuf m c j)
/-- Slot 7 at the share the device keeps while its copies read it; -/
abbrev keptPts (c : Dev nD) : sProp 𝕄 :=
  ((slotM 7 : Memref sig .tc .vmem S1x512 .f32).view.loc (c : Thread nD τ) ↦[(slotM 7 : Memref sig .tc .vmem S1x512 .f32).view.set]{shareDrop fullShare 7} own7 m c)
/-- and at the share copy `i` hands back. -/
abbrev tokPts (c : Dev nD) (i : Fin 7) : sProp 𝕄 :=
  ((slotM 7 : Memref sig .tc .vmem S1x512 .f32).view.loc (c : Thread nD τ) ↦[(slotM 7 : Memref sig .tc .vmem S1x512 .f32).view.set]{shareTok fullShare 7 i} own7 m c)
/-- The scratch whole at the kept share, holding everything that has landed. -/
abbrev wholeKept (c : Dev nD) : sProp 𝕄 :=
  ((cM : Memref sig .tc .vmem S8x1x512 .f32).view.loc (c : Thread nD τ) ↦[(cM : Memref sig .tc .vmem S8x1x512 .f32).view.set]{shareDrop fullShare 7} commBuf m c)
/-- The spare read shares of a landed slot, and of all seven. -/
def spareAt (c : Dev nD) (j : Fin 7) : sProp 𝕄 :=
  bigSep Finset.univ fun i : Fin 7 =>
    ((slotM j.castSucc : Memref sig .tc .vmem S1x512 .f32).view.loc (c : Thread nD τ) ↦[(slotM j.castSucc : Memref sig .tc .vmem S1x512 .f32).view.set]{shareTok fullShare 7 i} commBuf m c)
def spare (c : Dev nD) : sProp 𝕄 := bigSep Finset.univ (spareAt m c)

/-- A landed slot, cut into its kept part and its spare shares, over the contents the load reads. -/
theorem landed_cut (c : Dev nD) (j : Fin 7) :
    landedPts m c j ⊢ iprop(slotPts c j.castSucc (shareDrop fullShare 7) (commBuf m c) ∗ spareAt m c j) :=
  (slot_congr c j.castSucc fullShare _ (commBuf m c) ((rowOf_landBuf m c j).trans (rowOf_commBuf_land m c j).symm)).trans
    (Transfers.pointsTo_toks_split fullShare 7)
theorem landed_uncut (c : Dev nD) (j : Fin 7) :
    iprop(slotPts c j.castSucc (shareDrop fullShare 7) (commBuf m c) ∗ spareAt m c j) ⊢ slotPts c j.castSucc fullShare (commBuf m c) :=
  Transfers.pointsTo_toks_join fullShare 7

theorem kept_congr (c : Dev nD) : keptPts m c ⊢ slotPts c 7 (shareDrop fullShare 7) (commBuf m c) :=
  slot_congr c 7 _ _ (commBuf m c) (rowOf_commBuf_own m c).symm
theorem tok_congr (c : Dev nD) (i : Fin 7) :
    tokPts m c i ⊢ ((slotM 7 : Memref sig .tc .vmem S1x512 .f32).view.loc (c : Thread nD τ) ↦[(slotM 7 : Memref sig .tc .vmem S1x512 .f32).view.set]{shareTok fullShare 7 i} commBuf m c) :=
  slot_congr c 7 _ _ (commBuf m c) (rowOf_commBuf_own m c).symm

/-- Everything landed: the scratch whole at the kept share, and the spare shares. -/
theorem assemble (c : Dev nD) :
    iprop(landedPts m c 0 ∗ landedPts m c 1 ∗ landedPts m c 2 ∗ landedPts m c 3 ∗ landedPts m c 4 ∗ landedPts m c 5 ∗ landedPts m c 6 ∗ keptPts m c)
      ⊢ iprop(wholeKept m c ∗ spare m c) := by
  iintro ⟨H0, H1, H2, H3, H4, H5, H6, H7⟩
  ihave H0 := (landed_cut m c 0) $$ H0
  icases H0 with ⟨K0, R0⟩
  ihave H1 := (landed_cut m c 1) $$ H1
  icases H1 with ⟨K1, R1⟩
  ihave H2 := (landed_cut m c 2) $$ H2
  icases H2 with ⟨K2, R2⟩
  ihave H3 := (landed_cut m c 3) $$ H3
  icases H3 with ⟨K3, R3⟩
  ihave H4 := (landed_cut m c 4) $$ H4
  icases H4 with ⟨K4, R4⟩
  ihave H5 := (landed_cut m c 5) $$ H5
  icases H5 with ⟨K5, R5⟩
  ihave H6 := (landed_cut m c 6) $$ H6
  icases H6 with ⟨K6, R6⟩
  ihave K7 := (kept_congr m c) $$ H7
  isplitl [K0 K1 K2 K3 K4 K5 K6 K7]
  · iapply (Entails.of_eq (whole_scratch c (shareDrop fullShare 7) (commBuf m c)).symm)
    iapply (Entails.of_eq ((scratch_slots c (shareDrop fullShare 7) (commBuf m c)).trans (bigSep_eight _)).symm)
    isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  · unfold spare
    iapply (Entails.of_eq (bigSep_seven (spareAt m c)).symm)
    isplitl [R0]; · iexact R0
    isplitl [R1]; · iexact R1
    isplitl [R2]; · iexact R2
    isplitl [R3]; · iexact R3
    isplitl [R4]; · iexact R4
    isplitl [R5]; · iexact R5
    iexact R6

/-- At the end: the copies' shares back, every slot whole again, the eight slots the scratch. -/
theorem reassemble (c : Dev nD) :
    iprop(wholeKept m c ∗ spare m c ∗ tokPts m c 0 ∗ tokPts m c 1 ∗ tokPts m c 2 ∗ tokPts m c 3 ∗ tokPts m c 4 ∗ tokPts m c 5 ∗ tokPts m c 6)
      ⊢ scrSome (F := F) c := by
  iintro ⟨HW, HS, T0, T1, T2, T3, T4, T5, T6⟩
  ihave HW := (Entails.of_eq ((whole_scratch c (shareDrop fullShare 7) (commBuf m c)).trans
    ((scratch_slots c (shareDrop fullShare 7) (commBuf m c)).trans (bigSep_eight _)))) $$ HW
  icases HW with ⟨K0, K1, K2, K3, K4, K5, K6, K7⟩
  unfold spare
  ihave HS := (Entails.of_eq (bigSep_seven (spareAt m c))) $$ HS
  icases HS with ⟨R0, R1, R2, R3, R4, R5, R6⟩
  ihave F0 := (landed_uncut m c 0) $$ [K0 R0]
  · isplitl [K0]; · iexact K0
    iexact R0
  ihave F1 := (landed_uncut m c 1) $$ [K1 R1]
  · isplitl [K1]; · iexact K1
    iexact R1
  ihave F2 := (landed_uncut m c 2) $$ [K2 R2]
  · isplitl [K2]; · iexact K2
    iexact R2
  ihave F3 := (landed_uncut m c 3) $$ [K3 R3]
  · isplitl [K3]; · iexact K3
    iexact R3
  ihave F4 := (landed_uncut m c 4) $$ [K4 R4]
  · isplitl [K4]; · iexact K4
    iexact R4
  ihave F5 := (landed_uncut m c 5) $$ [K5 R5]
  · isplitl [K5]; · iexact K5
    iexact R5
  ihave F6 := (landed_uncut m c 6) $$ [K6 R6]
  · isplitl [K6]; · iexact K6
    iexact R6
  ihave T0 := (tok_congr m c 0) $$ T0
  ihave T1 := (tok_congr m c 1) $$ T1
  ihave T2 := (tok_congr m c 2) $$ T2
  ihave T3 := (tok_congr m c 3) $$ T3
  ihave T4 := (tok_congr m c 4) $$ T4
  ihave T5 := (tok_congr m c 5) $$ T5
  ihave T6 := (tok_congr m c 6) $$ T6
  ihave F7 := (show iprop(slotPts c 7 (shareDrop fullShare 7) (commBuf m c)
      ∗ bigSep Finset.univ fun i : Fin 7 =>
        ((slotM 7 : Memref sig .tc .vmem S1x512 .f32).view.loc (c : Thread nD τ) ↦[(slotM 7 : Memref sig .tc .vmem S1x512 .f32).view.set]{shareTok fullShare 7 i} commBuf m c))
      ⊢ slotPts c 7 fullShare (commBuf m c) from Transfers.pointsTo_toks_join fullShare 7) $$ [K7 T0 T1 T2 T3 T4 T5 T6]
  · isplitl [K7]; · iexact K7
    iapply (Entails.of_eq (bigSep_seven _).symm)
    isplitl [T0]; · iexact T0
    isplitl [T1]; · iexact T1
    isplitl [T2]; · iexact T2
    isplitl [T3]; · iexact T3
    isplitl [T4]; · iexact T4
    isplitl [T5]; · iexact T5
    iexact T6
  unfold scrSome
  iexists (commBuf m c)
  iapply (Entails.of_eq ((scratch_slots c fullShare (commBuf m c)).trans (bigSep_eight _)).symm)
  isplitl [F0]; · iexact F0
  isplitl [F1]; · iexact F1
  isplitl [F2]; · iexact F2
  isplitl [F3]; · iexact F3
  isplitl [F4]; · iexact F4
  isplitl [F5]; · iexact F5
  isplitl [F6]; · iexact F6
  iexact F7

end Cert.KernelIdeal.AllSum

end
-- ==== Proof.Body.lean ====
/-
  One device's body, stepped from what the device holds at its start to what it holds at its end.
-/
import proofs.«901073_g7700000000001074_dist_sum_ax0_shard0_i_m1024_n512_v7x_i8_bf16_1_alg».proof.Proof.Gen.KernelIdeal.Skeleton
import proofs.«901073_g7700000000001074_dist_sum_ax0_shard0_i_m1024_n512_v7x_i8_bf16_1_alg».proof.Proof.Gen.KernelIdeal.Launch
import proofs.«901073_g7700000000001074_dist_sum_ax0_shard0_i_m1024_n512_v7x_i8_bf16_1_alg».proof.Proof.Gen.KernelIdeal.Frame
import proofs.«901073_g7700000000001074_dist_sum_ax0_shard0_i_m1024_n512_v7x_i8_bf16_1_alg».proof.Proof.Proto
import proofs.«901073_g7700000000001074_dist_sum_ax0_shard0_i_m1024_n512_v7x_i8_bf16_1_alg».proof.Proof.Levels
import proofs.«901073_g7700000000001074_dist_sum_ax0_shard0_i_m1024_n512_v7x_i8_bf16_1_alg».proof.Proof.Data
import proofs.«901073_g7700000000001074_dist_sum_ax0_shard0_i_m1024_n512_v7x_i8_bf16_1_alg».proof.Proof.Slots
import proofs.«901073_g7700000000001074_dist_sum_ax0_shard0_i_m1024_n512_v7x_i8_bf16_1_alg».proof.Proof.Steps
import proofs.«901073_g7700000000001074_dist_sum_ax0_shard0_i_m1024_n512_v7x_i8_bf16_1_alg».proof.Proof.Scratch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.Transfers (shareDrop shareTok)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_ck (Φ : CK → sProp 𝕄) : bigSep Finset.univ Φ
    = iprop(Φ none ∗ Φ (some (false, 0)) ∗ Φ (some (false, 1)) ∗ Φ (some (false, 2)) ∗ Φ (some (false, 3)) ∗ Φ (some (false, 4)) ∗ Φ (some (false, 5)) ∗ Φ (some (false, 6))
      ∗ Φ (some (true, 0)) ∗ Φ (some (true, 1)) ∗ Φ (some (true, 2)) ∗ Φ (some (true, 3)) ∗ Φ (some (true, 4)) ∗ Φ (some (true, 5)) ∗ Φ (some (true, 6))) :=
  bigSep_univ_eq_bigSepL [none, some (false, 0), some (false, 1), some (false, 2), some (false, 3), some (false, 4), some (false, 5), some (false, 6),
    some (true, 0), some (true, 1), some (true, 2), some (true, 3), some (true, 4), some (true, 5), some (true, 6)] (by decide) (by decide) Φ

omit [FloatOps F] in
/-- A whole buffer held through its memref's view is the buffer held. -/
theorem whole_pts (c : Dev nD) (b : Ref sig .tc) (q : PosShare TreeShare) (f : Buf (Elt F) ((c : Thread nD τ).loc b)) :
    (((Memref.whole b : Memref sig .tc _ _ _).view.loc (c : Thread nD τ) ↦[(Memref.whole b : Memref sig .tc _ _ _).view.set]{q} f) : sProp 𝕄)
      = (((c : Thread nD τ).loc b) ↦{q} f) := by
  rw [View.set_whole]

omit [FloatOps F] in
theorem bigSep_fin8' (Φ : Fin 8 → sProp 𝕄) : bigSep Finset.univ Φ = iprop(Φ 6 ∗ Φ 5 ∗ Φ 4 ∗ Φ 3 ∗ Φ 2 ∗ Φ 1 ∗ Φ 0 ∗ Φ 7) :=
  bigSep_univ_eq_bigSepL [6, 5, 4, 3, 2, 1, 0, 7] (by decide) (by decide) Φ

theorem fetch_0 (t : Fin cfg0.N) : (cfg0.win (0 : Fin 2)).fetch t = true := by rw [fin_N t]; rfl

omit [FloatOps F] in
theorem hz2 : (![0, 0] : Fin 2 → Nat) = fun _ => 0 := funext fun a => by fin_cases a <;> rfl
omit [FloatOps F] in
/-- The load of the whole staging block reads the block. -/
theorem read_x (f : (cc0_stg0_0 : Ref sig .tc).ty.Contents (Elt F)) :
    (xM : Memref sig .tc .vmem S1024x512 .f32).view.readAt (Elt F) (Rect.unit (s := S1024x512) ![0, 0] S1024x512.size inb_S1024x512_S1024x512_0_0).toLoadRect f = f :=
  Memref.readAt_unit_zero (Elt F) cc0_stg0_0 hz2 _ f
omit [FloatOps F] in
/-- The store of the whole output block leaves the block holding what was stored. -/
theorem write_out (f w : (cc0_stg1_0 : Ref sig .tc).ty.Contents (Elt F)) :
    ((oM : Memref sig .tc .vmem S1x512 .f32).access (Rect.unit (s := S1x512) ![0, 0] S1x512.size inb_S1x512_S1x512_0_0) : View sig .tc _ _ _).write (Elt F) f w Finset.univ = w :=
  Memref.write_access_unit_zero_univ (Elt F) cc0_stg1_0 hz2 _ f w

omit [FloatOps F] in
/-- Only a slot's own row matters to holding it, as an entailment between the points-tos themselves. -/
theorem slot_congr' (c : Dev nD) (j : Fin 8) (q : PosShare TreeShare) (f g : Buf (Elt F) ((c : Thread nD τ).loc cc0_scratch0))
    (h : rowOf c f j = rowOf c g j) :
    (((slotM j : Memref sig .tc .vmem S1x512 .f32).view.loc (c : Thread nD τ) ↦[(slotM j : Memref sig .tc .vmem S1x512 .f32).view.set]{q} f) : sProp 𝕄)
      ⊢ ((slotM j : Memref sig .tc .vmem S1x512 .f32).view.loc (c : Thread nD τ) ↦[(slotM j : Memref sig .tc .vmem S1x512 .f32).view.set]{q} g) :=
  Entails.of_eq (slotPts_congr c j q f g h)

/-- The body's first store, in the program's spelling of the rectangle. -/
theorem rowOf_store7' (c : Dev nD) (f : Buf (Elt F) ((c : Thread nD τ).loc cc0_scratch0)) :
    rowOf c (((Memref.whole cc0_scratch0 : Memref sig .tc .vmem S8x1x512 .f32).access
        (Rect.unit (s := S8x1x512) ![7, 0, 0] S1x1x512.size inb_S8x1x512_S1x1x512_7_0_0) : View sig .tc _ _ _).write (Elt F) f (k0_pay1 (xstg m c)) Finset.univ) 7
      = rowOf c (own7 m c) 7 :=
  rowOf_store7 m c f

/-- A device's tokens, by kind: the signals', the copies' arrivals', the copies' departures'. -/
theorem payToks_open (c : Dev nD) : payToks (F := F) c
    = iprop((bigSep Finset.univ fun j : Fin 7 => dutyTok ER (barCell (pk c j)) 0 j.rev)
      ∗ (bigSep Finset.univ fun j : Fin 7 => dutyTok ER (recvCell (pk c j) j) 0 0)
      ∗ (bigSep Finset.univ fun j : Fin 7 => dutyTok ER (sendCell c j) 0 0)) := by
  unfold payToks payTok; rw [bigSep_sep', bigSep_sep']

/-- A device's positions, by kind: on its barrier cell, on its send cells, on its receive cells. -/
theorem positions_open (c : Dev nD) : positions (F := F) c
    ⊢ iprop(atPos ER (barCell c) 0 ∅ 0 ∗ (bigSep Finset.univ fun j : Fin 7 => atPos ER (sendCell c j) 0 ∅ 0)
      ∗ (bigSep Finset.univ fun j : Fin 7 => atPos ER (recvCell c j) 0 ∅ 0)) := by
  unfold positions; rw [bigSep_ck, bigSep_fin7, bigSep_fin7]
  dsimp only [kcell, csem]
  iintro ⟨HB, S0, S1, S2, S3, S4, S5, S6, V0, V1, V2, V3, V4, V5, V6⟩
  isplitl [HB]; · iexact HB
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  · isplitl [V0]; · iexact V0
    isplitl [V1]; · iexact V1
    isplitl [V2]; · iexact V2
    isplitl [V3]; · iexact V3
    isplitl [V4]; · iexact V4
    isplitl [V5]; · iexact V5
    iexact V6

omit [FloatOps F] in
/-- One store of the whole output block over any contents leaves what was stored. -/
theorem out_writes (g w : (cc0_stg1_0 : Ref sig .tc).ty.Contents (Elt F)) :
    (Memref.whole cc0_stg1_0 : Memref sig .tc .vmem S1x512 .f32).view.writes (Elt F) g
        [⟨Rect.unit (s := S1x512) ![0, 0] S1x512.size inb_S1x512_S1x512_0_0, w⟩] = w :=
  write_out g w

/-- The barrier duty signal `j` pays, with the peers resolved: the device's own slot `6 - j` and its receive cell `6 - j` at round 0. -/
theorem payload_bar_peer (c : Dev nD) (j : Fin 7) : (sched (F := F) m).payload (barCell (pk c j)) 0 j.rev
    = iprop((∃ f, slotPts c j.rev.castSucc fullShare f) ∗ reached ER (recvCell c j.rev) 0) := by
  rw [payload_bar]; unfold barPay; rw [pk_pk_rev]

theorem payload_bar_peer0 (c : Dev nD) : (sched (F := F) m).payload (barCell (pk c 0)) 0 6
    = iprop((∃ f, (slotM 6 : Memref sig .tc .vmem S1x512 .f32).view.loc (c : Thread nD τ) ↦[(slotM 6 : Memref sig .tc .vmem S1x512 .f32).view.set]{fullShare} f) ∗ reached ER (recvCell c 6) 0) :=
  payload_bar_peer m c 0
theorem payload_bar_peer1 (c : Dev nD) : (sched (F := F) m).payload (barCell (pk c 1)) 0 5
    = iprop((∃ f, (slotM 5 : Memref sig .tc .vmem S1x512 .f32).view.loc (c : Thread nD τ) ↦[(slotM 5 : Memref sig .tc .vmem S1x512 .f32).view.set]{fullShare} f) ∗ reached ER (recvCell c 5) 0) :=
  payload_bar_peer m c 1
theorem payload_bar_peer2 (c : Dev nD) : (sched (F := F) m).payload (barCell (pk c 2)) 0 4
    = iprop((∃ f, (slotM 4 : Memref sig .tc .vmem S1x512 .f32).view.loc (c : Thread nD τ) ↦[(slotM 4 : Memref sig .tc .vmem S1x512 .f32).view.set]{fullShare} f) ∗ reached ER (recvCell c 4) 0) :=
  payload_bar_peer m c 2
theorem payload_bar_peer3 (c : Dev nD) : (sched (F := F) m).payload (barCell (pk c 3)) 0 3
    = iprop((∃ f, (slotM 3 : Memref sig .tc .vmem S1x512 .f32).view.loc (c : Thread nD τ) ↦[(slotM 3 : Memref sig .tc .vmem S1x512 .f32).view.set]{fullShare} f) ∗ reached ER (recvCell c 3) 0) :=
  payload_bar_peer m c 3
theorem payload_bar_peer4 (c : Dev nD) : (sched (F := F) m).payload (barCell (pk c 4)) 0 2
    = iprop((∃ f, (slotM 2 : Memref sig .tc .vmem S1x512 .f32).view.loc (c : Thread nD τ) ↦[(slotM 2 : Memref sig .tc .vmem S1x512 .f32).view.set]{fullShare} f) ∗ reached ER (recvCell c 2) 0) :=
  payload_bar_peer m c 4
theorem payload_bar_peer5 (c : Dev nD) : (sched (F := F) m).payload (barCell (pk c 5)) 0 1
    = iprop((∃ f, (slotM 1 : Memref sig .tc .vmem S1x512 .f32).view.loc (c : Thread nD τ) ↦[(slotM 1 : Memref sig .tc .vmem S1x512 .f32).view.set]{fullShare} f) ∗ reached ER (recvCell c 1) 0) :=
  payload_bar_peer m c 5
theorem payload_bar_peer6 (c : Dev nD) : (sched (F := F) m).payload (barCell (pk c 6)) 0 0
    = iprop((∃ f, (slotM 0 : Memref sig .tc .vmem S1x512 .f32).view.loc (c : Thread nD τ) ↦[(slotM 0 : Memref sig .tc .vmem S1x512 .f32).view.set]{fullShare} f) ∗ reached ER (recvCell c 0) 0) :=
  payload_bar_peer m c 6

/-- What a receive cell's one duty hands its owner, and a send cell's, spelt as the points-tos they are. -/
theorem payload_recv_own (c : Dev nD) (j : Fin 7) : (sched (F := F) m).payload (recvCell c j) 0 0
    = ((slotM j.castSucc : Memref sig .tc .vmem S1x512 .f32).view.loc (c : Thread nD τ) ↦[(slotM j.castSucc : Memref sig .tc .vmem S1x512 .f32).view.set]{fullShare} landBuf m c j) :=
  payload_recv m c j 0
theorem payload_send_own (c : Dev nD) (j : Fin 7) : (sched (F := F) m).payload (sendCell c j) 0 0
    = ((slotM 7 : Memref sig .tc .vmem S1x512 .f32).view.loc (c : Thread nD τ) ↦[(slotM 7 : Memref sig .tc .vmem S1x512 .f32).view.set]{shareTok fullShare 7 j} own7 m c) :=
  payload_send m c j 0

/-- What the barrier wait hands over, duty by duty: the seven peers' slots. -/
theorem rest_bar' (c : Dev nD) : (bigSep Finset.univ fun d : Fin 7 => (sched (F := F) m).payload (barCell c) 0 d)
    = iprop(barPay c 0 ∗ barPay c 1 ∗ barPay c 2 ∗ barPay c 3 ∗ barPay c 4 ∗ barPay c 5 ∗ barPay c 6) := by
  rw [bigSep_fin7]
  simp only [payload_bar]

/-- The rest of the barrier cell's round, no duty taken: the seven peers' slots. -/
theorem rest_bar (c : Dev nD) : bigSep ((sched (F := F) m).duties (barCell c) 0 \ ∅) (fun d => (sched (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_fin7]
  simp only [payload_bar]

attribute [local sl_rounds] duties_bar duties_send duties_recv amount_bar amount_send amount_recv expect_bar expect_send expect_recv
  payload_bar_peer0 payload_bar_peer1 payload_bar_peer2 payload_bar_peer3 payload_bar_peer4 payload_bar_peer5 payload_bar_peer6 payload_send_own payload_recv_own
attribute [local sl_canon] sig0_eq sig1_eq sig2_eq sig3_eq sig4_eq sig5_eq sig6_eq cpy0_eq cpy1_eq cpy2_eq cpy3_eq cpy4_eq cpy5_eq cpy6_eq

set_option maxHeartbeats 16000000 in
theorem sound_body (c : Dev nD) :
    iprop(Φ₀ m c ∗ (dats m 0 c).owesAt () t₀.castSucc
      ∗ (∃ d, stg c cc0_stg0_0 ((dats m 0 c).before (0 : Fin 2) t₀ d))
      ∗ (∃ d, stg c cc0_stg1_0 ((dats m 0 c).before (1 : Fin 2) t₀ d)))
    ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2)
        (fun _ => iprop(Φ₁ (F := F) c ∗ (dats m 0 c).owesAt () t₀.succ ∗ stg c cc0_stg0_0 (xstg m c) ∗ stg c cc0_stg1_0 (outAt m c))) := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold Φ₀ start ghost credits scrSome
  rw [payToks_open]
  iintro ⟨⟨⟨⟨%K, #HR, Hpos, HtB, HtV, HtS⟩, ⟨HcB, HcV⟩, #Hlev⟩, ⟨%f0, Hscr⟩⟩,
    Ho, ⟨%d0, %g0, %hg0, Hx⟩, ⟨%d1, %g1, %hg1, Hout⟩⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ OC
  ihave Hpos := (positions_open c) $$ Hpos
  icases Hpos with ⟨HaB, HaS, HaV⟩
  -- the scratch, slot by slot, in the order the signals hand the slots over
  ihave Hs := (Entails.of_eq ((scratch_slots c fullShare f0).trans (bigSep_fin8' _))) $$ Hscr
  icases Hs with ⟨Hs6, Hs5, Hs4, Hs3, Hs2, Hs1, Hs0, Hs7⟩
  unfold slotPts
  -- the seven signals: each pays a unit on a peer's barrier and hands over one slot and one round-0 mark
  ihave HtB := (Entails.of_eq (bigSep_fin7 _)) $$ HtB
  icases HtB with ⟨HtB0, HtB1, HtB2, HtB3, HtB4, HtB5, HtB6⟩
  ihave #HIb0 := (inv_bar m K (pk c 0)) $$ HR
  ihave #Hrb0 := (reached_bar m K (pk c 0)) $$ HR
  ihave #Hrv0 := (reached_recv m K c 0) $$ HR
  ihave #HIb1 := (inv_bar m K (pk c 1)) $$ HR
  ihave #Hrb1 := (reached_bar m K (pk c 1)) $$ HR
  ihave #Hrv1 := (reached_recv m K c 1) $$ HR
  ihave #HIb2 := (inv_bar m K (pk c 2)) $$ HR
  ihave #Hrb2 := (reached_bar m K (pk c 2)) $$ HR
  ihave #Hrv2 := (reached_recv m K c 2) $$ HR
  ihave #HIb3 := (inv_bar m K (pk c 3)) $$ HR
  ihave #Hrb3 := (reached_bar m K (pk c 3)) $$ HR
  ihave #Hrv3 := (reached_recv m K c 3) $$ HR
  ihave #HIb4 := (inv_bar m K (pk c 4)) $$ HR
  ihave #Hrb4 := (reached_bar m K (pk c 4)) $$ HR
  ihave #Hrv4 := (reached_recv m K c 4) $$ HR
  ihave #HIb5 := (inv_bar m K (pk c 5)) $$ HR
  ihave #Hrb5 := (reached_bar m K (pk c 5)) $$ HR
  ihave #Hrv5 := (reached_recv m K c 5) $$ HR
  ihave #HIb6 := (inv_bar m K (pk c 6)) $$ HR
  ihave #Hrb6 := (reached_bar m K (pk c 6)) $$ HR
  ihave #Hrv6 := (reached_recv m K c 6) $$ HR
  sl_exec
  iclear HIb0 Hrb0 Hrv0 HIb1 Hrb1 Hrv1 HIb2 Hrb2 Hrv2 HIb3 Hrb3 Hrv3 HIb4 Hrb4 Hrv4 HIb5 Hrb5 Hrv5 HIb6 Hrb6 Hrv6
  -- the column sums into slot 7
  ihave Hx := (Entails.of_eq (whole_pts c cc0_stg0_0 fullShare (xstg m c)).symm) $$ Hx
  ihave Hout := (Entails.of_eq (whole_pts c cc0_stg1_0 fullShare g1).symm) $$ Hout
  sl_exec
  sl_unfold_words
  -- slot 7 holds the device's row, whatever the scratch held before
  rw [read_x]
  ihave Hs7 := (slot_congr' c 7 fullShare _ (own7 m c) (rowOf_store7' m c f0)) $$ Hs7
  -- the barrier wait, owing the copies' credits: the seven peers' slots come with it
  have hmw : (levAts L lv : sProp 𝕄) ⊢ MayWait (c : Thread nD τ) (.reg barS) () (cpyT c 6 + cpyT c 5 + cpyT c 4 + cpyT c 3 + cpyT c 2 + cpyT c 1 + cpyT c 0) := mayWait_bar c
  ihave #HIB := (inv_bar m K c) $$ HR
  sl_exec
  ihave Hp := (Entails.of_eq (rest_bar' m c)) $$ HaB_pay1
  unfold barPay slotPts
  icases Hp with ⟨⟨⟨%fn0, Hd0⟩, -⟩, ⟨⟨%fn1, Hd1⟩, -⟩, ⟨⟨%fn2, Hd2⟩, -⟩, ⟨⟨%fn3, Hd3⟩, -⟩, ⟨⟨%fn4, Hd4⟩, -⟩, ⟨⟨%fn5, Hd5⟩, -⟩, ⟨⟨%fn6, Hd6⟩, -⟩⟩
  -- slot 7: a share kept for the device's own reading, and one read share per copy
  ihave Hs7 := ((Transfers.pointsTo_toks_split fullShare 7).trans (sep_mono_right (Entails.of_eq (bigSep_fin7 _)))) $$ Hs7
  icases Hs7 with ⟨Hs7, Hk0, Hk1, Hk2, Hk3, Hk4, Hk5, Hk6⟩
  -- the seven copies
  ihave HtV := (Entails.of_eq (bigSep_fin7 _)) $$ HtV
  icases HtV with ⟨HtV0, HtV1, HtV2, HtV3, HtV4, HtV5, HtV6⟩
  ihave HtS := (Entails.of_eq (bigSep_fin7 _)) $$ HtS
  icases HtS with ⟨HtS0, HtS1, HtS2, HtS3, HtS4, HtS5, HtS6⟩
  iapply (send_step m K c 0 _ (cpy0_eq c) fn0 (cpyT c 6 + cpyT c 5 + cpyT c 4 + cpyT c 3 + cpyT c 2 + cpyT c 1) (insert (SemLoc.reg barS, ()) W)) $$ [Hk0 Hd0 HO HtS0 HtV0]
  · isplitr; · iexact HR
    isplitl [Hk0]; · iexact Hk0
    isplitl [Hd0]; · iexact Hd0
    isplitl [HO]; · iexact HO
    isplitl [HtS0]; · iexact HtS0
    iexact HtV0
  iintro ⟨HcS0, HO⟩
  iapply (send_step m K c 1 _ (cpy1_eq c) fn1 (cpyT c 6 + cpyT c 5 + cpyT c 4 + cpyT c 3 + cpyT c 2) (insert (SemLoc.reg barS, ()) W)) $$ [Hk1 Hd1 HO HtS1 HtV1]
  · isplitr; · iexact HR
    isplitl [Hk1]; · iexact Hk1
    isplitl [Hd1]; · iexact Hd1
    isplitl [HO]; · iexact HO
    isplitl [HtS1]; · iexact HtS1
    iexact HtV1
  iintro ⟨HcS1, HO⟩
  iapply (send_step m K c 2 _ (cpy2_eq c) fn2 (cpyT c 6 + cpyT c 5 + cpyT c 4 + cpyT c 3) (insert (SemLoc.reg barS, ()) W)) $$ [Hk2 Hd2 HO HtS2 HtV2]
  · isplitr; · iexact HR
    isplitl [Hk2]; · iexact Hk2
    isplitl [Hd2]; · iexact Hd2
    isplitl [HO]; · iexact HO
    isplitl [HtS2]; · iexact HtS2
    iexact HtV2
  iintro ⟨HcS2, HO⟩
  iapply (send_step m K c 3 _ (cpy3_eq c) fn3 (cpyT c 6 + cpyT c 5 + cpyT c 4) (insert (SemLoc.reg barS, ()) W)) $$ [Hk3 Hd3 HO HtS3 HtV3]
  · isplitr; · iexact HR
    isplitl [Hk3]; · iexact Hk3
    isplitl [Hd3]; · iexact Hd3
    isplitl [HO]; · iexact HO
    isplitl [HtS3]; · iexact HtS3
    iexact HtV3
  iintro ⟨HcS3, HO⟩
  iapply (send_step m K c 4 _ (cpy4_eq c) fn4 (cpyT c 6 + cpyT c 5) (insert (SemLoc.reg barS, ()) W)) $$ [Hk4 Hd4 HO HtS4 HtV4]
  · isplitr; · iexact HR
    isplitl [Hk4]; · iexact Hk4
    isplitl [Hd4]; · iexact Hd4
    isplitl [HO]; · iexact HO
    isplitl [HtS4]; · iexact HtS4
    iexact HtV4
  iintro ⟨HcS4, HO⟩
  iapply (send_step m K c 5 _ (cpy5_eq c) fn5 (cpyT c 6) (insert (SemLoc.reg barS, ()) W)) $$ [Hk5 Hd5 HO HtS5 HtV5]
  · isplitr; · iexact HR
    isplitl [Hk5]; · iexact Hk5
    isplitl [Hd5]; · iexact Hd5
    isplitl [HO]; · iexact HO
    isplitl [HtS5]; · iexact HtS5
    iexact HtV5
  iintro ⟨HcS5, HO⟩
  iapply (send_step_last m K c 6 _ (cpy6_eq c) fn6 (insert (SemLoc.reg barS, ()) W)) $$ [Hk6 Hd6 HO HtS6 HtV6]
  · isplitr; · iexact HR
    isplitl [Hk6]; · iexact Hk6
    isplitl [Hd6]; · iexact Hd6
    isplitl [HO]; · iexact HO
    isplitl [HtS6]; · iexact HtS6
    iexact HtV6
  iintro ⟨HcS6, HO⟩
  -- the seven receive waits: each hands over a landed slot
  ihave HaV := (Entails.of_eq (bigSep_fin7 _)) $$ HaV
  icases HaV with ⟨HaV0, HaV1, HaV2, HaV3, HaV4, HaV5, HaV6⟩
  ihave HcV := (Entails.of_eq (bigSep_fin7 _)) $$ HcV
  icases HcV with ⟨HcV0, HcV1, HcV2, HcV3, HcV4, HcV5, HcV6⟩
  ihave #HIv0 := (inv_recv m K c 0) $$ HR
  ihave #HIv1 := (inv_recv m K c 1) $$ HR
  ihave #HIv2 := (inv_recv m K c 2) $$ HR
  ihave #HIv3 := (inv_recv m K c 3) $$ HR
  ihave #HIv4 := (inv_recv m K c 4) $$ HR
  ihave #HIv5 := (inv_recv m K c 5) $$ HR
  ihave #HIv6 := (inv_recv m K c 6) $$ HR
  sl_exec
  -- all eight slots at one share: the scratch whole, for the load that reads all of it
  ihave HW := (assemble m c) $$ [HaV0_pay1 HaV1_pay1 HaV2_pay1 HaV3_pay1 HaV4_pay1 HaV5_pay1 HaV6_pay1 Hs7]
  · isplitl [HaV0_pay1]; · iexact HaV0_pay1
    isplitl [HaV1_pay1]; · iexact HaV1_pay1
    isplitl [HaV2_pay1]; · iexact HaV2_pay1
    isplitl [HaV3_pay1]; · iexact HaV3_pay1
    isplitl [HaV4_pay1]; · iexact HaV4_pay1
    isplitl [HaV5_pay1]; · iexact HaV5_pay1
    isplitl [HaV6_pay1]; · iexact HaV6_pay1
    iexact Hs7
  icases HW with ⟨HW, Hspare⟩
  -- the load of the whole scratch, the output's store, and the seven send waits
  ihave HaS := (Entails.of_eq (bigSep_fin7 _)) $$ HaS
  icases HaS with ⟨HaS0, HaS1, HaS2, HaS3, HaS4, HaS5, HaS6⟩
  ihave #HIs0 := (inv_send m K c 0) $$ HR
  ihave #HIs1 := (inv_send m K c 1) $$ HR
  ihave #HIs2 := (inv_send m K c 2) $$ HR
  ihave #HIs3 := (inv_send m K c 3) $$ HR
  ihave #HIs4 := (inv_send m K c 4) $$ HR
  ihave #HIs5 := (inv_send m K c 5) $$ HR
  ihave #HIs6 := (inv_send m K c 6) $$ HR
  sl_exec
  -- the fourteen own cells close: their counters at zero are the device's again
  imod (Rounds.cell_close ER (sched m) (Set.mem_univ (K (c, some (false, 0)))) (fun h => h) (R := 1) (duties_later m (sendCell c 0))) $$ [HaS0] with HzS0
  · isplitr; · iexact HIs0
    iexact HaS0
  imod (Rounds.cell_close ER (sched m) (Set.mem_univ (K (c, some (false, 1)))) (fun h => h) (R := 1) (duties_later m (sendCell c 1))) $$ [HaS1] with HzS1
  · isplitr; · iexact HIs1
    iexact HaS1
  imod (Rounds.cell_close ER (sched m) (Set.mem_univ (K (c, some (false, 2)))) (fun h => h) (R := 1) (duties_later m (sendCell c 2))) $$ [HaS2] with HzS2
  · isplitr; · iexact HIs2
    iexact HaS2
  imod (Rounds.cell_close ER (sched m) (Set.mem_univ (K (c, some (false, 3)))) (fun h => h) (R := 1) (duties_later m (sendCell c 3))) $$ [HaS3] with HzS3
  · isplitr; · iexact HIs3
    iexact HaS3
  imod (Rounds.cell_close ER (sched m) (Set.mem_univ (K (c, some (false, 4)))) (fun h => h) (R := 1) (duties_later m (sendCell c 4))) $$ [HaS4] with HzS4
  · isplitr; · iexact HIs4
    iexact HaS4
  imod (Rounds.cell_close ER (sched m) (Set.mem_univ (K (c, some (false, 5)))) (fun h => h) (R := 1) (duties_later m (sendCell c 5))) $$ [HaS5] with HzS5
  · isplitr; · iexact HIs5
    iexact HaS5
  imod (Rounds.cell_close ER (sched m) (Set.mem_univ (K (c, some (false, 6)))) (fun h => h) (R := 1) (duties_later m (sendCell c 6))) $$ [HaS6] with HzS6
  · isplitr; · iexact HIs6
    iexact HaS6
  imod (Rounds.cell_close ER (sched m) (Set.mem_univ (K (c, some (true, 0)))) (fun h => h) (R := 1) (duties_later m (recvCell c 0))) $$ [HaV0] with HzV0
  · isplitr; · iexact HIv0
    iexact HaV0
  imod (Rounds.cell_close ER (sched m) (Set.mem_univ (K (c, some (true, 1)))) (fun h => h) (R := 1) (duties_later m (recvCell c 1))) $$ [HaV1] with HzV1
  · isplitr; · iexact HIv1
    iexact HaV1
  imod (Rounds.cell_close ER (sched m) (Set.mem_univ (K (c, some (true, 2)))) (fun h => h) (R := 1) (duties_later m (recvCell c 2))) $$ [HaV2] with HzV2
  · isplitr; · iexact HIv2
    iexact HaV2
  imod (Rounds.cell_close ER (sched m) (Set.mem_univ (K (c, some (true, 3)))) (fun h => h) (R := 1) (duties_later m (recvCell c 3))) $$ [HaV3] with HzV3
  · isplitr; · iexact HIv3
    iexact HaV3
  imod (Rounds.cell_close ER (sched m) (Set.mem_univ (K (c, some (true, 4)))) (fun h => h) (R := 1) (duties_later m (recvCell c 4))) $$ [HaV4] with HzV4
  · isplitr; · iexact HIv4
    iexact HaV4
  imod (Rounds.cell_close ER (sched m) (Set.mem_univ (K (c, some (true, 5)))) (fun h => h) (R := 1) (duties_later m (recvCell c 5))) $$ [HaV5] with HzV5
  · isplitr; · iexact HIv5
    iexact HaV5
  imod (Rounds.cell_close ER (sched m) (Set.mem_univ (K (c, some (true, 6)))) (fun h => h) (R := 1) (duties_later m (recvCell c 6))) $$ [HaV6] with HzV6
  · isplitr; · iexact HIv6
    iexact HaV6
  -- the scratch whole again
  ihave Hscr := (reassemble m c) $$ [HW Hspare HaS0_pay1 HaS1_pay1 HaS2_pay1 HaS3_pay1 HaS4_pay1 HaS5_pay1 HaS6_pay1]
  · isplitl [HW]; · iexact HW
    isplitl [Hspare]; · iexact Hspare
    isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    iexact HaS6_pay1
  rw [out_writes, wp_ret]; imodintro
  unfold Φ₁
  rw [show (dats m 0 c).owed t₀.succ = 0 from rfl]
  isplitl [Hscr HzS0 HzV0 HzS1 HzV1 HzS2 HzV2 HzS3 HzV3 HzS4 HzV4 HzS5 HzV5 HzS6 HzV6]
  · isplitl [Hscr]; · iexact Hscr
    iapply (Entails.of_eq (bigSep_fin7 _).symm)
    isplitl [HzS0 HzV0]
    · isplitl [HzS0]; · iexact HzS0
      iexact HzV0
    isplitl [HzS1 HzV1]
    · isplitl [HzS1]; · iexact HzS1
      iexact HzV1
    isplitl [HzS2 HzV2]
    · isplitl [HzS2]; · iexact HzS2
      iexact HzV2
    isplitl [HzS3 HzV3]
    · isplitl [HzS3]; · iexact HzS3
      iexact HzV3
    isplitl [HzS4 HzV4]
    · isplitl [HzS4]; · iexact HzS4
      iexact HzV4
    isplitl [HzS5 HzV5]
    · isplitl [HzS5]; · iexact HzS5
      iexact HzV5
    isplitl [HzS6]; · iexact HzS6
    iexact HzV6
  isplitl [HO]
  · iexists (insert ((SemLoc.dma ((cc0_scratch1.slice (Rect.unit (s := S7) ![6] S1.size inb_S7_S1_6)).squeeze S_ squeezes_S1_S_).sem : SemLoc sig), ()) (insert ((SemLoc.dma ((cc0_scratch1.slice (Rect.unit (s := S7) ![5] S1.size inb_S7_S1_5)).squeeze S_ squeezes_S1_S_).sem : SemLoc sig), ()) (insert ((SemLoc.dma ((cc0_scratch1.slice (Rect.unit (s := S7) ![4] S1.size inb_S7_S1_4)).squeeze S_ squeezes_S1_S_).sem : SemLoc sig), ()) (insert ((SemLoc.dma ((cc0_scratch1.slice (Rect.unit (s := S7) ![3] S1.size inb_S7_S1_3)).squeeze S_ squeezes_S1_S_).sem : SemLoc sig), ()) (insert ((SemLoc.dma ((cc0_scratch1.slice (Rect.unit (s := S7) ![2] S1.size inb_S7_S1_2)).squeeze S_ squeezes_S1_S_).sem : SemLoc sig), ()) (insert ((SemLoc.dma ((cc0_scratch1.slice (Rect.unit (s := S7) ![1] S1.size inb_S7_S1_1)).squeeze S_ squeezes_S1_S_).sem : SemLoc sig), ()) (insert ((SemLoc.dma ((cc0_scratch1.slice (Rect.unit (s := S7) ![0] S1.size inb_S7_S1_0)).squeeze S_ squeezes_S1_S_).sem : SemLoc sig), ()) (insert ((SemLoc.dma ((cc0_scratch2.slice (Rect.unit (s := S7) ![6] S1.size inb_S7_S1_6)).squeeze S_ squeezes_S1_S_).sem : SemLoc sig), ()) (insert ((SemLoc.dma ((cc0_scratch2.slice (Rect.unit (s := S7) ![5] S1.size inb_S7_S1_5)).squeeze S_ squeezes_S1_S_).sem : SemLoc sig), ()) (insert ((SemLoc.dma ((cc0_scratch2.slice (Rect.unit (s := S7) ![4] S1.size inb_S7_S1_4)).squeeze S_ squeezes_S1_S_).sem : SemLoc sig), ()) (insert ((SemLoc.dma ((cc0_scratch2.slice (Rect.unit (s := S7) ![3] S1.size inb_S7_S1_3)).squeeze S_ squeezes_S1_S_).sem : SemLoc sig), ()) (insert ((SemLoc.dma ((cc0_scratch2.slice (Rect.unit (s := S7) ![2] S1.size inb_S7_S1_2)).squeeze S_ squeezes_S1_S_).sem : SemLoc sig), ()) (insert ((SemLoc.dma ((cc0_scratch2.slice (Rect.unit (s := S7) ![1] S1.size inb_S7_S1_1)).squeeze S_ squeezes_S1_S_).sem : SemLoc sig), ()) (insert ((SemLoc.dma ((cc0_scratch2.slice (Rect.unit (s := S7) ![0] S1.size inb_S7_S1_0)).squeeze S_ squeezes_S1_S_).sem : SemLoc sig), ()) (insert ((SemLoc.reg barS : SemLoc sig), ()) W)))))))))))))))
    isplitr; · ipureintro; exact fun _ _ => Or.inl trivial
    iexact HO
  isplitl [Hx]
  · iexists _; isplitr; · (ipureintro; rfl)
    iapply (Entails.of_eq (whole_pts c cc0_stg0_0 fullShare (xstg m c))); iexact Hx
  iexists _; isplitr; · (ipureintro; rfl)
  iapply (Entails.of_eq (whole_pts c cc0_stg1_0 fullShare _)); iexact Hout

/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  exact sound_body m c

/-- info: 'Cert.KernelIdeal.AllSum.body_obligation' depends on axioms: [propext, Classical.choice, Quot.sound] -/
#guard_msgs in #print axioms body_obligation

end Cert.KernelIdeal.AllSum

end
-- ==== Proof.Alloc.lean ====
/-
  The ghost state of the whole mesh: what is minted at launch, and the one global step that gives every device the cells'
  invariants, its positions and the tokens of the duties it pays.

  Minted per device are its own fifteen cells' round states, positions and round-0 marks, and the tokens of its own cells'
  twenty-one duties. A duty's token belongs with its PAYER: duty `i` of device `d`'s barrier cell is paid by `pk d i`, the one
  duty of its receive cell `j` by `pk d (6 - j)`, the one duty of its send cell `j` by `d` itself. Dealing the tokens to their
  payers is a re-indexing of the devices by the turns `pk · j`.
-/
import proofs.«901073_g7700000000001074_dist_sum_ax0_shard0_i_m1024_n512_v7x_i8_bf16_1_alg».proof.Proof.Gen.KernelIdeal.Skeleton
import proofs.«901073_g7700000000001074_dist_sum_ax0_shard0_i_m1024_n512_v7x_i8_bf16_1_alg».proof.Proof.Gen.KernelIdeal.Launch
import proofs.«901073_g7700000000001074_dist_sum_ax0_shard0_i_m1024_n512_v7x_i8_bf16_1_alg».proof.Proof.Gen.KernelIdeal.Frame
import proofs.«901073_g7700000000001074_dist_sum_ax0_shard0_i_m1024_n512_v7x_i8_bf16_1_alg».proof.Proof.Proto
import proofs.«901073_g7700000000001074_dist_sum_ax0_shard0_i_m1024_n512_v7x_i8_bf16_1_alg».proof.Proof.Levels
import proofs.«901073_g7700000000001074_dist_sum_ax0_shard0_i_m1024_n512_v7x_i8_bf16_1_alg».proof.Proof.Data
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel's own (scoped) semaphores, as the launch indexes them: the seven send ones, then the seven receive ones. -/
abbrev osem : Fin 14 → SemLoc sig := fun k =>
  if h : k.val < 7 then .dma (sendS ⟨k.val, h⟩) else .dma (recvS ⟨k.val - 7, by omega⟩)

theorem ownSemFacts : Pipeline.OwnSemFacts cfg0.spec osem := by decide

/-- Every device's fifteen cells. -/
def ringCells : Finset (GSem nD τ sig) := Finset.univ.map ⟨kcell, kcell_injective⟩

/-- A device's own cells' duty tokens as minted: `(0, i)` its barrier's duty `i`; `(1, j)` its send cell `j`'s; `(2, j)` its receive cell `j`'s. -/
abbrev tokOf (cj : Dev nD × (Fin 3 × Fin 7)) : GSem nD τ sig × ℕ × Fin 7 := match cj.2.1 with
  | 0 => (barCell cj.1, 0, cj.2.2)
  | 1 => (sendCell cj.1 cj.2.2, 0, 0)
  | 2 => (recvCell cj.1 cj.2.2, 0, 0)
/-- The semaphore and the duty name of a minted token, the device left out. -/
abbrev tokSem (t : Fin 3 × Fin 7) : SemLoc sig × Fin 7 := match t.1 with
  | 0 => (.reg barS, t.2)
  | 1 => (.dma (sendS t.2), 0)
  | 2 => (.dma (recvS t.2), 0)
/-- The twenty-one tokens of one device are pairwise different: the cells differ, or on the barrier cell the duties do. -/
theorem tokSem_injective : Function.Injective tokSem := by decide
theorem tokOf_eq (c : Dev nD) (t : Fin 3 × Fin 7) :
    (tokOf (c, t) : GSem nD τ sig × ℕ × Fin 7) = (((c : Thread nD τ), (tokSem t).1), 0, (tokSem t).2) := by
  obtain ⟨a, j⟩ := t
  fin_cases a <;> rfl
theorem tokOf_injective : Function.Injective (tokOf : Dev nD × (Fin 3 × Fin 7) → GSem nD τ sig × ℕ × Fin 7) := by
  rintro ⟨c, t⟩ ⟨c', t'⟩ h
  rw [tokOf_eq, tokOf_eq] at h
  have h1 : c = c' := congrArg (fun x : GSem nD τ sig × ℕ × Fin 7 => x.1.1.1) h
  subst h1
  have h2 : tokSem t = tokSem t' :=
    Prod.ext (congrArg (fun x : GSem nD τ sig × ℕ × Fin 7 => x.1.2) h) (congrArg (fun x : GSem nD τ sig × ℕ × Fin 7 => x.2.2) h)
  rw [tokSem_injective h2]
def ringToks : Finset (GSem nD τ sig × ℕ × Fin 7) := Finset.univ.map ⟨tokOf, tokOf_injective⟩

/-- The launch's ghost element: the pipeline's own and the rounds'. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun tj : Fin 3 × Fin 7 => dutyTok ER (tokOf (c, tj)).1 (tokOf (c, tj)).2.1 (tokOf (c, tj)).2.2

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks (F := F) c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  -- a product over all cells is a product over the devices of a product over a device's fifteen cells,
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  -- and the minted tokens are each device's own cells' tokens.
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### A device's fifteen counters at zero -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A product over a device's cells, written out: the barrier cell, the seven send cells, the seven receive cells. -/
theorem bigSep_CK (Φ : CK → sProp 𝕄) : bigSep Finset.univ Φ
    = iprop(Φ none ∗ Φ (some (false, 0)) ∗ Φ (some (false, 1)) ∗ Φ (some (false, 2)) ∗ Φ (some (false, 3)) ∗ Φ (some (false, 4))
        ∗ Φ (some (false, 5)) ∗ Φ (some (false, 6)) ∗ Φ (some (true, 0)) ∗ Φ (some (true, 1)) ∗ Φ (some (true, 2)) ∗ Φ (some (true, 3))
        ∗ Φ (some (true, 4)) ∗ Φ (some (true, 5)) ∗ Φ (some (true, 6))) :=
  bigSep_univ_eq_bigSepL [none, some (false, 0), some (false, 1), some (false, 2), some (false, 3), some (false, 4), some (false, 5),
    some (false, 6), some (true, 0), some (true, 1), some (true, 2), some (true, 3), some (true, 4), some (true, 5), some (true, 6)]
    (by decide) (by decide) Φ

/-- The send and receive semaphores are the kernel's own fourteen; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0
        ∗ semVal (sendCell c 5) 0 ∗ semVal (sendCell c 6) 0 ∗ semVal (recvCell c 0) 0 ∗ semVal (recvCell c 1) 0 ∗ semVal (recvCell c 2) 0
        ∗ semVal (recvCell c 3) 0 ∗ semVal (recvCell c 4) 0 ∗ semVal (recvCell c 5) 0 ∗ semVal (recvCell c 6) 0) := by
  rw [Pipeline.ownSems0_eq_of_list c osem [0, 1, 2, 3, 4, 5, 6, 7, 8, 9, 10, 11, 12, 13] (by decide) (by decide)]; rfl
/-- the barrier semaphore the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨S0, S1, S2, S3, S4, S5, S6, R0, R1, R2, R3, R4, R5, R6⟩, HB⟩
  isplitl [HB]; · iexact HB
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [R0]; · iexact R0
  isplitl [R1]; · iexact R1
  isplitl [R2]; · iexact R2
  isplitl [R3]; · iexact R3
  isplitl [R4]; · iexact R4
  isplitl [R5]; · iexact R5
  iexact R6

/-! ### The cells' invariants, device by device -/

/-- Each of a device's cells gets its invariant from its counter at zero and its round state at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens to their payers -/

/-- A device's minted tokens, by kind of cell. -/
theorem toks_eq (c : Dev nD) : (toks c : sProp 𝕄)
    = iprop((bigSep Finset.univ fun i : Fin 7 => dutyTok ER (barCell c) 0 i)
        ∗ (bigSep Finset.univ fun j : Fin 7 => dutyTok ER (sendCell c j) 0 0)
        ∗ (bigSep Finset.univ fun j : Fin 7 => dutyTok ER (recvCell c j) 0 0)) := by
  unfold toks; rw [bigSep_univ_prod, bigSep_fin3]

/-- The barrier tokens: duty `i` of device `d`'s barrier cell goes to `c = pk d i`, for which `d = pk c (6 - i)`. Fix the
    duty, turn the devices by `6 - i`, then name the duty by `j = 6 - i`. -/
theorem deal_bar :
    (bigSep Finset.univ fun d : Dev nD => bigSep Finset.univ fun i : Fin 7 => (dutyTok ER (barCell d) 0 i : sProp 𝕄))
      = bigSep Finset.univ fun c : Dev nD => bigSep Finset.univ fun j : Fin 7 => dutyTok ER (barCell (pk c j)) 0 j.rev := by
  rw [bigSep_univ_comm (fun (d : Dev nD) (i : Fin 7) => (dutyTok ER (barCell d) 0 i : sProp 𝕄)),
    bigSep_univ_comm (fun (c : Dev nD) (j : Fin 7) => (dutyTok ER (barCell (pk c j)) 0 j.rev : sProp 𝕄)),
    bigSep_univ_equiv Fin.revPerm (fun i : Fin 7 => bigSep Finset.univ fun d : Dev nD => (dutyTok ER (barCell d) 0 i : sProp 𝕄))]
  exact bigSep_congr fun j _ => bigSep_univ_equiv (turn j) (fun d : Dev nD => (dutyTok ER (barCell d) 0 j.rev : sProp 𝕄))

/-- The receive tokens: the one duty of device `d`'s receive cell `j` goes to `c = pk d (6 - j)`, for which `d = pk c j`. -/
theorem deal_recv :
    (bigSep Finset.univ fun d : Dev nD => bigSep Finset.univ fun j : Fin 7 => (dutyTok ER (recvCell d j) 0 0 : sProp 𝕄))
      = bigSep Finset.univ fun c : Dev nD => bigSep Finset.univ fun j : Fin 7 => dutyTok ER (recvCell (pk c j) j) 0 0 := by
  rw [bigSep_univ_comm (fun (d : Dev nD) (j : Fin 7) => (dutyTok ER (recvCell d j) 0 0 : sProp 𝕄)),
    bigSep_univ_comm (fun (c : Dev nD) (j : Fin 7) => (dutyTok ER (recvCell (pk c j) j) 0 0 : sProp 𝕄))]
  exact bigSep_congr fun j _ => bigSep_univ_equiv (turn j) (fun d : Dev nD => (dutyTok ER (recvCell d j) 0 0 : sProp 𝕄))

/-- All minted tokens, regrouped by payer. -/
theorem toks_around : (bigSep Finset.univ fun c : Dev nD => (toks c : sProp 𝕄)) ⊢ bigSep Finset.univ fun c : Dev nD => payToks c := by
  have hp (c : Dev nD) : (payToks c : sProp 𝕄)
      = iprop((bigSep Finset.univ fun j : Fin 7 => dutyTok ER (barCell (pk c j)) 0 j.rev)
          ∗ (bigSep Finset.univ fun j : Fin 7 => dutyTok ER (recvCell (pk c j) j) 0 0)
          ∗ (bigSep Finset.univ fun j : Fin 7 => dutyTok ER (sendCell c j) 0 0)) := by
    unfold payToks payTok; rw [bigSep_sep', bigSep_sep']
  rw [bigSep_congr (s := Finset.univ) (fun (c : Dev nD) _ => toks_eq (F := F) c),
    bigSep_congr (s := Finset.univ) (fun (c : Dev nD) _ => hp c),
    bigSep_sep', bigSep_sep', bigSep_sep', bigSep_sep', deal_bar, deal_recv]
  iintro ⟨H1, H2, H3⟩
  isplitl [H1]; · iexact H1
  isplitl [H3]; · iexact H3
  iexact H2

/-! ### The whole mesh's records, and each device's share -/

/-- What stays with device `c`: its positions, and the tokens of the duties it pays. -/
def linear (c : Dev nD) : sProp 𝕄 := iprop(positions (F := F) c ∗ payToks (F := F) c)

theorem ghost_intro (K : Dev nD × CK → ℕ) (c : Dev nD) : iprop(records m K ∗ linear (F := F) c) ⊢ G' m c := by
  unfold linear G' ghost
  iintro ⟨#HR, Hp, Ht⟩
  iexists K
  isplitr; · iexact HR
  isplitl [Hp]; · iexact Hp
  iexact Ht

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions (F := F) c) (fun c : Dev nD => payToks (F := F) c)).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.AllSum.fund_ring' depends on axioms: [propext, Classical.choice, Quot.sound] -/
#guard_msgs in #print axioms fund_ring
/-- info: 'Cert.KernelIdeal.AllSum.glob' depends on axioms: [propext, Classical.choice, Quot.sound] -/
#guard_msgs in #print axioms glob

end Cert.KernelIdeal.AllSum

end
-- ==== Proof.Launch.lean ====
/-
  The launch: from "each device's body is proved" to the run of the whole mesh, every device's result named.
-/
import proofs.«901073_g7700000000001074_dist_sum_ax0_shard0_i_m1024_n512_v7x_i8_bf16_1_alg».proof.Proof.Gen.KernelIdeal.Skeleton
import proofs.«901073_g7700000000001074_dist_sum_ax0_shard0_i_m1024_n512_v7x_i8_bf16_1_alg».proof.Proof.Gen.KernelIdeal.Launch
import proofs.«901073_g7700000000001074_dist_sum_ax0_shard0_i_m1024_n512_v7x_i8_bf16_1_alg».proof.Proof.Gen.KernelIdeal.Frame
import proofs.«901073_g7700000000001074_dist_sum_ax0_shard0_i_m1024_n512_v7x_i8_bf16_1_alg».proof.Proof.Proto
import proofs.«901073_g7700000000001074_dist_sum_ax0_shard0_i_m1024_n512_v7x_i8_bf16_1_alg».proof.Proof.Levels
import proofs.«901073_g7700000000001074_dist_sum_ax0_shard0_i_m1024_n512_v7x_i8_bf16_1_alg».proof.Proof.Data
import proofs.«901073_g7700000000001074_dist_sum_ax0_shard0_i_m1024_n512_v7x_i8_bf16_1_alg».proof.Proof.Slots
import proofs.«901073_g7700000000001074_dist_sum_ax0_shard0_i_m1024_n512_v7x_i8_bf16_1_alg».proof.Proof.Body
import proofs.«901073_g7700000000001074_dist_sum_ax0_shard0_i_m1024_n512_v7x_i8_bf16_1_alg».proof.Proof.Alloc
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The launch credit -/

omit [FloatOps F] in
/-- Seven units on one cell are one tally of seven. -/
theorem seven_units (g : GSem nD τ sig) : (∑ _j : Fin 7, (tallyAt g () 1 : CellTallies nD τ sig Unit)) = tallyAt g () 7 := by
  rw [Fin.sum_univ_seven]; simp only [tallyAt_add]

omit [FloatOps F] in
/-- What the launch deals device `c` under the debts `O₀`. Every device's signal `j` goes to the barrier cell of the device
    `j + 1` places on, and going `j + 1` places on is a permutation of the devices: so `c` is dealt one unit per `j`, seven
    in all. Every device's copy `j` goes to receive cell `j` of that same device: so `c` is dealt a row's credit on each of
    its seven receive cells. -/
theorem creds (c : Dev nD) : (Pipeline.launchCred O₀ c : sProp 𝕄) ⊢ credits (F := F) c := by
  rw [show (O₀ : Dev nD → CellTallies nD τ sig Unit) = fun d => (∑ j : Fin 7, cpyT d j) + ∑ j : Fin 7, sigT d j from funext O₀_eq_sum,
    Pipeline.launchCred_add, Pipeline.launchCred_sum, Pipeline.launchCred_sum]
  unfold credits
  rw [← seven_units, Pipeline.cred_finsetSum]
  have hS : (bigSep Finset.univ fun j : Fin 7 => (Pipeline.launchCred (fun d => sigT d j) c : sProp 𝕄))
      ⊢ bigSep Finset.univ fun _j : Fin 7 => (cred (tallyAt (barCell c) () 1) : sProp 𝕄) :=
    bigSep_mono fun j _ => Pipeline.launchCred_tallyAt (.reg barS) (fun d => pk d j) (fun c => pk c j.rev)
      (fun c => pk_rev_pk c j) (fun d => pk_pk_rev d j) () 1 c
  have hC : (bigSep Finset.univ fun j : Fin 7 => (Pipeline.launchCred (fun d => cpyT d j) c : sProp 𝕄))
      ⊢ bigSep Finset.univ fun j : Fin 7 => (cred (tallyAt (recvCell c j) () N) : sProp 𝕄) :=
    bigSep_mono fun j _ => Pipeline.launchCred_tallyAt (.dma (recvS j)) (fun d => pk d j) (fun c => pk c j.rev)
      (fun c => pk_rev_pk c j) (fun d => pk_pk_rev d j) () N c
  iintro ⟨HC, HS⟩
  isplitl [HS]
  · iapply hS; iexact HS
  · iapply hC; iexact HC

/-! ## The theorem's side conditions -/

theorem share_eq (c : Dev nD) (w : Fin cfg0.W) : (dats m 0 c).share w = fullShare := by unfold Dat.share; split <;> rfl

/-- From what the launch hands a device to its start: the credit read off the debts, the ghost state and the levels as given. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The one scoped buffer that is no staging buffer is the scratch. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrSome
  iintro ⟨Hs, -, Hr⟩
  isplitl [Hs]; · iexact Hs
  iexact Hr

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- At the end the fourteen own cells are at zero and the scratch is whole again. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ scrSome
  rw [bigSep_fin7]
  iintro ⟨Hr, ⟨S0, R0⟩, ⟨S1, R1⟩, ⟨S2, R2⟩, ⟨S3, R3⟩, ⟨S4, R4⟩, ⟨S5, R5⟩, ⟨S6, R6⟩⟩
  isplitr; · iempintro
  isplitr [Hr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [R0]; · iexact R0
    isplitl [R1]; · iexact R1
    isplitl [R2]; · iexact R2
    isplitl [R3]; · iexact R3
    isplitl [R4]; · iexact R4
    isplitl [R5]; · iexact R5
    iexact R6
  · iexact Hr

/-- The pipeline's two staging semaphores sit at level 0, below everything a device owes. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ## The run -/

/-- What window `w`'s array on device `c` holds after the one point's write-backs. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- The run of the whole mesh, every window's array named after it. -/
theorem run_QC : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array is an input window's: never written back. -/
theorem finalA_x (c : Dev nD) : finalA m c (0 : Fin 2) = m ((c : Thread nD τ).loc main_arg0) :=
  (dats (F := F) m 0 c).arrAt_in (0 : Fin 2) rfl _

/-- The result array is written back once, whole, at the one point: it holds what the body left in its staging buffer. -/
theorem finalA_out (c : Dev nD) : finalA m c (1 : Fin 2) = outAt m c := by
  have h := (dats (F := F) m 0 c).arrAt_succ (1 : Fin 2) t₀
  rw [flush0_1 t₀, if_pos rfl] at h
  refine (congrArg ((dats (F := F) m 0 c).arrAt (1 : Fin 2)) cfg0_N).trans (h.trans ?_)
  exact Memref.write_access_unit_zero_univ (Elt F) main_v1 (funext fun a => Nat.zero_mul _) _ _ _

end Launch

/-- At the compiled mesh of eight devices, for any float values, from any memory with zero counters: every weakly fair
    execution of @main terminates, and every final state has each device's result array holding the eight rows added up
    and its argument array unchanged. -/
theorem run_main : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) := by
  exact (θ_run defs _ _).mono (fun _ h c => ⟨(h c (1 : Fin 2)).trans (Launch.finalA_out m c), (h c (0 : Fin 2)).trans (Launch.finalA_x m c)⟩)
    (Launch.run_QC m ρ)

/-- info: 'Cert.KernelIdeal.AllSum.run_main' depends on axioms: [propext, Classical.choice, Quot.sound] -/
#guard_msgs in #print axioms run_main

end Cert.KernelIdeal.AllSum

end
-- ==== Proof.WProto.lean ====
/-
  All-reduce of column sums over eight devices: the vocabulary of the protocol.

  Device `c` holds rows [1024c, 1024c + 1024) of `x`. It adds its rows up into slot 7 of an 8-slot scratch, sends that
  slot to every other device, and adds up the eight slots. Copy `j` (`j < 7`) of device `c` goes to device
  `pk c j = c + j + 1 (mod 8)` and lands in slot `j` there, so slot `j` of `c` is written by `pk c (6 - j)`, and
  `pk (pk c j) (6 - j) = c`: going `j + 1` forward and then `7 - j` forward is a full turn.

  Before any copy, every device tells each of the seven others, on the runtime's barrier semaphore, that it is inside the
  kernel; with that unit it hands the slot the other one will write. A device waits for its seven units and only then
  copies. Each copy has a send cell on the sender (paid when the source has been read) and a receive cell on the
  receiver (paid when the slot has been written).
-/
import proofs.«901073_g7700000000001074_dist_sum_ax0_shard0_i_m1024_n512_v7x_i8_bf16_1_alg».proof.Proof.Gen.Kernel.Skeleton
import proofs.«901073_g7700000000001074_dist_sum_ax0_shard0_i_m1024_n512_v7x_i8_bf16_1_alg».proof.Proof.Gen.Kernel.Launch
import proofs.«901073_g7700000000001074_dist_sum_ax0_shard0_i_m1024_n512_v7x_i8_bf16_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the rounds' (duties named by `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peers -/

/-- The device `j + 1` places after `c` on the ring of eight. -/
def pk (c : Dev nD) (j : Fin 7) : Dev nD := ⟨(c.val + j.val + 1) % 8, Nat.mod_lt _ (by decide)⟩

theorem pk_pk_rev : ∀ (c : Dev nD) (j : Fin 7), pk (pk c j) j.rev = c := by decide
theorem pk_rev_pk : ∀ (c : Dev nD) (j : Fin 7), pk (pk c j.rev) j = c := by decide
theorem pk_ne_self : ∀ (c : Dev nD) (j : Fin 7), pk c j ≠ c := by decide
theorem pk_inj : ∀ (c : Dev nD) (j j' : Fin 7), pk c j = pk c j' → j = j' := by decide
theorem pk_eq_iff : ∀ (c d : Dev nD) (j : Fin 7), pk d j = c ↔ d = pk c j.rev := by decide

/-- Going `j + 1` places forward, as a permutation of the devices; its inverse goes `7 - j` forward. -/
def turn (j : Fin 7) : Dev nD ≃ Dev nD := ⟨fun c => pk c j, fun c => pk c j.rev, fun c => pk_pk_rev c j, fun c => pk_rev_pk c j⟩

/-- The kernel's device words: signal `j` and copy `j` both name `pk c j`. -/
theorem sig0_eq : ∀ c : Dev nD, (⟨k0_dev1 c, k0_dev1_lt c⟩ : Dev nD) = pk c 0 := by decide +kernel
theorem sig1_eq : ∀ c : Dev nD, (⟨k0_dev2 c, k0_dev2_lt c⟩ : Dev nD) = pk c 1 := by decide +kernel
theorem sig2_eq : ∀ c : Dev nD, (⟨k0_dev3 c, k0_dev3_lt c⟩ : Dev nD) = pk c 2 := by decide +kernel
theorem sig3_eq : ∀ c : Dev nD, (⟨k0_dev4 c, k0_dev4_lt c⟩ : Dev nD) = pk c 3 := by decide +kernel
theorem sig4_eq : ∀ c : Dev nD, (⟨k0_dev5 c, k0_dev5_lt c⟩ : Dev nD) = pk c 4 := by decide +kernel
theorem sig5_eq : ∀ c : Dev nD, (⟨k0_dev6 c, k0_dev6_lt c⟩ : Dev nD) = pk c 5 := by decide +kernel
theorem sig6_eq : ∀ c : Dev nD, (⟨k0_dev7 c, k0_dev7_lt c⟩ : Dev nD) = pk c 6 := by decide +kernel
theorem cpy0_eq : ∀ c : Dev nD, (⟨k0_dev8 c, k0_dev8_lt c⟩ : Dev nD) = pk c 0 := by decide +kernel
theorem cpy1_eq : ∀ c : Dev nD, (⟨k0_dev9 c, k0_dev9_lt c⟩ : Dev nD) = pk c 1 := by decide +kernel
theorem cpy2_eq : ∀ c : Dev nD, (⟨k0_dev10 c, k0_dev10_lt c⟩ : Dev nD) = pk c 2 := by decide +kernel
theorem cpy3_eq : ∀ c : Dev nD, (⟨k0_dev11 c, k0_dev11_lt c⟩ : Dev nD) = pk c 3 := by decide +kernel
theorem cpy4_eq : ∀ c : Dev nD, (⟨k0_dev12 c, k0_dev12_lt c⟩ : Dev nD) = pk c 4 := by decide +kernel
theorem cpy5_eq : ∀ c : Dev nD, (⟨k0_dev13 c, k0_dev13_lt c⟩ : Dev nD) = pk c 5 := by decide +kernel
theorem cpy6_eq : ∀ c : Dev nD, (⟨k0_dev14 c, k0_dev14_lt c⟩ : Dev nD) = pk c 6 := by decide +kernel

/-! ## The memrefs and the cells -/

abbrev xM : Memref sig .tc .vmem S1024x512 .f32 := Memref.whole cc0_stg0_0
abbrev oM : Memref sig .tc .vmem S1x512 .f32 := Memref.whole cc0_stg1_0
abbrev cM : Memref sig .tc .vmem S8x1x512 .f32 := Memref.whole cc0_scratch0

theorem slot_inb : ∀ (j : Fin 8) (a : Fin 3), (![j.val, 0, 0] : Fin 3 → Nat) a + S1x1x512.size a ≤ S8x1x512.size a := by decide
theorem sem_inb : ∀ (j : Fin 7) (a : Fin 1), (![j.val] : Fin 1 → Nat) a + S1.size a ≤ S7.size a := by decide

/-- Slot `j` of the scratch, as the rectangle the program slices, and as the row the copies move. -/
abbrev slotR (j : Fin 8) : Rect S8x1x512 := Rect.unit (s := S8x1x512) ![j.val, 0, 0] S1x1x512.size (slot_inb j)
abbrev slotM (j : Fin 8) : Memref sig .tc .vmem S1x512 .f32 :=
  (cM.slice (slotR j) (fun _ => rfl)).squeeze S1x512 squeezes_S1x1x512_S1x512

/-- The runtime's barrier semaphore (not scoped); the send and the receive DMA semaphore of copy `j` (scoped scratch). -/
abbrev barS : Sem sig := (SemArray.scalar (sig.barrier 0 rfl) : Sems sig S_).sem
abbrev sendS (j : Fin 7) : DmaSem sig := ((cc0_scratch1.slice (Rect.unit (s := S7) ![j.val] S1.size (sem_inb j))).squeeze S_ squeezes_S1_S_).sem
abbrev recvS (j : Fin 7) : DmaSem sig := ((cc0_scratch2.slice (Rect.unit (s := S7) ![j.val] S1.size (sem_inb j))).squeeze S_ squeezes_S1_S_).sem

theorem sendS_val : ∀ j : Fin 7, (sendS j).val = 2 + j.val := by decide
theorem recvS_val : ∀ j : Fin 7, (recvS j).val = 9 + j.val := by decide

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The units one row's copy pays on either cell. -/
abbrev N : ℕ := (slotM 0 : Memref sig .tc .vmem S1x512 .f32).view.dmaCredit
theorem N_pos : 0 < N := View.dmaCredit_pos _ (by decide)
theorem N_slot : ∀ j : Fin 8, (slotM j : Memref sig .tc .vmem S1x512 .f32).view.dmaCredit = N := by decide

/-! ## Contents

What the buffers hold is stated over the memory the run starts from, `m`. -/

/-- Device `c`'s block of `x`, as its staging buffer holds it at the body's entry. -/
def xstg (c : Dev nD) : (cc0_stg0_0 : Ref sig .tc).ty.Contents (Elt F) :=
  (win0_0.blk (0 : Fin 1)).view.read (Elt F) (m ((c : Thread nD τ).loc main_arg0))

/-- The scratch as the run finds it (any contents: only used off the elements a statement speaks of). -/
abbrev scr0 (c : Dev nD) : Buf (Elt F) ((c : Thread nD τ).loc cc0_scratch0) := m ((c : Thread nD τ).loc cc0_scratch0)

/-- The scratch with slot 7 holding the sums of the columns of `c`'s block (the body's first store). -/
def own7 (c : Dev nD) : Buf (Elt F) ((c : Thread nD τ).loc cc0_scratch0) :=
  ((cM.access (slotR 7) : View sig .tc _ _ _)).write (Elt F) (scr0 m c) (k0_pay1 (xstg m c)) Finset.univ

/-- Row `j` of a scratch's contents, as a copy reads it. -/
def rowOf (c : Dev nD) (f : Buf (Elt F) ((c : Thread nD τ).loc cc0_scratch0)) (j : Fin 8) : S1x512.Idx → Elt F .f32 :=
  (slotM j : Memref sig .tc .vmem S1x512 .f32).view.read (Elt F) f

/-- The row device `c` sends out: its column sums. -/
def partRow (c : Dev nD) : S1x512.Idx → Elt F .f32 := rowOf c (own7 m c) 7

/-- The scratch of `c` with slot `j` holding what the device that writes it sends: `pk c (6 - j)`'s column sums. -/
def landBuf (c : Dev nD) (j : Fin 7) : Buf (Elt F) ((c : Thread nD τ).loc cc0_scratch0) :=
  (slotM j.castSucc : Memref sig .tc .vmem S1x512 .f32).view.write (Elt F) (scr0 m c) (partRow m (pk c j.rev)) Finset.univ

/-- The scratch when all seven rows have landed: slot `j < 7` as landed, slot 7 the device's own sums. -/
def commBuf (c : Dev nD) : Buf (Elt F) ((c : Thread nD τ).loc cc0_scratch0) := fun i =>
  if h : (i (0 : Fin 3)).val < 7 then landBuf m c ⟨(i (0 : Fin 3)).val, h⟩ i else own7 m c i

/-- Slot `j` of device `c`'s scratch at share `q`, holding `f` there. -/
def slotPts (c : Dev nD) (j : Fin 8) (q : PosShare TreeShare) (f : Buf (Elt F) ((c : Thread nD τ).loc cc0_scratch0)) : sProp 𝕄 :=
  (slotM j : Memref sig .tc .vmem S1x512 .f32).view.loc (c : Thread nD τ) ↦[(slotM j : Memref sig .tc .vmem S1x512 .f32).view.set]{q} f

omit [FloatOps F] in
instance slotPts_storable (c : Dev nD) (j : Fin 8) (q) (f) : BI.Storable (upEmb : UEmb _ 𝕄) (slotPts (F := F) c j q f) := by unfold slotPts; infer_instance

/-! ## The schedule: one round -/

/-- What the unit `pk c i` signals on `c`'s barrier hands `c`: slot `i` of `pk c i`'s scratch, which `c`'s copy `i` writes,
    and that `pk c i` is at round 0 of its receive cell `i`. -/
def barPay (c : Dev nD) (i : Fin 7) : sProp 𝕄 :=
  iprop((∃ f, slotPts (pk c i) i.castSucc fullShare f) ∗ reached ER (recvCell (pk c i) i) 0)
/-- What the landing of copy `6 - j` of `pk c (6 - j)` hands `c`: its slot `j` holding that device's sums. -/
def recvPay (c : Dev nD) (j : Fin 7) : sProp 𝕄 := slotPts c j.castSucc fullShare (landBuf m c j)
/-- What copy `j`'s source having been read hands back: the share of slot 7 the copy was lent. -/
def sendPay (c : Dev nD) (j : Fin 7) : sProp 𝕄 := slotPts c 7 (Transfers.shareTok fullShare 7 j) (own7 m c)

/-- Which copy a DMA semaphore of the kernel's belongs to, and on which side: `false` the send cell, `true` the receive cell. -/
def xferIdx (q : DmaSem sig) : Option (Bool × Fin 7) :=
  if h : 2 ≤ q.val ∧ q.val < 9 then some (false, ⟨q.val - 2, by omega⟩)
  else if h : 9 ≤ q.val ∧ q.val < 16 then some (true, ⟨q.val - 9, by omega⟩) else none
theorem xferIdx_send : ∀ j : Fin 7, xferIdx (sendS j) = some (false, j) := by decide
theorem xferIdx_recv : ∀ j : Fin 7, xferIdx (recvS j) = some (true, j) := by decide

/-- One round, round 0. A barrier cell has seven duties of one unit, duty `i` paid by `pk c i`; a send or receive cell the
    one duty `0` of a row's credit. -/
def sched : Rounds.Schedule (GSem nD τ sig) (Fin 7) 𝕄 where
  duties g r := if r = 0 ∧ g.1.2 = .tc then
      (match g.2 with
        | .reg s => if s = barS then Finset.univ else ∅
        | .dma q => if (xferIdx q).isSome then {0} else ∅)
    else ∅
  unitless _ := False
  amount g _ _ := match g.2 with | .reg _ => 1 | .dma _ => N
  payload g _ d := match g.2 with
    | .reg s => if s = barS then barPay g.1.1 d else iprop(emp)
    | .dma q => match xferIdx q with
      | some (false, j) => sendPay m g.1.1 j
      | some (true, j) => recvPay m g.1.1 j
      | none => iprop(emp)
  amount_pos g _ _ _ := by
    cases g.2 with
    | reg _ => exact Nat.one_pos
    | dma _ => exact N_pos

instance sched_payload_storable (g : GSem nD τ sig) (r : ℕ) (d : Fin 7) :
    BI.Storable (upEmb : UEmb _ 𝕄) ((sched (F := F) m).payload g r d) := by
  dsimp only [sched]
  unfold barPay recvPay sendPay
  (repeat' split) <;> infer_instance

section Tables
variable (c : Dev nD) (j : Fin 7)

theorem duties_bar : (sched (F := F) m).duties (barCell c) 0 = Finset.univ := by
  dsimp only [sched]; rw [if_pos ⟨rfl, rfl⟩, if_pos rfl]
theorem duties_send : (sched (F := F) m).duties (sendCell c j) 0 = {0} := by
  dsimp only [sched]; rw [if_pos ⟨rfl, rfl⟩, xferIdx_send]; rfl
theorem duties_recv : (sched (F := F) m).duties (recvCell c j) 0 = {0} := by
  dsimp only [sched]; rw [if_pos ⟨rfl, rfl⟩, xferIdx_recv]; rfl
theorem duties_later (g : GSem nD τ sig) : ∀ r, 1 ≤ r → (sched (F := F) m).duties g r = ∅ :=
  fun r hr => by dsimp only [sched]; rw [if_neg fun h => by omega]

theorem amount_bar (d : Fin 7) : (sched (F := F) m).amount (barCell c) 0 d = 1 := rfl
theorem amount_send (d : Fin 7) : (sched (F := F) m).amount (sendCell c j) 0 d = N := rfl
theorem amount_recv (d : Fin 7) : (sched (F := F) m).amount (recvCell c j) 0 d = N := rfl

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (i : Fin 7) : (sched (F := F) m).payload (barCell c) 0 i = barPay c i := by
  dsimp only [sched]; rw [if_pos rfl]
theorem payload_send (d : Fin 7) : (sched (F := F) m).payload (sendCell c j) 0 d = sendPay m c j := by
  dsimp only [sched]; rw [xferIdx_send]
theorem payload_recv (d : Fin 7) : (sched (F := F) m).payload (recvCell c j) 0 d = recvPay m c j := by
  dsimp only [sched]; rw [xferIdx_recv]

end Tables

end Cert.Kernel.AllSum

end
-- ==== Proof.WLevels.lean ====
/-
  What each device owes at launch, and the levels that order the waits.

  Device `c` owes, in the order it pays: one unit to the barrier cell of each `pk c j` (its seven signals), then a row's credit to
  receive cell `j` of each `pk c j` (its seven copies). A wait is allowed at a level below everything the waiter still owes:
  barrier cells sit at level 1 and receive cells at level 2, everything else (the staging cells, the send cells) at 0. So a
  device may wait on its barrier while it owes only receive credits, and on any cell once it owes nothing.
-/
import proofs.«901073_g7700000000001074_dist_sum_ax0_shard0_i_m1024_n512_v7x_i8_bf16_1_alg».proof.Proof.Gen.Kernel.Skeleton
import proofs.«901073_g7700000000001074_dist_sum_ax0_shard0_i_m1024_n512_v7x_i8_bf16_1_alg».proof.Proof.Gen.Kernel.Launch
import proofs.«901073_g7700000000001074_dist_sum_ax0_shard0_i_m1024_n512_v7x_i8_bf16_1_alg».proof.Proof.Gen.Kernel.Frame
import proofs.«901073_g7700000000001074_dist_sum_ax0_shard0_i_m1024_n512_v7x_i8_bf16_1_alg».proof.Proof.WProto
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The unit signal `j` owes, and the credit copy `j` owes. -/
abbrev sigT (c : Dev nD) (j : Fin 7) : CellTallies nD τ sig Unit := tallyAt (barCell (pk c j)) () 1
abbrev cpyT (c : Dev nD) (j : Fin 7) : CellTallies nD τ sig Unit := tallyAt (recvCell (pk c j) j) () N

/-- What the copies owe, the one fired first written last. -/
def OC (c : Dev nD) : CellTallies nD τ sig Unit :=
  cpyT c 6 + cpyT c 5 + cpyT c 4 + cpyT c 3 + cpyT c 2 + cpyT c 1 + cpyT c 0
/-- What a device owes at launch: the copies' credits and the signals' units, the one paid first written last. -/
def O₀ (c : Dev nD) : CellTallies nD τ sig Unit :=
  OC c + sigT c 6 + sigT c 5 + sigT c 4 + sigT c 3 + sigT c 2 + sigT c 1 + sigT c 0

theorem OC_eq_sum (c : Dev nD) : OC c = ∑ j : Fin 7, cpyT c j := by
  unfold OC; rw [Fin.sum_univ_seven]; ac_rfl
theorem O₀_eq_sum (c : Dev nD) : O₀ c = (∑ j : Fin 7, cpyT c j) + ∑ j : Fin 7, sigT c j := by
  unfold O₀; rw [OC_eq_sum, Fin.sum_univ_seven (f := fun j => sigT c j)]; ac_rfl

def L (g : GSem nD τ sig) : Finset Unit := if g.1.2 = .tc then {()} else ∅
/-- Barrier cells at 1, receive cells at 2, everything else at 0. -/
def lv (g : GSem nD τ sig) (_ : Unit) : ℕ :=
  match g.2 with
  | .reg _ => 1
  | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) : ∀ j : Fin 7, lv (recvCell c j) () = 2 := by
  intro j; show (if 9 ≤ (recvS j).val then 2 else 0) = 2; rw [recvS_val, if_pos (by omega)]
theorem lv_send (c : Dev nD) : ∀ j : Fin 7, lv (sendCell c j) () = 0 := by
  intro j; show (if 9 ≤ (sendS j).val then 2 else 0) = 0; rw [sendS_val, if_neg (by omega)]

/-- Whatever the copies owe is owed to a receive cell of some device's TensorCore; -/
theorem OC_pos {c : Dev nD} {g : GSem nD τ sig} {u : Unit} (h : 0 < OC c g u) : ∃ j : Fin 7, g = recvCell (pk c j) j := by
  rw [OC_eq_sum] at h
  obtain ⟨j, -, hj⟩ := Pipeline.sum_pos_exists h
  refine ⟨j, ?_⟩
  rw [tallyAt_apply] at hj
  by_contra hn
  rw [if_neg (fun h' => hn h'.1)] at hj
  exact Nat.lt_irrefl 0 hj
/-- whatever a device owes at launch, to a receive cell or to a barrier cell. -/
theorem O₀_pos {c : Dev nD} {g : GSem nD τ sig} {u : Unit} (h : 0 < O₀ c g u) :
    (∃ j : Fin 7, g = recvCell (pk c j) j) ∨ ∃ j : Fin 7, g = barCell (pk c j) := by
  rw [O₀_eq_sum] at h
  rcases Pipeline.add_pos_cases h with h | h
  · left
    obtain ⟨j, -, hj⟩ := Pipeline.sum_pos_exists h
    refine ⟨j, ?_⟩
    rw [tallyAt_apply] at hj
    by_contra hn
    rw [if_neg (fun h' => hn h'.1)] at hj
    exact Nat.lt_irrefl 0 hj
  · right
    obtain ⟨j, -, hj⟩ := Pipeline.sum_pos_exists h
    refine ⟨j, ?_⟩
    rw [tallyAt_apply] at hj
    by_contra hn
    rw [if_neg (fun h' => hn h'.1)] at hj
    exact Nat.lt_irrefl 0 hj

omit [FloatOps F] in
/-- A wait on a cell of level 0 (a staging cell, a send cell), owing the launch's debt or nothing. -/
theorem mayWait_low (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), SemLoc.dma q) () = 0 := by show (if 9 ≤ q.val then 2 else 0) = 0; rw [if_neg (by omega)]
    rcases O₀_pos hg with ⟨j, rfl⟩ | ⟨j, rfl⟩
    · exact ⟨by rw [L_tc]; exact Finset.mem_singleton_self _, by rw [h0, lv_recv]; decide⟩
    · exact ⟨by rw [L_tc]; exact Finset.mem_singleton_self _, by rw [h0, lv_bar]; decide⟩
  · rw [MayWait_zero]; iintro -; iempintro

omit [FloatOps F] in
/-- At its barrier wait a device owes the copies' credits only: receive cells, above its barrier cell. -/
theorem mayWait_bar (c : Dev nD) : (levAts L lv : sProp 𝕄) ⊢ MayWait (c : Thread nD τ) (.reg barS) () (OC c) :=
  Pipeline.mayWait_of_levAts (by rw [L_tc]; exact Finset.mem_singleton_self _) fun g u hg => by
    obtain ⟨j, rfl⟩ := OC_pos hg
    exact ⟨by rw [L_tc]; exact Finset.mem_singleton_self _, by rw [lv_bar, lv_recv]; decide⟩

end Cert.Kernel.AllSum

end
-- ==== Proof.WData.lean ====
/-
  The proof data of the one region: what each device holds when its body starts and when it ends, and what its two
  windows hold after the body.

  A device's fifteen cells are named: its barrier cell, and per copy `j` its send cell and its receive cell. Every device
  knows every cell's invariant and that every cell is at round 0 (persistent facts of the whole mesh); what is its own are
  its positions on its fifteen cells and the tokens of the twenty-one duties it pays: on the barrier cell of `pk c j` the
  duty `6 - j` (the name under which that device knows `c`), on receive cell `j` of `pk c j`, and on its own send cell `j`.
-/
import proofs.«901073_g7700000000001074_dist_sum_ax0_shard0_i_m1024_n512_v7x_i8_bf16_1_alg».proof.Proof.Gen.Kernel.Skeleton
import proofs.«901073_g7700000000001074_dist_sum_ax0_shard0_i_m1024_n512_v7x_i8_bf16_1_alg».proof.Proof.Gen.Kernel.Launch
import proofs.«901073_g7700000000001074_dist_sum_ax0_shard0_i_m1024_n512_v7x_i8_bf16_1_alg».proof.Proof.Gen.Kernel.Frame
import proofs.«901073_g7700000000001074_dist_sum_ax0_shard0_i_m1024_n512_v7x_i8_bf16_1_alg».proof.Proof.WProto
import proofs.«901073_g7700000000001074_dist_sum_ax0_shard0_i_m1024_n512_v7x_i8_bf16_1_alg».proof.Proof.WLevels
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's cells, named -/

/-- `none` the barrier cell; `some (false, j)` send cell `j`; `some (true, j)` receive cell `j`. -/
abbrev CK : Type := Option (Bool × Fin 7)
abbrev csem : CK → SemLoc sig
  | none => .reg barS
  | some (false, j) => .dma (sendS j)
  | some (true, j) => .dma (recvS j)
abbrev kcell (ck : Dev nD × CK) : GSem nD τ sig := ((ck.1 : Thread nD τ), csem ck.2)

theorem csem_injective : Function.Injective (csem : CK → SemLoc sig) := by decide
theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-! ## The ghost state -/

/-- The whole mesh's persistent facts under the names `K`: every cell's invariant, and every cell at round 0. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (sched m) (K ck) (kcell ck) := by
  have h : (bigSep Finset.univ fun ck : Dev nD × CK => (cellInv ER (sched m) (K ck) (kcell ck) : sProp 𝕄)) ⊢ cellInv ER (sched m) (K ck) (kcell ck) :=
    bigSep_elim (Finset.mem_univ ck)
  unfold records; iintro ⟨HI, -⟩; iapply h; iexact HI
theorem reached_at (K : Dev nD × CK → ℕ) (ck : Dev nD × CK) : records m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨-, HR⟩; iapply h; iexact HR

/-- The tokens of the duties device `c` pays, copy by copy: its signal `j`'s, its copy `j`'s arrival, its copy `j`'s departure. -/
def payTok (c : Dev nD) (j : Fin 7) : sProp 𝕄 :=
  iprop(dutyTok ER (barCell (pk c j)) 0 j.rev ∗ dutyTok ER (recvCell (pk c j) j) 0 0 ∗ dutyTok ER (sendCell c j) 0 0)
def payToks (c : Dev nD) : sProp 𝕄 := bigSep Finset.univ fun j : Fin 7 => payTok (F := F) c j
/-- Device `c`'s positions: round 0 of each of its cells, nothing taken, nothing consumed. -/
def positions (c : Dev nD) : sProp 𝕄 := bigSep Finset.univ fun k : CK => atPos ER (kcell (c, k)) 0 ∅ 0

def ghost (K : Dev nD × CK → ℕ) (c : Dev nD) : sProp 𝕄 := iprop(records m K ∗ positions (F := F) c ∗ payToks (F := F) c)

/-- The credit the launch deals device `c`: its barrier's seven units and each receive cell's row. -/
def credits (c : Dev nD) : sProp 𝕄 :=
  iprop(cred (tallyAt (barCell c) () 7) ∗ bigSep Finset.univ fun j : Fin 7 => cred (tallyAt (recvCell c j) () N))

/-- What device `c`'s body starts from, besides its buffers. -/
def start (c : Dev nD) : sProp 𝕄 := iprop((∃ K, ghost m K c) ∗ credits (F := F) c ∗ levAts L lv)

/-- The scratch whole, at some contents. -/
def scrSome (c : Dev nD) : sProp 𝕄 := iprop(∃ f : Buf (Elt F) ((c : Thread nD τ).loc cc0_scratch0), ((c : Thread nD τ).loc cc0_scratch0) ↦{fullShare} f)

/-- Before the point: the start and the scratch. After it: the scratch, and the fourteen own cells at zero, closed. -/
def Φ₀ (c : Dev nD) : sProp 𝕄 := iprop(start m c ∗ scrSome (F := F) c)
def Φ₁ (c : Dev nD) : sProp 𝕄 :=
  iprop(scrSome (F := F) c ∗ bigSep Finset.univ fun j : Fin 7 => iprop(semVal (sendCell c j) 0 ∗ semVal (recvCell c j) 0))

/-! ## What the windows hold after the body -/

abbrev rAll : Rect S8x1x512 := Rect.unit (s := S8x1x512) ![0, 0, 0] S8x1x512.size inb_S8x1x512_S8x1x512_0_0_0

/-- The result on device `c`: the eight slots added up. -/
def outAt (c : Dev nD) : S1x512.Idx → Elt F .f32 :=
  k0_pay2 ((cM : Memref sig .tc .vmem S8x1x512 .f32).view.readAt (Elt F) rAll.toLoadRect (commBuf m c))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.AllSum

end
-- ==== Proof.WSlots.lean ====
/-
  The eight slots of the scratch: where a slot's elements sit, that the slots are pairwise apart and together the whole
  scratch, and what reading or writing one row does to the others.

  Slot `j` is the row `[j, 0, ·]` of the 8 × 1 × 512 scratch: its element `y` (of the row's shape 1 × 512) sits at
  `[j, 0, y 1]`. Holding a slot means holding exactly those 512 elements; contents off them are irrelevant.
-/
import proofs.«901073_g7700000000001074_dist_sum_ax0_shard0_i_m1024_n512_v7x_i8_bf16_1_alg».proof.Proof.Gen.Kernel.Skeleton
import proofs.«901073_g7700000000001074_dist_sum_ax0_shard0_i_m1024_n512_v7x_i8_bf16_1_alg».proof.Proof.Gen.Kernel.Launch
import proofs.«901073_g7700000000001074_dist_sum_ax0_shard0_i_m1024_n512_v7x_i8_bf16_1_alg».proof.Proof.Gen.Kernel.Frame
import proofs.«901073_g7700000000001074_dist_sum_ax0_shard0_i_m1024_n512_v7x_i8_bf16_1_alg».proof.Proof.WProto
import proofs.«901073_g7700000000001074_dist_sum_ax0_shard0_i_m1024_n512_v7x_i8_bf16_1_alg».proof.Proof.WLevels
import proofs.«901073_g7700000000001074_dist_sum_ax0_shard0_i_m1024_n512_v7x_i8_bf16_1_alg».proof.Proof.WData
import Idealize.ShloMosaic.Lib.ValueIdx
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ UU ℕ

variable (m : (ℓ : Loc nD τ sig) → Buf (Elt F) ℓ) (c : Dev nD)

/-! ## Where a slot's elements sit -/

/-- Dropping the leading unit axis of a 1 × 1 × 512 block matches the row's index `(a, b)` with `(0, a, b)`:
    both have row-major position `512 a + b`. -/
theorem squeeze_idx (y : S1x512.Idx) :
    Shape.reshapeEquiv (squeezes_S1x1x512_S1x512).numel_eq y = (ix3 (0 : Fin 1) (y 0) (y 1) : S1x1x512.Idx) :=
  Shape.reshapeEquiv_eq_of_rowMajor _ (by
    rw [Shape.rowMajor_val_three, Shape.rowMajor_val_two]
    show ((0 * 1 + (y 0).val) * 512 + (y 1).val) = (y 0).val * 512 + (y 1).val
    omega)

omit [FloatOps F] in
/-- Element `y` of row `j` sits at `[j, 0, y 1]`. -/
theorem slot_emb (j : Fin 8) (y : S1x512.Idx) :
    ((slotM j : Memref sig .tc .vmem S1x512 .f32).view.emb y : S8x1x512.Idx) = ix3 j (0 : Fin 1) (y 1) := by
  show (slotR j).emb (Shape.reshapeEquiv (squeezes_S1x1x512_S1x512).numel_eq y) = _
  rw [squeeze_idx]
  funext a
  refine Fin.ext ?_
  rw [Rect.emb_apply]
  match a with
  | ⟨0, _⟩ => show j.val + 1 * 0 = j.val; omega
  | ⟨1, _⟩ => show 0 + 1 * (y 0).val = 0; have h1 : (y 0).val < 1 := (y 0).isLt; omega
  | ⟨2, _⟩ => show 0 + 1 * (y 1).val = (y 1).val; omega

/-- The scratch's middle axis has one coordinate, so an index is its first and last coordinates around `0`. -/
theorem idx_row (i : S8x1x512.Idx) : (ix3 (i 0) (0 : Fin 1) (i 2) : S8x1x512.Idx) = i := by
  funext a
  match a with
  | ⟨0, _⟩ => rfl
  | ⟨1, _⟩ => exact Fin.ext (by have h1 : (i 1).val < 1 := (i 1).isLt; show (0 : ℕ) = (i 1).val; omega)
  | ⟨2, _⟩ => rfl

omit [FloatOps F] in
/-- An element of the scratch is in slot `j` exactly when its first coordinate is `j`. -/
theorem mem_slot (j : Fin 8) (i : S8x1x512.Idx) :
    i ∈ ((slotM j : Memref sig .tc .vmem S1x512 .f32).view.set : Finset S8x1x512.Idx) ↔ i 0 = j := by
  unfold View.set
  rw [Finset.mem_map]
  constructor
  · rintro ⟨y, -, rfl⟩
    rw [slot_emb]
  · intro h
    refine ⟨ix2 (0 : Fin 1) (i 2), Finset.mem_univ _, ?_⟩
    rw [slot_emb, ← h]
    exact idx_row i

/-! ## Rows read and written -/

omit [FloatOps F] in
/-- Reading row `j` of a scratch's contents. -/
theorem rowOf_apply (f : Buf (Elt F) ((c : Thread nD τ).loc cc0_scratch0)) (j : Fin 8) (y : S1x512.Idx) :
    rowOf c f j y = (f : S8x1x512.Idx → Elt F .f32) (ix3 j (0 : Fin 1) (y 1)) := by
  unfold rowOf
  rw [View.read_apply, slot_emb]
  rfl

omit [FloatOps F] in
/-- Writing row `j` whole and reading it back. -/
theorem rowOf_write_same (f : Buf (Elt F) ((c : Thread nD τ).loc cc0_scratch0)) (j : Fin 8) (w : S1x512.Idx → Elt F .f32) :
    rowOf c ((slotM j : Memref sig .tc .vmem S1x512 .f32).view.write (Elt F) f w Finset.univ) j = w := by
  unfold rowOf
  exact View.read_write_univ (v := (slotM j : Memref sig .tc .vmem S1x512 .f32).view) f w

omit [FloatOps F] in
/-- Writing row `j` leaves every other row as it was. -/
theorem rowOf_write_other (f : Buf (Elt F) ((c : Thread nD τ).loc cc0_scratch0)) (j j' : Fin 8) (h : j' ≠ j) (w : S1x512.Idx → Elt F .f32) :
    rowOf c ((slotM j : Memref sig .tc .vmem S1x512 .f32).view.write (Elt F) f w Finset.univ) j' = rowOf c f j' := by
  funext y
  rw [rowOf_apply, rowOf_apply]
  refine View.write_of_not_mem _ _ _ fun hm => h ?_
  rw [View.setOn_univ] at hm
  exact (mem_slot j _).mp hm

omit [FloatOps F] in
/-- Element `[0, 0, k]` of the rectangle of slot `j` sits at `[j, 0, k]`. -/
theorem access_emb (j : Fin 8) (k : Fin 512) :
    (((cM : Memref sig .tc .vmem S8x1x512 .f32).access (slotR j) : View sig .tc _ _ _).emb
        (ix3 (0 : Fin 1) (0 : Fin 1) k : S1x1x512.Idx) : S8x1x512.Idx) = ix3 j (0 : Fin 1) k := by
  show (slotR j).emb (ix3 (0 : Fin 1) (0 : Fin 1) k : S1x1x512.Idx) = _
  funext a
  refine Fin.ext ?_
  rw [Rect.emb_apply]
  match a with
  | ⟨0, _⟩ => show j.val + 1 * 0 = j.val; omega
  | ⟨1, _⟩ => show 0 + 1 * 0 = 0; omega
  | ⟨2, _⟩ => show 0 + 1 * k.val = k.val; omega

omit [FloatOps F] in
/-- A store through the rectangle of slot `j`, read back at `[j, 0, k]`: the payload at `[0, 0, k]`, whatever was there. -/
theorem access_write_apply (j : Fin 8) (f : Buf (Elt F) ((c : Thread nD τ).loc cc0_scratch0)) (w : S1x1x512.Idx → Elt F .f32)
    (k : Fin 512) :
    ((((cM : Memref sig .tc .vmem S8x1x512 .f32).access (slotR j) : View sig .tc _ _ _).write (Elt F) f w Finset.univ
        : S8x1x512.Idx → Elt F .f32) (ix3 j (0 : Fin 1) k)) = w (ix3 (0 : Fin 1) (0 : Fin 1) k) := by
  rw [← access_emb j k, View.write_emb_of_mem _ _ (Finset.mem_univ _)]
  rfl

/-- The row a device sends: the sums of the columns of its block, the body's first payload read as a row. -/
theorem partRow_eq (y : S1x512.Idx) :
    partRow m c y = (k0_pay1 (xstg m c) : S1x1x512.Idx → Elt F .f32) (ix3 (0 : Fin 1) (0 : Fin 1) (y 1)) := by
  unfold partRow own7
  rw [rowOf_apply]
  exact access_write_apply c 7 (scr0 m c) (k0_pay1 (xstg m c)) (y 1)

/-- The body's first store, whatever the scratch held before, leaves slot 7 holding the device's row. -/
theorem rowOf_store7 (f : Buf (Elt F) ((c : Thread nD τ).loc cc0_scratch0)) :
    rowOf c (((cM : Memref sig .tc .vmem S8x1x512 .f32).access (slotR 7) : View sig .tc _ _ _).write (Elt F) f (k0_pay1 (xstg m c)) Finset.univ) 7
      = partRow m c := by
  funext y
  rw [partRow_eq, rowOf_apply]
  exact access_write_apply c 7 f (k0_pay1 (xstg m c)) (y 1)

/-- The landed scratch at an element of a slot below 7 is that slot's landing; at an element of slot 7, the device's own store. -/
theorem commBuf_of_lt (i : S8x1x512.Idx) (h : (i (0 : Fin 3)).val < 7) :
    (commBuf m c : S8x1x512.Idx → Elt F .f32) i = (landBuf m c ⟨(i (0 : Fin 3)).val, h⟩ : S8x1x512.Idx → Elt F .f32) i := by
  unfold commBuf
  exact dif_pos h
theorem commBuf_of_not_lt (i : S8x1x512.Idx) (h : ¬ (i (0 : Fin 3)).val < 7) :
    (commBuf m c : S8x1x512.Idx → Elt F .f32) i = (own7 m c : S8x1x512.Idx → Elt F .f32) i := by
  unfold commBuf
  exact dif_neg h

/-- The rows of the scratch once everything has landed: row `j < 7` is the row of the device that writes it, row 7 the device's own. -/
theorem rowOf_commBuf_land (j : Fin 7) : rowOf c (commBuf m c) j.castSucc = partRow m (pk c j.rev) := by
  funext y
  have hlt : ((ix3 j.castSucc (0 : Fin 1) (y 1) : S8x1x512.Idx) 0).val < 7 := j.isLt
  have hland : rowOf c (landBuf m c j) j.castSucc = partRow m (pk c j.rev) := by
    unfold landBuf
    exact rowOf_write_same c (scr0 m c) j.castSucc (partRow m (pk c j.rev))
  rw [rowOf_apply, commBuf_of_lt m c _ hlt, ← hland, rowOf_apply]
  rfl
theorem rowOf_commBuf_own : rowOf c (commBuf m c) 7 = partRow m c := by
  funext y
  have hge : ¬ ((ix3 (7 : Fin 8) (0 : Fin 1) (y 1) : S8x1x512.Idx) 0).val < 7 := by
    show ¬ (7 : ℕ) < 7
    omega
  unfold partRow
  rw [rowOf_apply, commBuf_of_not_lt m c _ hge, rowOf_apply]
theorem rowOf_landBuf (j : Fin 7) : rowOf c (landBuf m c j) j.castSucc = partRow m (pk c j.rev) := by
  unfold landBuf
  exact rowOf_write_same c (scr0 m c) j.castSucc (partRow m (pk c j.rev))

omit [FloatOps F] in
/-- The whole scratch read in one load, at an index: row `i 0` at column `i 2`. -/
theorem readAll_apply (f : Buf (Elt F) ((c : Thread nD τ).loc cc0_scratch0)) (i : S8x1x512.Idx) :
    ((cM : Memref sig .tc .vmem S8x1x512 .f32).view.readAt (Elt F) rAll.toLoadRect f : S8x1x512.Idx → Elt F .f32) i
      = rowOf c f (i 0) (ix2 (0 : Fin 1) (i 2)) := by
  have hz : (![0, 0, 0] : Fin 3 → ℕ) = fun _ => 0 := by
    funext a
    match a with
    | ⟨0, _⟩ => rfl
    | ⟨1, _⟩ => rfl
    | ⟨2, _⟩ => rfl
  have hr := Memref.readAt_unit_zero (Elt F) cc0_scratch0 hz inb_S8x1x512_S8x1x512_0_0_0 f
  refine (congrFun hr i).trans ?_
  refine Eq.trans ?_ (rowOf_apply c f (i 0) (ix2 (0 : Fin 1) (i 2))).symm
  show f i = f (ix3 (i 0) (0 : Fin 1) (i 2))
  rw [idx_row i]

/-! ## Holding the scratch slot by slot -/

/-- Different slots share no element, -/
theorem slots_disjoint : ∀ t ∈ (Finset.univ : Finset (Fin 8)), ∀ t' ∈ (Finset.univ : Finset (Fin 8)), t ≠ t' →
    Disjoint ((slotM t : Memref sig .tc .vmem S1x512 .f32).view.set : Finset S8x1x512.Idx)
      ((slotM t' : Memref sig .tc .vmem S1x512 .f32).view.set : Finset S8x1x512.Idx) := by
  intro t _ t' _ hne
  rw [Finset.disjoint_left]
  intro i hi hi'
  exact hne (((mem_slot t i).mp hi).symm.trans ((mem_slot t' i).mp hi'))

/-- and every element is in the slot its first coordinate names. -/
theorem slots_cover :
    Finset.biUnion (β := S8x1x512.Idx) (Finset.univ : Finset (Fin 8))
        (fun j => ((slotM j : Memref sig .tc .vmem S1x512 .f32).view.set : Finset S8x1x512.Idx))
      = Finset.univ := by
  ext i
  simp only [Finset.mem_biUnion, Finset.mem_univ, true_and, iff_true]
  exact ⟨i 0, (mem_slot (i 0) i).mpr rfl⟩

omit [FloatOps F] in
/-- Only a slot's own row matters to holding it. -/
theorem slotPts_congr (j : Fin 8) (q : PosShare TreeShare) (f g : Buf (Elt F) ((c : Thread nD τ).loc cc0_scratch0))
    (h : rowOf c f j = rowOf c g j) : (slotPts c j q f : sProp 𝕄) = slotPts c j q g := by
  unfold slotPts
  refine pointsTo_congr fun i hi => ?_
  have hi0 : i 0 = j := (mem_slot j i).mp hi
  have hrow := congrFun h (ix2 (0 : Fin 1) (i 2))
  rw [rowOf_apply, rowOf_apply, ← hi0] at hrow
  rw [idx_row i] at hrow
  exact hrow

omit [FloatOps F] in
/-- The scratch whole, at any share, is its eight slots. -/
theorem scratch_slots (q : PosShare TreeShare) (f : Buf (Elt F) ((c : Thread nD τ).loc cc0_scratch0)) :
    ((((c : Thread nD τ).loc cc0_scratch0) ↦{q} f) : sProp 𝕄) = bigSep Finset.univ fun j : Fin 8 => slotPts c j q f := by
  have hb := pointsTo_biUnion (nD := nD) (τ := τ) (sig := sig) (Ix := Unit) (Val := Elt F) (Name := ℕ) (U := UU) (Lvl := ℕ)
    (ℓ := (c : Thread nD τ).loc cc0_scratch0) (q := q) (f := f) (Finset.univ : Finset (Fin 8))
    (fun j => ((slotM j : Memref sig .tc .vmem S1x512 .f32).view.set : Finset S8x1x512.Idx)) slots_disjoint
  rw [slots_cover] at hb
  exact hb

omit [FloatOps F] in
/-- Eight slots at the full share, each at its own contents, are the scratch whole at some contents. -/
theorem scratch_join (fs : Fin 8 → Buf (Elt F) ((c : Thread nD τ).loc cc0_scratch0)) :
    (bigSep Finset.univ fun j : Fin 8 => (slotPts c j fullShare (fs j) : sProp 𝕄)) ⊢ scrSome (F := F) c := by
  have hb := pointsTo_biUnion_join (nD := nD) (τ := τ) (sig := sig) (Ix := Unit) (Val := Elt F) (Name := ℕ) (U := UU) (Lvl := ℕ)
    (ℓ := (c : Thread nD τ).loc cc0_scratch0) (q := fullShare) (Finset.univ : Finset (Fin 8))
    (fun j => ((slotM j : Memref sig .tc .vmem S1x512 .f32).view.set : Finset S8x1x512.Idx)) fs (fs 0) slots_disjoint
  rw [slots_cover] at hb
  refine hb.trans ?_
  unfold scrSome
  iintro H
  icases H with ⟨%g, -, H⟩
  iexists g
  iexact H

/-- The rectangle of slot `j` and the row squeezed out of it have the same elements. -/
theorem access_set (j : Fin 8) :
    ((cM : Memref sig .tc .vmem S8x1x512 .f32).access (slotR j) : View sig .tc _ _ _).setOn Finset.univ
      = (slotM j : Memref sig .tc .vmem S1x512 .f32).view.set := by
  rw [View.setOn_univ]
  show _ = (((cM : Memref sig .tc .vmem S8x1x512 .f32).view.slice (slotR j)).reshape S1x512 (squeezes_S1x1x512_S1x512).numel_eq).set
  rw [View.set_reshape]
theorem access7_set :
    ((cM : Memref sig .tc .vmem S8x1x512 .f32).access (slotR 7) : View sig .tc _ _ _).setOn Finset.univ
      = (slotM 7 : Memref sig .tc .vmem S1x512 .f32).view.set := access_set 7

omit [FloatOps F] in
/-- What the body's accesses of slot 7 need: the load's and the store's elements are the slot's. -/
theorem slot7_load_sub :
    (cM : Memref sig .tc .vmem S8x1x512 .f32).view.setOn (slotR 7).toLoadRect.set ⊆ (slotM 7 : Memref sig .tc .vmem S1x512 .f32).view.set := by
  show (cM : Memref sig .tc .vmem S8x1x512 .f32).view.setOn (slotR 7).set
    ⊆ (((cM : Memref sig .tc .vmem S8x1x512 .f32).view.slice (slotR 7)).reshape S1x512 (squeezes_S1x1x512_S1x512).numel_eq).set
  rw [View.set_reshape, View.set_slice]
  exact Finset.Subset.refl _
omit [FloatOps F] in
theorem slot7_store_sub :
    ((cM : Memref sig .tc .vmem S8x1x512 .f32).access (slotR 7) : View sig .tc _ _ _).setOn Finset.univ ⊆ (slotM 7 : Memref sig .tc .vmem S1x512 .f32).view.set := by
  rw [access7_set]

/-! ## What the statements rest on -/

/-- info: 'Cert.Kernel.AllSum.slot_emb' depends on axioms: [propext, Classical.choice, Quot.sound] -/
#guard_msgs in #print axioms slot_emb
/-- info: 'Cert.Kernel.AllSum.mem_slot' depends on axioms: [propext, Classical.choice, Quot.sound] -/
#guard_msgs in #print axioms mem_slot
/-- info: 'Cert.Kernel.AllSum.rowOf_apply' depends on axioms: [propext, Classical.choice, Quot.sound] -/
#guard_msgs in #print axioms rowOf_apply
/-- info: 'Cert.Kernel.AllSum.slotPts_congr' depends on axioms: [propext, Classical.choice, Quot.sound] -/
#guard_msgs in #print axioms slotPts_congr
/-- info: 'Cert.Kernel.AllSum.scratch_slots' depends on axioms: [propext, Classical.choice, Quot.sound] -/
#guard_msgs in #print axioms scratch_slots
/-- info: 'Cert.Kernel.AllSum.scratch_join' depends on axioms: [propext, Classical.choice, Quot.sound] -/
#guard_msgs in #print axioms scratch_join
/-- info: 'Cert.Kernel.AllSum.slot7_load_sub' depends on axioms: [propext, Classical.choice, Quot.sound] -/
#guard_msgs in #print axioms slot7_load_sub
/-- info: 'Cert.Kernel.AllSum.slot7_store_sub' depends on axioms: [propext, Classical.choice, Quot.sound] -/
#guard_msgs in #print axioms slot7_store_sub
/-- info: 'Cert.Kernel.AllSum.rowOf_write_same' depends on axioms: [propext, Classical.choice, Quot.sound] -/
#guard_msgs in #print axioms rowOf_write_same
/-- info: 'Cert.Kernel.AllSum.rowOf_write_other' depends on axioms: [propext, Classical.choice, Quot.sound] -/
#guard_msgs in #print axioms rowOf_write_other
/-- info: 'Cert.Kernel.AllSum.partRow_eq' depends on axioms: [propext, Classical.choice, Quot.sound] -/
#guard_msgs in #print axioms partRow_eq
/-- info: 'Cert.Kernel.AllSum.rowOf_store7' depends on axioms: [propext, Classical.choice, Quot.sound] -/
#guard_msgs in #print axioms rowOf_store7
/-- info: 'Cert.Kernel.AllSum.rowOf_commBuf_land' depends on axioms: [propext, Classical.choice, Quot.sound] -/
#guard_msgs in #print axioms rowOf_commBuf_land
/-- info: 'Cert.Kernel.AllSum.rowOf_commBuf_own' depends on axioms: [propext, Classical.choice, Quot.sound] -/
#guard_msgs in #print axioms rowOf_commBuf_own
/-- info: 'Cert.Kernel.AllSum.rowOf_landBuf' depends on axioms: [propext, Classical.choice, Quot.sound] -/
#guard_msgs in #print axioms rowOf_landBuf
/-- info: 'Cert.Kernel.AllSum.readAll_apply' depends on axioms: [propext, Classical.choice, Quot.sound] -/
#guard_msgs in #print axioms readAll_apply

end Cert.Kernel.AllSum

end
-- ==== Proof.WSteps.lean ====
/-
  The two statements of the body that reach another device, each as ONE rule over (device, copy).

  Signal `j` of device `c` pays duty `6 - j` of `pk c j`'s barrier cell and hands over `c`'s slot `6 - j` (the slot `pk c j`'s copy
  writes) together with the fact that `c`'s receive cell `6 - j` is at round 0. Copy `j` reads `c`'s slot 7 at the read share
  kept for it and writes slot `j` of `pk c j`, which `c` holds since its barrier wait; what lands is stated over the
  receiver's initial scratch, which is the same assertion because only the slot's own row matters.
-/
import proofs.«901073_g7700000000001074_dist_sum_ax0_shard0_i_m1024_n512_v7x_i8_bf16_1_alg».proof.Proof.Gen.Kernel.Skeleton
import proofs.«901073_g7700000000001074_dist_sum_ax0_shard0_i_m1024_n512_v7x_i8_bf16_1_alg».proof.Proof.Gen.Kernel.Launch
import proofs.«901073_g7700000000001074_dist_sum_ax0_shard0_i_m1024_n512_v7x_i8_bf16_1_alg».proof.Proof.Gen.Kernel.Frame
import proofs.«901073_g7700000000001074_dist_sum_ax0_shard0_i_m1024_n512_v7x_i8_bf16_1_alg».proof.Proof.WProto
import proofs.«901073_g7700000000001074_dist_sum_ax0_shard0_i_m1024_n512_v7x_i8_bf16_1_alg».proof.Proof.WLevels
import proofs.«901073_g7700000000001074_dist_sum_ax0_shard0_i_m1024_n512_v7x_i8_bf16_1_alg».proof.Proof.WData
import proofs.«901073_g7700000000001074_dist_sum_ax0_shard0_i_m1024_n512_v7x_i8_bf16_1_alg».proof.Proof.WSlots
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem inv_bar (K : Dev nD × CK → ℕ) (d : Dev nD) : records m K ⊢ cellInv ER (sched m) (K (d, none)) (barCell d) := inv_at m K (d, none)
theorem inv_send (K : Dev nD × CK → ℕ) (d : Dev nD) (j : Fin 7) : records m K ⊢ cellInv ER (sched m) (K (d, some (false, j))) (sendCell d j) := inv_at m K (d, some (false, j))
theorem inv_recv (K : Dev nD × CK → ℕ) (d : Dev nD) (j : Fin 7) : records m K ⊢ cellInv ER (sched m) (K (d, some (true, j))) (recvCell d j) := inv_at m K (d, some (true, j))
theorem reached_bar (K : Dev nD × CK → ℕ) (d : Dev nD) : records m K ⊢ reached ER (barCell d) 0 := reached_at m K (d, none)
theorem reached_send (K : Dev nD × CK → ℕ) (d : Dev nD) (j : Fin 7) : records m K ⊢ reached ER (sendCell d j) 0 := reached_at m K (d, some (false, j))
theorem reached_recv (K : Dev nD × CK → ℕ) (d : Dev nD) (j : Fin 7) : records m K ⊢ reached ER (recvCell d j) 0 := reached_at m K (d, some (true, j))

/-- Signal `j`: a unit on `pk c j`'s barrier, with slot `6 - j`. -/
theorem signal_step (K : Dev nD × CK → ℕ) (c : Dev nD) (j : Fin 7) (n : Dev nD) (hn : n = pk c j)
    {α : Type} {Q : α → sProp 𝕄} {k : PUnit → Prog (TpuEff nD τ sig (Elt F) Λ₀ .tc) α}
    (O : CellTallies nD τ sig Unit) (W : Waits sig Unit) (f : Buf (Elt F) ((c : Thread nD τ).loc cc0_scratch0)) :
    iprop(records m K ∗ owes (c : Thread nD τ) (O + sigT c j) W ∗ dutyTok ER (barCell (pk c j)) 0 j.rev ∗ slotPts c j.rev.castSucc fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toNat) k) Q) := by
  subst hn
  iintro ⟨#HR, HO, Ht, Hs⟩
  iapply (Rounds.wp_signal 𝒱₀ ER (sched m) (c : Thread nD τ) none (dst := (pk c j : Thread nD τ)) (κ := K (pk c j, none)) (d := j.rev)
      (by rw [duties_bar]; exact Finset.mem_univ _) ((amount_bar m (pk c j) j.rev).trans (by decide)) () O rfl) $$ [HO Ht Hs]
  · isplitr; · iapply (inv_bar m K (pk c j)); iexact HR
    isplitl [HO]; · iexact HO
    isplitl [Ht]; · iexact Ht
    isplitl [Hs]
    · rw [payload_bar]; unfold barPay; rw [pk_pk_rev]
      isplitl [Hs]; · iexists f; iexact Hs
      iapply (reached_recv m K c j.rev); iexact HR
    · iapply (reached_bar m K (pk c j)); iexact HR

/-- What copy `j` lands on `pk c j` is what the schedule says that device receives. -/
theorem landed_eq (c : Dev nD) (j : Fin 7) (fn : Buf (Elt F) ((pk c j : Thread nD τ).loc cc0_scratch0)) :
    (slotPts (pk c j) j.castSucc fullShare
        ((slotM j.castSucc : Memref sig .tc .vmem S1x512 .f32).view.write (Elt F) fn ((slotM 7 : Memref sig .tc .vmem S1x512 .f32).view.read (Elt F) (own7 m c)) Finset.univ) : sProp 𝕄)
      = recvPay m (pk c j) j := by
  unfold recvPay
  refine slotPts_congr (pk c j) j.castSucc fullShare _ _ ?_
  rw [rowOf_write_same, rowOf_landBuf, pk_pk_rev]
  rfl

/-- Copy `j`: slot 7 of `c`, read at its share, into slot `j` of `pk c j`. -/
theorem send_step (K : Dev nD × CK → ℕ) (c : Dev nD) (j : Fin 7) (n : Dev nD) (hn : n = pk c j)
    {hsc : (slotM j.castSucc : Memref sig (Dev.tc n : Thread nD τ).2.kind .vmem S1x512 .f32).view.ref.isScScratch = false}
    {hsrc : (slotM 7 : Memref sig .tc .vmem S1x512 .f32).view.WordExact} {hdst : (slotM j.castSucc : Memref sig .tc .vmem S1x512 .f32).view.WordExact}
    {hsem : DmaTarget.Typed .vmem (.dma (recvS j)) (.remote (Dev.tc n : Thread nD τ) (slotM j.castSucc : Memref sig .tc .vmem S1x512 .f32) (.dma (sendS j)) hsc)}
    {α : Type} {Q : α → sProp 𝕄} {k : PUnit → Prog (TpuEff nD τ sig (Elt F) Λ₀ .tc) α}
    (fn : Buf (Elt F) ((pk c j : Thread nD τ).loc cc0_scratch0)) (O : CellTallies nD τ sig Unit) (W : Waits sig Unit) :
    iprop(records m K ∗ ((slotM 7 : Memref sig .tc .vmem S1x512 .f32).view.loc (c : Thread nD τ) ↦[(slotM 7 : Memref sig .tc .vmem S1x512 .f32).view.set]{Transfers.shareTok fullShare 7 j} own7 m c)
        ∗ ((slotM j.castSucc : Memref sig .tc .vmem S1x512 .f32).view.loc (pk c j : Thread nD τ) ↦[(slotM j.castSucc : Memref sig .tc .vmem S1x512 .f32).view.set]{fullShare} fn)
        ∗ owes (c : Thread nD τ) (O + cpyT c j) W
        ∗ dutyTok ER (sendCell c j) 0 0 ∗ dutyTok ER (recvCell (pk c j) j) 0 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 7 : Memref sig .tc .vmem S1x512 .f32) (.remote (Dev.tc n : Thread nD τ) (slotM j.castSucc : Memref sig .tc .vmem S1x512 .f32) (.dma (sendS j)) hsc) (.dma (recvS j)) hsrc hdst hsem) k) Q) := by
  subst hn
  iintro ⟨#HR, Hsrc, Hdst, HO, Hts, Htv⟩
  iapply (Rounds.wp_send_pointsTo 𝒱₀ ER (sched m) (c : Thread nD τ) none (c' := (pk c j : Thread nD τ))
      (src := (slotM 7 : Memref sig .tc .vmem S1x512 .f32)) (dst := (slotM j.castSucc : Memref sig .tc .vmem S1x512 .f32))
      (sS := .dma (sendS j)) (sem := .dma (recvS j)) (q := Transfers.shareTok fullShare 7 j) (fs := own7 m c)
      (κ₁ := K (c, some (false, j))) (κ₂ := K (pk c j, some (true, j)))
      (r₁ := 0) (r₂ := 0) (d₁ := 0) (d₂ := 0) (fd := fn)
      (by rw [duties_send]; exact Finset.mem_singleton_self _) (by rw [duties_recv]; exact Finset.mem_singleton_self _)
      () () N (show (slotM j.castSucc : Memref sig .tc .vmem S1x512 .f32).view.amount (.dma (recvS j)) = N from N_slot j.castSucc) (amount_send m c j 0) (amount_recv m (pk c j) j 0) O rfl (W := W)
      (by rw [payload_send]; unfold sendPay slotPts; exact BI.Entails.refl _)
      (by rw [payload_recv, ← landed_eq m c j fn]; unfold slotPts; exact BI.Entails.refl _)) $$ [Hsrc Hdst HO Hts Htv]
  isplitr; · iapply (inv_send m K c j); iexact HR
  isplitr; · iapply (inv_recv m K (pk c j) j); iexact HR
  isplitl [Hsrc]; · iexact Hsrc
  isplitl [Hdst]; · iexact Hdst
  isplitl [HO]; · iexact HO
  isplitl [Hts]; · iexact Hts
  isplitr; · iapply (reached_send m K c j); iexact HR
  isplitl [Htv]; · iexact Htv
  iapply (reached_recv m K (pk c j) j); iexact HR

/-- The last copy to be fired: afterwards the device owes nothing. -/
theorem send_step_last (K : Dev nD × CK → ℕ) (c : Dev nD) (j : Fin 7) (n : Dev nD) (hn : n = pk c j)
    {hsc : (slotM j.castSucc : Memref sig (Dev.tc n : Thread nD τ).2.kind .vmem S1x512 .f32).view.ref.isScScratch = false}
    {hsrc : (slotM 7 : Memref sig .tc .vmem S1x512 .f32).view.WordExact} {hdst : (slotM j.castSucc : Memref sig .tc .vmem S1x512 .f32).view.WordExact}
    {hsem : DmaTarget.Typed .vmem (.dma (recvS j)) (.remote (Dev.tc n : Thread nD τ) (slotM j.castSucc : Memref sig .tc .vmem S1x512 .f32) (.dma (sendS j)) hsc)}
    {α : Type} {Q : α → sProp 𝕄} {k : PUnit → Prog (TpuEff nD τ sig (Elt F) Λ₀ .tc) α}
    (fn : Buf (Elt F) ((pk c j : Thread nD τ).loc cc0_scratch0)) (W : Waits sig Unit) :
    iprop(records m K ∗ ((slotM 7 : Memref sig .tc .vmem S1x512 .f32).view.loc (c : Thread nD τ) ↦[(slotM 7 : Memref sig .tc .vmem S1x512 .f32).view.set]{Transfers.shareTok fullShare 7 j} own7 m c)
        ∗ ((slotM j.castSucc : Memref sig .tc .vmem S1x512 .f32).view.loc (pk c j : Thread nD τ) ↦[(slotM j.castSucc : Memref sig .tc .vmem S1x512 .f32).view.set]{fullShare} fn)
        ∗ owes (c : Thread nD τ) (cpyT c j) W
        ∗ dutyTok ER (sendCell c j) 0 0 ∗ dutyTok ER (recvCell (pk c j) j) 0 0)
      ⊢ iprop(((cred (tallyAt (sendCell c j) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 7 : Memref sig .tc .vmem S1x512 .f32) (.remote (Dev.tc n : Thread nD τ) (slotM j.castSucc : Memref sig .tc .vmem S1x512 .f32) (.dma (sendS j)) hsc) (.dma (recvS j)) hsrc hdst hsem) k) Q) := by
  have h := send_step m K c j n hn (hsc := hsc) (hsrc := hsrc) (hdst := hdst) (hsem := hsem) (Q := Q) (k := k) fn 0 W
  rwa [zero_add] at h

end Cert.Kernel.AllSum

end
-- ==== Proof.WScratch.lean ====
/-
  Holding the scratch around the one load that reads all of it.

  When the seven rows have landed a device holds slots 0 to 6 outright and slot 7 only in part: seven read shares of it are
  lent to the copies still reading it. The load of the whole scratch needs one share of all eight slots, so each landed slot
  is cut the same way as slot 7 (a kept part and seven spare read shares) and the eight kept parts are joined. At the end
  the copies' shares are back, every slot is made whole again, and the eight slots are the scratch.
-/
import proofs.«901073_g7700000000001074_dist_sum_ax0_shard0_i_m1024_n512_v7x_i8_bf16_1_alg».proof.Proof.Gen.Kernel.Skeleton
import proofs.«901073_g7700000000001074_dist_sum_ax0_shard0_i_m1024_n512_v7x_i8_bf16_1_alg».proof.Proof.Gen.Kernel.Launch
import proofs.«901073_g7700000000001074_dist_sum_ax0_shard0_i_m1024_n512_v7x_i8_bf16_1_alg».proof.Proof.Gen.Kernel.Frame
import proofs.«901073_g7700000000001074_dist_sum_ax0_shard0_i_m1024_n512_v7x_i8_bf16_1_alg».proof.Proof.WProto
import proofs.«901073_g7700000000001074_dist_sum_ax0_shard0_i_m1024_n512_v7x_i8_bf16_1_alg».proof.Proof.WLevels
import proofs.«901073_g7700000000001074_dist_sum_ax0_shard0_i_m1024_n512_v7x_i8_bf16_1_alg».proof.Proof.WData
import proofs.«901073_g7700000000001074_dist_sum_ax0_shard0_i_m1024_n512_v7x_i8_bf16_1_alg».proof.Proof.WSlots
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Transfers (shareDrop shareTok)

local notation "𝕄" => MT nD τ sig Unit (Elt F) ℕ UU ℕ

variable (m : (ℓ : Loc nD τ sig) → Buf (Elt F) ℓ)

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- The eight slots, the first seven named as the copies name them. -/
theorem bigSep_eight (Φ : Fin 8 → sProp 𝕄) : bigSep Finset.univ Φ
    = iprop(Φ (Fin.castSucc (0 : Fin 7)) ∗ Φ (Fin.castSucc (1 : Fin 7)) ∗ Φ (Fin.castSucc (2 : Fin 7)) ∗ Φ (Fin.castSucc (3 : Fin 7))
      ∗ Φ (Fin.castSucc (4 : Fin 7)) ∗ Φ (Fin.castSucc (5 : Fin 7)) ∗ Φ (Fin.castSucc (6 : Fin 7)) ∗ Φ 7) :=
  bigSep_univ_eq_bigSepL [0, 1, 2, 3, 4, 5, 6, 7] (by decide) (by decide) Φ

omit [FloatOps F] in
theorem whole_scratch (c : Dev nD) (q : PosShare TreeShare) (f : Buf (Elt F) ((c : Thread nD τ).loc cc0_scratch0)) :
    (((cM : Memref sig .tc .vmem S8x1x512 .f32).view.loc (c : Thread nD τ) ↦[(cM : Memref sig .tc .vmem S8x1x512 .f32).view.set]{q} f) : sProp 𝕄)
      = (((c : Thread nD τ).loc cc0_scratch0) ↦{q} f) := by
  rw [View.set_whole]

omit [FloatOps F] in
theorem slot_congr (c : Dev nD) (j : Fin 8) (q : PosShare TreeShare) (f g : Buf (Elt F) ((c : Thread nD τ).loc cc0_scratch0))
    (h : rowOf c f j = rowOf c g j) :
    (((slotM j : Memref sig .tc .vmem S1x512 .f32).view.loc (c : Thread nD τ) ↦[(slotM j : Memref sig .tc .vmem S1x512 .f32).view.set]{q} f) : sProp 𝕄)
      ⊢ ((slotM j : Memref sig .tc .vmem S1x512 .f32).view.loc (c : Thread nD τ) ↦[(slotM j : Memref sig .tc .vmem S1x512 .f32).view.set]{q} g) :=
  Entails.of_eq (slotPts_congr c j q f g h)

/-- Slot `j < 7` holding what landed, as the receive cell's duty hands it over. -/
abbrev landedPts (c : Dev nD) (j : Fin 7) : sProp 𝕄 :=
  ((slotM j.castSucc : Memref sig .tc .vmem S1x512 .f32).view.loc (c : Thread nD τ) ↦[(slotM j.castSucc : Memref sig .tc .vmem S1x512 .f32).view.set]{fullShare} landBuf m c j)
/-- Slot 7 at the share the device keeps while its copies read it; -/
abbrev keptPts (c : Dev nD) : sProp 𝕄 :=
  ((slotM 7 : Memref sig .tc .vmem S1x512 .f32).view.loc (c : Thread nD τ) ↦[(slotM 7 : Memref sig .tc .vmem S1x512 .f32).view.set]{shareDrop fullShare 7} own7 m c)
/-- and at the share copy `i` hands back. -/
abbrev tokPts (c : Dev nD) (i : Fin 7) : sProp 𝕄 :=
  ((slotM 7 : Memref sig .tc .vmem S1x512 .f32).view.loc (c : Thread nD τ) ↦[(slotM 7 : Memref sig .tc .vmem S1x512 .f32).view.set]{shareTok fullShare 7 i} own7 m c)
/-- The scratch whole at the kept share, holding everything that has landed. -/
abbrev wholeKept (c : Dev nD) : sProp 𝕄 :=
  ((cM : Memref sig .tc .vmem S8x1x512 .f32).view.loc (c : Thread nD τ) ↦[(cM : Memref sig .tc .vmem S8x1x512 .f32).view.set]{shareDrop fullShare 7} commBuf m c)
/-- The spare read shares of a landed slot, and of all seven. -/
def spareAt (c : Dev nD) (j : Fin 7) : sProp 𝕄 :=
  bigSep Finset.univ fun i : Fin 7 =>
    ((slotM j.castSucc : Memref sig .tc .vmem S1x512 .f32).view.loc (c : Thread nD τ) ↦[(slotM j.castSucc : Memref sig .tc .vmem S1x512 .f32).view.set]{shareTok fullShare 7 i} commBuf m c)
def spare (c : Dev nD) : sProp 𝕄 := bigSep Finset.univ (spareAt m c)

/-- A landed slot, cut into its kept part and its spare shares, over the contents the load reads. -/
theorem landed_cut (c : Dev nD) (j : Fin 7) :
    landedPts m c j ⊢ iprop(slotPts c j.castSucc (shareDrop fullShare 7) (commBuf m c) ∗ spareAt m c j) :=
  (slot_congr c j.castSucc fullShare _ (commBuf m c) ((rowOf_landBuf m c j).trans (rowOf_commBuf_land m c j).symm)).trans
    (Transfers.pointsTo_toks_split fullShare 7)
theorem landed_uncut (c : Dev nD) (j : Fin 7) :
    iprop(slotPts c j.castSucc (shareDrop fullShare 7) (commBuf m c) ∗ spareAt m c j) ⊢ slotPts c j.castSucc fullShare (commBuf m c) :=
  Transfers.pointsTo_toks_join fullShare 7

theorem kept_congr (c : Dev nD) : keptPts m c ⊢ slotPts c 7 (shareDrop fullShare 7) (commBuf m c) :=
  slot_congr c 7 _ _ (commBuf m c) (rowOf_commBuf_own m c).symm
theorem tok_congr (c : Dev nD) (i : Fin 7) :
    tokPts m c i ⊢ ((slotM 7 : Memref sig .tc .vmem S1x512 .f32).view.loc (c : Thread nD τ) ↦[(slotM 7 : Memref sig .tc .vmem S1x512 .f32).view.set]{shareTok fullShare 7 i} commBuf m c) :=
  slot_congr c 7 _ _ (commBuf m c) (rowOf_commBuf_own m c).symm

/-- Everything landed: the scratch whole at the kept share, and the spare shares. -/
theorem assemble (c : Dev nD) :
    iprop(landedPts m c 0 ∗ landedPts m c 1 ∗ landedPts m c 2 ∗ landedPts m c 3 ∗ landedPts m c 4 ∗ landedPts m c 5 ∗ landedPts m c 6 ∗ keptPts m c)
      ⊢ iprop(wholeKept m c ∗ spare m c) := by
  iintro ⟨H0, H1, H2, H3, H4, H5, H6, H7⟩
  ihave H0 := (landed_cut m c 0) $$ H0
  icases H0 with ⟨K0, R0⟩
  ihave H1 := (landed_cut m c 1) $$ H1
  icases H1 with ⟨K1, R1⟩
  ihave H2 := (landed_cut m c 2) $$ H2
  icases H2 with ⟨K2, R2⟩
  ihave H3 := (landed_cut m c 3) $$ H3
  icases H3 with ⟨K3, R3⟩
  ihave H4 := (landed_cut m c 4) $$ H4
  icases H4 with ⟨K4, R4⟩
  ihave H5 := (landed_cut m c 5) $$ H5
  icases H5 with ⟨K5, R5⟩
  ihave H6 := (landed_cut m c 6) $$ H6
  icases H6 with ⟨K6, R6⟩
  ihave K7 := (kept_congr m c) $$ H7
  isplitl [K0 K1 K2 K3 K4 K5 K6 K7]
  · iapply (Entails.of_eq (whole_scratch c (shareDrop fullShare 7) (commBuf m c)).symm)
    iapply (Entails.of_eq ((scratch_slots c (shareDrop fullShare 7) (commBuf m c)).trans (bigSep_eight _)).symm)
    isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  · unfold spare
    iapply (Entails.of_eq (bigSep_seven (spareAt m c)).symm)
    isplitl [R0]; · iexact R0
    isplitl [R1]; · iexact R1
    isplitl [R2]; · iexact R2
    isplitl [R3]; · iexact R3
    isplitl [R4]; · iexact R4
    isplitl [R5]; · iexact R5
    iexact R6

/-- At the end: the copies' shares back, every slot whole again, the eight slots the scratch. -/
theorem reassemble (c : Dev nD) :
    iprop(wholeKept m c ∗ spare m c ∗ tokPts m c 0 ∗ tokPts m c 1 ∗ tokPts m c 2 ∗ tokPts m c 3 ∗ tokPts m c 4 ∗ tokPts m c 5 ∗ tokPts m c 6)
      ⊢ scrSome (F := F) c := by
  iintro ⟨HW, HS, T0, T1, T2, T3, T4, T5, T6⟩
  ihave HW := (Entails.of_eq ((whole_scratch c (shareDrop fullShare 7) (commBuf m c)).trans
    ((scratch_slots c (shareDrop fullShare 7) (commBuf m c)).trans (bigSep_eight _)))) $$ HW
  icases HW with ⟨K0, K1, K2, K3, K4, K5, K6, K7⟩
  unfold spare
  ihave HS := (Entails.of_eq (bigSep_seven (spareAt m c))) $$ HS
  icases HS with ⟨R0, R1, R2, R3, R4, R5, R6⟩
  ihave F0 := (landed_uncut m c 0) $$ [K0 R0]
  · isplitl [K0]; · iexact K0
    iexact R0
  ihave F1 := (landed_uncut m c 1) $$ [K1 R1]
  · isplitl [K1]; · iexact K1
    iexact R1
  ihave F2 := (landed_uncut m c 2) $$ [K2 R2]
  · isplitl [K2]; · iexact K2
    iexact R2
  ihave F3 := (landed_uncut m c 3) $$ [K3 R3]
  · isplitl [K3]; · iexact K3
    iexact R3
  ihave F4 := (landed_uncut m c 4) $$ [K4 R4]
  · isplitl [K4]; · iexact K4
    iexact R4
  ihave F5 := (landed_uncut m c 5) $$ [K5 R5]
  · isplitl [K5]; · iexact K5
    iexact R5
  ihave F6 := (landed_uncut m c 6) $$ [K6 R6]
  · isplitl [K6]; · iexact K6
    iexact R6
  ihave T0 := (tok_congr m c 0) $$ T0
  ihave T1 := (tok_congr m c 1) $$ T1
  ihave T2 := (tok_congr m c 2) $$ T2
  ihave T3 := (tok_congr m c 3) $$ T3
  ihave T4 := (tok_congr m c 4) $$ T4
  ihave T5 := (tok_congr m c 5) $$ T5
  ihave T6 := (tok_congr m c 6) $$ T6
  ihave F7 := (show iprop(slotPts c 7 (shareDrop fullShare 7) (commBuf m c)
      ∗ bigSep Finset.univ fun i : Fin 7 =>
        ((slotM 7 : Memref sig .tc .vmem S1x512 .f32).view.loc (c : Thread nD τ) ↦[(slotM 7 : Memref sig .tc .vmem S1x512 .f32).view.set]{shareTok fullShare 7 i} commBuf m c))
      ⊢ slotPts c 7 fullShare (commBuf m c) from Transfers.pointsTo_toks_join fullShare 7) $$ [K7 T0 T1 T2 T3 T4 T5 T6]
  · isplitl [K7]; · iexact K7
    iapply (Entails.of_eq (bigSep_seven _).symm)
    isplitl [T0]; · iexact T0
    isplitl [T1]; · iexact T1
    isplitl [T2]; · iexact T2
    isplitl [T3]; · iexact T3
    isplitl [T4]; · iexact T4
    isplitl [T5]; · iexact T5
    iexact T6
  unfold scrSome
  iexists (commBuf m c)
  iapply (Entails.of_eq ((scratch_slots c fullShare (commBuf m c)).trans (bigSep_eight _)).symm)
  isplitl [F0]; · iexact F0
  isplitl [F1]; · iexact F1
  isplitl [F2]; · iexact F2
  isplitl [F3]; · iexact F3
  isplitl [F4]; · iexact F4
  isplitl [F5]; · iexact F5
  isplitl [F6]; · iexact F6
  iexact F7

end Cert.Kernel.AllSum

end
-- ==== Proof.WBody.lean ====
/-
  One device's body, stepped from what the device holds at its start to what it holds at its end.
-/
import proofs.«901073_g7700000000001074_dist_sum_ax0_shard0_i_m1024_n512_v7x_i8_bf16_1_alg».proof.Proof.Gen.Kernel.Skeleton
import proofs.«901073_g7700000000001074_dist_sum_ax0_shard0_i_m1024_n512_v7x_i8_bf16_1_alg».proof.Proof.Gen.Kernel.Launch
import proofs.«901073_g7700000000001074_dist_sum_ax0_shard0_i_m1024_n512_v7x_i8_bf16_1_alg».proof.Proof.Gen.Kernel.Frame
import proofs.«901073_g7700000000001074_dist_sum_ax0_shard0_i_m1024_n512_v7x_i8_bf16_1_alg».proof.Proof.WProto
import proofs.«901073_g7700000000001074_dist_sum_ax0_shard0_i_m1024_n512_v7x_i8_bf16_1_alg».proof.Proof.WLevels
import proofs.«901073_g7700000000001074_dist_sum_ax0_shard0_i_m1024_n512_v7x_i8_bf16_1_alg».proof.Proof.WData
import proofs.«901073_g7700000000001074_dist_sum_ax0_shard0_i_m1024_n512_v7x_i8_bf16_1_alg».proof.Proof.WSlots
import proofs.«901073_g7700000000001074_dist_sum_ax0_shard0_i_m1024_n512_v7x_i8_bf16_1_alg».proof.Proof.WSteps
import proofs.«901073_g7700000000001074_dist_sum_ax0_shard0_i_m1024_n512_v7x_i8_bf16_1_alg».proof.Proof.WScratch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.Transfers (shareDrop shareTok)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_ck (Φ : CK → sProp 𝕄) : bigSep Finset.univ Φ
    = iprop(Φ none ∗ Φ (some (false, 0)) ∗ Φ (some (false, 1)) ∗ Φ (some (false, 2)) ∗ Φ (some (false, 3)) ∗ Φ (some (false, 4)) ∗ Φ (some (false, 5)) ∗ Φ (some (false, 6))
      ∗ Φ (some (true, 0)) ∗ Φ (some (true, 1)) ∗ Φ (some (true, 2)) ∗ Φ (some (true, 3)) ∗ Φ (some (true, 4)) ∗ Φ (some (true, 5)) ∗ Φ (some (true, 6))) :=
  bigSep_univ_eq_bigSepL [none, some (false, 0), some (false, 1), some (false, 2), some (false, 3), some (false, 4), some (false, 5), some (false, 6),
    some (true, 0), some (true, 1), some (true, 2), some (true, 3), some (true, 4), some (true, 5), some (true, 6)] (by decide) (by decide) Φ

omit [FloatOps F] in
/-- A whole buffer held through its memref's view is the buffer held. -/
theorem whole_pts (c : Dev nD) (b : Ref sig .tc) (q : PosShare TreeShare) (f : Buf (Elt F) ((c : Thread nD τ).loc b)) :
    (((Memref.whole b : Memref sig .tc _ _ _).view.loc (c : Thread nD τ) ↦[(Memref.whole b : Memref sig .tc _ _ _).view.set]{q} f) : sProp 𝕄)
      = (((c : Thread nD τ).loc b) ↦{q} f) := by
  rw [View.set_whole]

omit [FloatOps F] in
theorem bigSep_fin8' (Φ : Fin 8 → sProp 𝕄) : bigSep Finset.univ Φ = iprop(Φ 6 ∗ Φ 5 ∗ Φ 4 ∗ Φ 3 ∗ Φ 2 ∗ Φ 1 ∗ Φ 0 ∗ Φ 7) :=
  bigSep_univ_eq_bigSepL [6, 5, 4, 3, 2, 1, 0, 7] (by decide) (by decide) Φ

theorem fetch_0 (t : Fin cfg0.N) : (cfg0.win (0 : Fin 2)).fetch t = true := by rw [fin_N t]; rfl

omit [FloatOps F] in
theorem hz2 : (![0, 0] : Fin 2 → Nat) = fun _ => 0 := funext fun a => by fin_cases a <;> rfl
omit [FloatOps F] in
/-- The load of the whole staging block reads the block. -/
theorem read_x (f : (cc0_stg0_0 : Ref sig .tc).ty.Contents (Elt F)) :
    (xM : Memref sig .tc .vmem S1024x512 .f32).view.readAt (Elt F) (Rect.unit (s := S1024x512) ![0, 0] S1024x512.size inb_S1024x512_S1024x512_0_0).toLoadRect f = f :=
  Memref.readAt_unit_zero (Elt F) cc0_stg0_0 hz2 _ f
omit [FloatOps F] in
/-- The store of the whole output block leaves the block holding what was stored. -/
theorem write_out (f w : (cc0_stg1_0 : Ref sig .tc).ty.Contents (Elt F)) :
    ((oM : Memref sig .tc .vmem S1x512 .f32).access (Rect.unit (s := S1x512) ![0, 0] S1x512.size inb_S1x512_S1x512_0_0) : View sig .tc _ _ _).write (Elt F) f w Finset.univ = w :=
  Memref.write_access_unit_zero_univ (Elt F) cc0_stg1_0 hz2 _ f w

omit [FloatOps F] in
/-- Only a slot's own row matters to holding it, as an entailment between the points-tos themselves. -/
theorem slot_congr' (c : Dev nD) (j : Fin 8) (q : PosShare TreeShare) (f g : Buf (Elt F) ((c : Thread nD τ).loc cc0_scratch0))
    (h : rowOf c f j = rowOf c g j) :
    (((slotM j : Memref sig .tc .vmem S1x512 .f32).view.loc (c : Thread nD τ) ↦[(slotM j : Memref sig .tc .vmem S1x512 .f32).view.set]{q} f) : sProp 𝕄)
      ⊢ ((slotM j : Memref sig .tc .vmem S1x512 .f32).view.loc (c : Thread nD τ) ↦[(slotM j : Memref sig .tc .vmem S1x512 .f32).view.set]{q} g) :=
  Entails.of_eq (slotPts_congr c j q f g h)

/-- The body's first store, in the program's spelling of the rectangle. -/
theorem rowOf_store7' (c : Dev nD) (f : Buf (Elt F) ((c : Thread nD τ).loc cc0_scratch0)) :
    rowOf c (((Memref.whole cc0_scratch0 : Memref sig .tc .vmem S8x1x512 .f32).access
        (Rect.unit (s := S8x1x512) ![7, 0, 0] S1x1x512.size inb_S8x1x512_S1x1x512_7_0_0) : View sig .tc _ _ _).write (Elt F) f (k0_pay1 (xstg m c)) Finset.univ) 7
      = rowOf c (own7 m c) 7 :=
  rowOf_store7 m c f

/-- A device's tokens, by kind: the signals', the copies' arrivals', the copies' departures'. -/
theorem payToks_open (c : Dev nD) : payToks (F := F) c
    = iprop((bigSep Finset.univ fun j : Fin 7 => dutyTok ER (barCell (pk c j)) 0 j.rev)
      ∗ (bigSep Finset.univ fun j : Fin 7 => dutyTok ER (recvCell (pk c j) j) 0 0)
      ∗ (bigSep Finset.univ fun j : Fin 7 => dutyTok ER (sendCell c j) 0 0)) := by
  unfold payToks payTok; rw [bigSep_sep', bigSep_sep']

/-- A device's positions, by kind: on its barrier cell, on its send cells, on its receive cells. -/
theorem positions_open (c : Dev nD) : positions (F := F) c
    ⊢ iprop(atPos ER (barCell c) 0 ∅ 0 ∗ (bigSep Finset.univ fun j : Fin 7 => atPos ER (sendCell c j) 0 ∅ 0)
      ∗ (bigSep Finset.univ fun j : Fin 7 => atPos ER (recvCell c j) 0 ∅ 0)) := by
  unfold positions; rw [bigSep_ck, bigSep_fin7, bigSep_fin7]
  dsimp only [kcell, csem]
  iintro ⟨HB, S0, S1, S2, S3, S4, S5, S6, V0, V1, V2, V3, V4, V5, V6⟩
  isplitl [HB]; · iexact HB
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  · isplitl [V0]; · iexact V0
    isplitl [V1]; · iexact V1
    isplitl [V2]; · iexact V2
    isplitl [V3]; · iexact V3
    isplitl [V4]; · iexact V4
    isplitl [V5]; · iexact V5
    iexact V6

omit [FloatOps F] in
/-- One store of the whole output block over any contents leaves what was stored. -/
theorem out_writes (g w : (cc0_stg1_0 : Ref sig .tc).ty.Contents (Elt F)) :
    (Memref.whole cc0_stg1_0 : Memref sig .tc .vmem S1x512 .f32).view.writes (Elt F) g
        [⟨Rect.unit (s := S1x512) ![0, 0] S1x512.size inb_S1x512_S1x512_0_0, w⟩] = w :=
  write_out g w

/-- The barrier duty signal `j` pays, with the peers resolved: the device's own slot `6 - j` and its receive cell `6 - j` at round 0. -/
theorem payload_bar_peer (c : Dev nD) (j : Fin 7) : (sched (F := F) m).payload (barCell (pk c j)) 0 j.rev
    = iprop((∃ f, slotPts c j.rev.castSucc fullShare f) ∗ reached ER (recvCell c j.rev) 0) := by
  rw [payload_bar]; unfold barPay; rw [pk_pk_rev]

theorem payload_bar_peer0 (c : Dev nD) : (sched (F := F) m).payload (barCell (pk c 0)) 0 6
    = iprop((∃ f, (slotM 6 : Memref sig .tc .vmem S1x512 .f32).view.loc (c : Thread nD τ) ↦[(slotM 6 : Memref sig .tc .vmem S1x512 .f32).view.set]{fullShare} f) ∗ reached ER (recvCell c 6) 0) :=
  payload_bar_peer m c 0
theorem payload_bar_peer1 (c : Dev nD) : (sched (F := F) m).payload (barCell (pk c 1)) 0 5
    = iprop((∃ f, (slotM 5 : Memref sig .tc .vmem S1x512 .f32).view.loc (c : Thread nD τ) ↦[(slotM 5 : Memref sig .tc .vmem S1x512 .f32).view.set]{fullShare} f) ∗ reached ER (recvCell c 5) 0) :=
  payload_bar_peer m c 1
theorem payload_bar_peer2 (c : Dev nD) : (sched (F := F) m).payload (barCell (pk c 2)) 0 4
    = iprop((∃ f, (slotM 4 : Memref sig .tc .vmem S1x512 .f32).view.loc (c : Thread nD τ) ↦[(slotM 4 : Memref sig .tc .vmem S1x512 .f32).view.set]{fullShare} f) ∗ reached ER (recvCell c 4) 0) :=
  payload_bar_peer m c 2
theorem payload_bar_peer3 (c : Dev nD) : (sched (F := F) m).payload (barCell (pk c 3)) 0 3
    = iprop((∃ f, (slotM 3 : Memref sig .tc .vmem S1x512 .f32).view.loc (c : Thread nD τ) ↦[(slotM 3 : Memref sig .tc .vmem S1x512 .f32).view.set]{fullShare} f) ∗ reached ER (recvCell c 3) 0) :=
  payload_bar_peer m c 3
theorem payload_bar_peer4 (c : Dev nD) : (sched (F := F) m).payload (barCell (pk c 4)) 0 2
    = iprop((∃ f, (slotM 2 : Memref sig .tc .vmem S1x512 .f32).view.loc (c : Thread nD τ) ↦[(slotM 2 : Memref sig .tc .vmem S1x512 .f32).view.set]{fullShare} f) ∗ reached ER (recvCell c 2) 0) :=
  payload_bar_peer m c 4
theorem payload_bar_peer5 (c : Dev nD) : (sched (F := F) m).payload (barCell (pk c 5)) 0 1
    = iprop((∃ f, (slotM 1 : Memref sig .tc .vmem S1x512 .f32).view.loc (c : Thread nD τ) ↦[(slotM 1 : Memref sig .tc .vmem S1x512 .f32).view.set]{fullShare} f) ∗ reached ER (recvCell c 1) 0) :=
  payload_bar_peer m c 5
theorem payload_bar_peer6 (c : Dev nD) : (sched (F := F) m).payload (barCell (pk c 6)) 0 0
    = iprop((∃ f, (slotM 0 : Memref sig .tc .vmem S1x512 .f32).view.loc (c : Thread nD τ) ↦[(slotM 0 : Memref sig .tc .vmem S1x512 .f32).view.set]{fullShare} f) ∗ reached ER (recvCell c 0) 0) :=
  payload_bar_peer m c 6

/-- What a receive cell's one duty hands its owner, and a send cell's, spelt as the points-tos they are. -/
theorem payload_recv_own (c : Dev nD) (j : Fin 7) : (sched (F := F) m).payload (recvCell c j) 0 0
    = ((slotM j.castSucc : Memref sig .tc .vmem S1x512 .f32).view.loc (c : Thread nD τ) ↦[(slotM j.castSucc : Memref sig .tc .vmem S1x512 .f32).view.set]{fullShare} landBuf m c j) :=
  payload_recv m c j 0
theorem payload_send_own (c : Dev nD) (j : Fin 7) : (sched (F := F) m).payload (sendCell c j) 0 0
    = ((slotM 7 : Memref sig .tc .vmem S1x512 .f32).view.loc (c : Thread nD τ) ↦[(slotM 7 : Memref sig .tc .vmem S1x512 .f32).view.set]{shareTok fullShare 7 j} own7 m c) :=
  payload_send m c j 0

/-- What the barrier wait hands over, duty by duty: the seven peers' slots. -/
theorem rest_bar' (c : Dev nD) : (bigSep Finset.univ fun d : Fin 7 => (sched (F := F) m).payload (barCell c) 0 d)
    = iprop(barPay c 0 ∗ barPay c 1 ∗ barPay c 2 ∗ barPay c 3 ∗ barPay c 4 ∗ barPay c 5 ∗ barPay c 6) := by
  rw [bigSep_fin7]
  simp only [payload_bar]

/-- The rest of the barrier cell's round, no duty taken: the seven peers' slots. -/
theorem rest_bar (c : Dev nD) : bigSep ((sched (F := F) m).duties (barCell c) 0 \ ∅) (fun d => (sched (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_fin7]
  simp only [payload_bar]

attribute [local sl_rounds] duties_bar duties_send duties_recv amount_bar amount_send amount_recv expect_bar expect_send expect_recv
  payload_bar_peer0 payload_bar_peer1 payload_bar_peer2 payload_bar_peer3 payload_bar_peer4 payload_bar_peer5 payload_bar_peer6 payload_send_own payload_recv_own
attribute [local sl_canon] sig0_eq sig1_eq sig2_eq sig3_eq sig4_eq sig5_eq sig6_eq cpy0_eq cpy1_eq cpy2_eq cpy3_eq cpy4_eq cpy5_eq cpy6_eq

set_option maxHeartbeats 16000000 in
theorem sound_body (c : Dev nD) :
    iprop(Φ₀ m c ∗ (dats m 0 c).owesAt () t₀.castSucc
      ∗ (∃ d, stg c cc0_stg0_0 ((dats m 0 c).before (0 : Fin 2) t₀ d))
      ∗ (∃ d, stg c cc0_stg1_0 ((dats m 0 c).before (1 : Fin 2) t₀ d)))
    ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2)
        (fun _ => iprop(Φ₁ (F := F) c ∗ (dats m 0 c).owesAt () t₀.succ ∗ stg c cc0_stg0_0 (xstg m c) ∗ stg c cc0_stg1_0 (outAt m c))) := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold Φ₀ start ghost credits scrSome
  rw [payToks_open]
  iintro ⟨⟨⟨⟨%K, #HR, Hpos, HtB, HtV, HtS⟩, ⟨HcB, HcV⟩, #Hlev⟩, ⟨%f0, Hscr⟩⟩,
    Ho, ⟨%d0, %g0, %hg0, Hx⟩, ⟨%d1, %g1, %hg1, Hout⟩⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ OC
  ihave Hpos := (positions_open c) $$ Hpos
  icases Hpos with ⟨HaB, HaS, HaV⟩
  -- the scratch, slot by slot, in the order the signals hand the slots over
  ihave Hs := (Entails.of_eq ((scratch_slots c fullShare f0).trans (bigSep_fin8' _))) $$ Hscr
  icases Hs with ⟨Hs6, Hs5, Hs4, Hs3, Hs2, Hs1, Hs0, Hs7⟩
  unfold slotPts
  -- the seven signals: each pays a unit on a peer's barrier and hands over one slot and one round-0 mark
  ihave HtB := (Entails.of_eq (bigSep_fin7 _)) $$ HtB
  icases HtB with ⟨HtB0, HtB1, HtB2, HtB3, HtB4, HtB5, HtB6⟩
  ihave #HIb0 := (inv_bar m K (pk c 0)) $$ HR
  ihave #Hrb0 := (reached_bar m K (pk c 0)) $$ HR
  ihave #Hrv0 := (reached_recv m K c 0) $$ HR
  ihave #HIb1 := (inv_bar m K (pk c 1)) $$ HR
  ihave #Hrb1 := (reached_bar m K (pk c 1)) $$ HR
  ihave #Hrv1 := (reached_recv m K c 1) $$ HR
  ihave #HIb2 := (inv_bar m K (pk c 2)) $$ HR
  ihave #Hrb2 := (reached_bar m K (pk c 2)) $$ HR
  ihave #Hrv2 := (reached_recv m K c 2) $$ HR
  ihave #HIb3 := (inv_bar m K (pk c 3)) $$ HR
  ihave #Hrb3 := (reached_bar m K (pk c 3)) $$ HR
  ihave #Hrv3 := (reached_recv m K c 3) $$ HR
  ihave #HIb4 := (inv_bar m K (pk c 4)) $$ HR
  ihave #Hrb4 := (reached_bar m K (pk c 4)) $$ HR
  ihave #Hrv4 := (reached_recv m K c 4) $$ HR
  ihave #HIb5 := (inv_bar m K (pk c 5)) $$ HR
  ihave #Hrb5 := (reached_bar m K (pk c 5)) $$ HR
  ihave #Hrv5 := (reached_recv m K c 5) $$ HR
  ihave #HIb6 := (inv_bar m K (pk c 6)) $$ HR
  ihave #Hrb6 := (reached_bar m K (pk c 6)) $$ HR
  ihave #Hrv6 := (reached_recv m K c 6) $$ HR
  sl_exec
  iclear HIb0 Hrb0 Hrv0 HIb1 Hrb1 Hrv1 HIb2 Hrb2 Hrv2 HIb3 Hrb3 Hrv3 HIb4 Hrb4 Hrv4 HIb5 Hrb5 Hrv5 HIb6 Hrb6 Hrv6
  -- the column sums into slot 7
  ihave Hx := (Entails.of_eq (whole_pts c cc0_stg0_0 fullShare (xstg m c)).symm) $$ Hx
  ihave Hout := (Entails.of_eq (whole_pts c cc0_stg1_0 fullShare g1).symm) $$ Hout
  sl_exec
  sl_unfold_words
  -- slot 7 holds the device's row, whatever the scratch held before
  rw [read_x]
  ihave Hs7 := (slot_congr' c 7 fullShare _ (own7 m c) (rowOf_store7' m c f0)) $$ Hs7
  -- the barrier wait, owing the copies' credits: the seven peers' slots come with it
  have hmw : (levAts L lv : sProp 𝕄) ⊢ MayWait (c : Thread nD τ) (.reg barS) () (cpyT c 6 + cpyT c 5 + cpyT c 4 + cpyT c 3 + cpyT c 2 + cpyT c 1 + cpyT c 0) := mayWait_bar c
  ihave #HIB := (inv_bar m K c) $$ HR
  sl_exec
  ihave Hp := (Entails.of_eq (rest_bar' m c)) $$ HaB_pay1
  unfold barPay slotPts
  icases Hp with ⟨⟨⟨%fn0, Hd0⟩, -⟩, ⟨⟨%fn1, Hd1⟩, -⟩, ⟨⟨%fn2, Hd2⟩, -⟩, ⟨⟨%fn3, Hd3⟩, -⟩, ⟨⟨%fn4, Hd4⟩, -⟩, ⟨⟨%fn5, Hd5⟩, -⟩, ⟨⟨%fn6, Hd6⟩, -⟩⟩
  -- slot 7: a share kept for the device's own reading, and one read share per copy
  ihave Hs7 := ((Transfers.pointsTo_toks_split fullShare 7).trans (sep_mono_right (Entails.of_eq (bigSep_fin7 _)))) $$ Hs7
  icases Hs7 with ⟨Hs7, Hk0, Hk1, Hk2, Hk3, Hk4, Hk5, Hk6⟩
  -- the seven copies
  ihave HtV := (Entails.of_eq (bigSep_fin7 _)) $$ HtV
  icases HtV with ⟨HtV0, HtV1, HtV2, HtV3, HtV4, HtV5, HtV6⟩
  ihave HtS := (Entails.of_eq (bigSep_fin7 _)) $$ HtS
  icases HtS with ⟨HtS0, HtS1, HtS2, HtS3, HtS4, HtS5, HtS6⟩
  iapply (send_step m K c 0 _ (cpy0_eq c) fn0 (cpyT c 6 + cpyT c 5 + cpyT c 4 + cpyT c 3 + cpyT c 2 + cpyT c 1) (insert (SemLoc.reg barS, ()) W)) $$ [Hk0 Hd0 HO HtS0 HtV0]
  · isplitr; · iexact HR
    isplitl [Hk0]; · iexact Hk0
    isplitl [Hd0]; · iexact Hd0
    isplitl [HO]; · iexact HO
    isplitl [HtS0]; · iexact HtS0
    iexact HtV0
  iintro ⟨HcS0, HO⟩
  iapply (send_step m K c 1 _ (cpy1_eq c) fn1 (cpyT c 6 + cpyT c 5 + cpyT c 4 + cpyT c 3 + cpyT c 2) (insert (SemLoc.reg barS, ()) W)) $$ [Hk1 Hd1 HO HtS1 HtV1]
  · isplitr; · iexact HR
    isplitl [Hk1]; · iexact Hk1
    isplitl [Hd1]; · iexact Hd1
    isplitl [HO]; · iexact HO
    isplitl [HtS1]; · iexact HtS1
    iexact HtV1
  iintro ⟨HcS1, HO⟩
  iapply (send_step m K c 2 _ (cpy2_eq c) fn2 (cpyT c 6 + cpyT c 5 + cpyT c 4 + cpyT c 3) (insert (SemLoc.reg barS, ()) W)) $$ [Hk2 Hd2 HO HtS2 HtV2]
  · isplitr; · iexact HR
    isplitl [Hk2]; · iexact Hk2
    isplitl [Hd2]; · iexact Hd2
    isplitl [HO]; · iexact HO
    isplitl [HtS2]; · iexact HtS2
    iexact HtV2
  iintro ⟨HcS2, HO⟩
  iapply (send_step m K c 3 _ (cpy3_eq c) fn3 (cpyT c 6 + cpyT c 5 + cpyT c 4) (insert (SemLoc.reg barS, ()) W)) $$ [Hk3 Hd3 HO HtS3 HtV3]
  · isplitr; · iexact HR
    isplitl [Hk3]; · iexact Hk3
    isplitl [Hd3]; · iexact Hd3
    isplitl [HO]; · iexact HO
    isplitl [HtS3]; · iexact HtS3
    iexact HtV3
  iintro ⟨HcS3, HO⟩
  iapply (send_step m K c 4 _ (cpy4_eq c) fn4 (cpyT c 6 + cpyT c 5) (insert (SemLoc.reg barS, ()) W)) $$ [Hk4 Hd4 HO HtS4 HtV4]
  · isplitr; · iexact HR
    isplitl [Hk4]; · iexact Hk4
    isplitl [Hd4]; · iexact Hd4
    isplitl [HO]; · iexact HO
    isplitl [HtS4]; · iexact HtS4
    iexact HtV4
  iintro ⟨HcS4, HO⟩
  iapply (send_step m K c 5 _ (cpy5_eq c) fn5 (cpyT c 6) (insert (SemLoc.reg barS, ()) W)) $$ [Hk5 Hd5 HO HtS5 HtV5]
  · isplitr; · iexact HR
    isplitl [Hk5]; · iexact Hk5
    isplitl [Hd5]; · iexact Hd5
    isplitl [HO]; · iexact HO
    isplitl [HtS5]; · iexact HtS5
    iexact HtV5
  iintro ⟨HcS5, HO⟩
  iapply (send_step_last m K c 6 _ (cpy6_eq c) fn6 (insert (SemLoc.reg barS, ()) W)) $$ [Hk6 Hd6 HO HtS6 HtV6]
  · isplitr; · iexact HR
    isplitl [Hk6]; · iexact Hk6
    isplitl [Hd6]; · iexact Hd6
    isplitl [HO]; · iexact HO
    isplitl [HtS6]; · iexact HtS6
    iexact HtV6
  iintro ⟨HcS6, HO⟩
  -- the seven receive waits: each hands over a landed slot
  ihave HaV := (Entails.of_eq (bigSep_fin7 _)) $$ HaV
  icases HaV with ⟨HaV0, HaV1, HaV2, HaV3, HaV4, HaV5, HaV6⟩
  ihave HcV := (Entails.of_eq (bigSep_fin7 _)) $$ HcV
  icases HcV with ⟨HcV0, HcV1, HcV2, HcV3, HcV4, HcV5, HcV6⟩
  ihave #HIv0 := (inv_recv m K c 0) $$ HR
  ihave #HIv1 := (inv_recv m K c 1) $$ HR
  ihave #HIv2 := (inv_recv m K c 2) $$ HR
  ihave #HIv3 := (inv_recv m K c 3) $$ HR
  ihave #HIv4 := (inv_recv m K c 4) $$ HR
  ihave #HIv5 := (inv_recv m K c 5) $$ HR
  ihave #HIv6 := (inv_recv m K c 6) $$ HR
  sl_exec
  -- all eight slots at one share: the scratch whole, for the load that reads all of it
  ihave HW := (assemble m c) $$ [HaV0_pay1 HaV1_pay1 HaV2_pay1 HaV3_pay1 HaV4_pay1 HaV5_pay1 HaV6_pay1 Hs7]
  · isplitl [HaV0_pay1]; · iexact HaV0_pay1
    isplitl [HaV1_pay1]; · iexact HaV1_pay1
    isplitl [HaV2_pay1]; · iexact HaV2_pay1
    isplitl [HaV3_pay1]; · iexact HaV3_pay1
    isplitl [HaV4_pay1]; · iexact HaV4_pay1
    isplitl [HaV5_pay1]; · iexact HaV5_pay1
    isplitl [HaV6_pay1]; · iexact HaV6_pay1
    iexact Hs7
  icases HW with ⟨HW, Hspare⟩
  -- the load of the whole scratch, the output's store, and the seven send waits
  ihave HaS := (Entails.of_eq (bigSep_fin7 _)) $$ HaS
  icases HaS with ⟨HaS0, HaS1, HaS2, HaS3, HaS4, HaS5, HaS6⟩
  ihave #HIs0 := (inv_send m K c 0) $$ HR
  ihave #HIs1 := (inv_send m K c 1) $$ HR
  ihave #HIs2 := (inv_send m K c 2) $$ HR
  ihave #HIs3 := (inv_send m K c 3) $$ HR
  ihave #HIs4 := (inv_send m K c 4) $$ HR
  ihave #HIs5 := (inv_send m K c 5) $$ HR
  ihave #HIs6 := (inv_send m K c 6) $$ HR
  sl_exec
  -- the fourteen own cells close: their counters at zero are the device's again
  imod (Rounds.cell_close ER (sched m) (Set.mem_univ (K (c, some (false, 0)))) (fun h => h) (R := 1) (duties_later m (sendCell c 0))) $$ [HaS0] with HzS0
  · isplitr; · iexact HIs0
    iexact HaS0
  imod (Rounds.cell_close ER (sched m) (Set.mem_univ (K (c, some (false, 1)))) (fun h => h) (R := 1) (duties_later m (sendCell c 1))) $$ [HaS1] with HzS1
  · isplitr; · iexact HIs1
    iexact HaS1
  imod (Rounds.cell_close ER (sched m) (Set.mem_univ (K (c, some (false, 2)))) (fun h => h) (R := 1) (duties_later m (sendCell c 2))) $$ [HaS2] with HzS2
  · isplitr; · iexact HIs2
    iexact HaS2
  imod (Rounds.cell_close ER (sched m) (Set.mem_univ (K (c, some (false, 3)))) (fun h => h) (R := 1) (duties_later m (sendCell c 3))) $$ [HaS3] with HzS3
  · isplitr; · iexact HIs3
    iexact HaS3
  imod (Rounds.cell_close ER (sched m) (Set.mem_univ (K (c, some (false, 4)))) (fun h => h) (R := 1) (duties_later m (sendCell c 4))) $$ [HaS4] with HzS4
  · isplitr; · iexact HIs4
    iexact HaS4
  imod (Rounds.cell_close ER (sched m) (Set.mem_univ (K (c, some (false, 5)))) (fun h => h) (R := 1) (duties_later m (sendCell c 5))) $$ [HaS5] with HzS5
  · isplitr; · iexact HIs5
    iexact HaS5
  imod (Rounds.cell_close ER (sched m) (Set.mem_univ (K (c, some (false, 6)))) (fun h => h) (R := 1) (duties_later m (sendCell c 6))) $$ [HaS6] with HzS6
  · isplitr; · iexact HIs6
    iexact HaS6
  imod (Rounds.cell_close ER (sched m) (Set.mem_univ (K (c, some (true, 0)))) (fun h => h) (R := 1) (duties_later m (recvCell c 0))) $$ [HaV0] with HzV0
  · isplitr; · iexact HIv0
    iexact HaV0
  imod (Rounds.cell_close ER (sched m) (Set.mem_univ (K (c, some (true, 1)))) (fun h => h) (R := 1) (duties_later m (recvCell c 1))) $$ [HaV1] with HzV1
  · isplitr; · iexact HIv1
    iexact HaV1
  imod (Rounds.cell_close ER (sched m) (Set.mem_univ (K (c, some (true, 2)))) (fun h => h) (R := 1) (duties_later m (recvCell c 2))) $$ [HaV2] with HzV2
  · isplitr; · iexact HIv2
    iexact HaV2
  imod (Rounds.cell_close ER (sched m) (Set.mem_univ (K (c, some (true, 3)))) (fun h => h) (R := 1) (duties_later m (recvCell c 3))) $$ [HaV3] with HzV3
  · isplitr; · iexact HIv3
    iexact HaV3
  imod (Rounds.cell_close ER (sched m) (Set.mem_univ (K (c, some (true, 4)))) (fun h => h) (R := 1) (duties_later m (recvCell c 4))) $$ [HaV4] with HzV4
  · isplitr; · iexact HIv4
    iexact HaV4
  imod (Rounds.cell_close ER (sched m) (Set.mem_univ (K (c, some (true, 5)))) (fun h => h) (R := 1) (duties_later m (recvCell c 5))) $$ [HaV5] with HzV5
  · isplitr; · iexact HIv5
    iexact HaV5
  imod (Rounds.cell_close ER (sched m) (Set.mem_univ (K (c, some (true, 6)))) (fun h => h) (R := 1) (duties_later m (recvCell c 6))) $$ [HaV6] with HzV6
  · isplitr; · iexact HIv6
    iexact HaV6
  -- the scratch whole again
  ihave Hscr := (reassemble m c) $$ [HW Hspare HaS0_pay1 HaS1_pay1 HaS2_pay1 HaS3_pay1 HaS4_pay1 HaS5_pay1 HaS6_pay1]
  · isplitl [HW]; · iexact HW
    isplitl [Hspare]; · iexact Hspare
    isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    iexact HaS6_pay1
  rw [out_writes, wp_ret]; imodintro
  unfold Φ₁
  rw [show (dats m 0 c).owed t₀.succ = 0 from rfl]
  isplitl [Hscr HzS0 HzV0 HzS1 HzV1 HzS2 HzV2 HzS3 HzV3 HzS4 HzV4 HzS5 HzV5 HzS6 HzV6]
  · isplitl [Hscr]; · iexact Hscr
    iapply (Entails.of_eq (bigSep_fin7 _).symm)
    isplitl [HzS0 HzV0]
    · isplitl [HzS0]; · iexact HzS0
      iexact HzV0
    isplitl [HzS1 HzV1]
    · isplitl [HzS1]; · iexact HzS1
      iexact HzV1
    isplitl [HzS2 HzV2]
    · isplitl [HzS2]; · iexact HzS2
      iexact HzV2
    isplitl [HzS3 HzV3]
    · isplitl [HzS3]; · iexact HzS3
      iexact HzV3
    isplitl [HzS4 HzV4]
    · isplitl [HzS4]; · iexact HzS4
      iexact HzV4
    isplitl [HzS5 HzV5]
    · isplitl [HzS5]; · iexact HzS5
      iexact HzV5
    isplitl [HzS6]; · iexact HzS6
    iexact HzV6
  isplitl [HO]
  · iexists (insert ((SemLoc.dma ((cc0_scratch1.slice (Rect.unit (s := S7) ![6] S1.size inb_S7_S1_6)).squeeze S_ squeezes_S1_S_).sem : SemLoc sig), ()) (insert ((SemLoc.dma ((cc0_scratch1.slice (Rect.unit (s := S7) ![5] S1.size inb_S7_S1_5)).squeeze S_ squeezes_S1_S_).sem : SemLoc sig), ()) (insert ((SemLoc.dma ((cc0_scratch1.slice (Rect.unit (s := S7) ![4] S1.size inb_S7_S1_4)).squeeze S_ squeezes_S1_S_).sem : SemLoc sig), ()) (insert ((SemLoc.dma ((cc0_scratch1.slice (Rect.unit (s := S7) ![3] S1.size inb_S7_S1_3)).squeeze S_ squeezes_S1_S_).sem : SemLoc sig), ()) (insert ((SemLoc.dma ((cc0_scratch1.slice (Rect.unit (s := S7) ![2] S1.size inb_S7_S1_2)).squeeze S_ squeezes_S1_S_).sem : SemLoc sig), ()) (insert ((SemLoc.dma ((cc0_scratch1.slice (Rect.unit (s := S7) ![1] S1.size inb_S7_S1_1)).squeeze S_ squeezes_S1_S_).sem : SemLoc sig), ()) (insert ((SemLoc.dma ((cc0_scratch1.slice (Rect.unit (s := S7) ![0] S1.size inb_S7_S1_0)).squeeze S_ squeezes_S1_S_).sem : SemLoc sig), ()) (insert ((SemLoc.dma ((cc0_scratch2.slice (Rect.unit (s := S7) ![6] S1.size inb_S7_S1_6)).squeeze S_ squeezes_S1_S_).sem : SemLoc sig), ()) (insert ((SemLoc.dma ((cc0_scratch2.slice (Rect.unit (s := S7) ![5] S1.size inb_S7_S1_5)).squeeze S_ squeezes_S1_S_).sem : SemLoc sig), ()) (insert ((SemLoc.dma ((cc0_scratch2.slice (Rect.unit (s := S7) ![4] S1.size inb_S7_S1_4)).squeeze S_ squeezes_S1_S_).sem : SemLoc sig), ()) (insert ((SemLoc.dma ((cc0_scratch2.slice (Rect.unit (s := S7) ![3] S1.size inb_S7_S1_3)).squeeze S_ squeezes_S1_S_).sem : SemLoc sig), ()) (insert ((SemLoc.dma ((cc0_scratch2.slice (Rect.unit (s := S7) ![2] S1.size inb_S7_S1_2)).squeeze S_ squeezes_S1_S_).sem : SemLoc sig), ()) (insert ((SemLoc.dma ((cc0_scratch2.slice (Rect.unit (s := S7) ![1] S1.size inb_S7_S1_1)).squeeze S_ squeezes_S1_S_).sem : SemLoc sig), ()) (insert ((SemLoc.dma ((cc0_scratch2.slice (Rect.unit (s := S7) ![0] S1.size inb_S7_S1_0)).squeeze S_ squeezes_S1_S_).sem : SemLoc sig), ()) (insert ((SemLoc.reg barS : SemLoc sig), ()) W)))))))))))))))
    isplitr; · ipureintro; exact fun _ _ => Or.inl trivial
    iexact HO
  isplitl [Hx]
  · iexists _; isplitr; · (ipureintro; rfl)
    iapply (Entails.of_eq (whole_pts c cc0_stg0_0 fullShare (xstg m c))); iexact Hx
  iexists _; isplitr; · (ipureintro; rfl)
  iapply (Entails.of_eq (whole_pts c cc0_stg1_0 fullShare _)); iexact Hout

/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  exact sound_body m c

/-- info: 'Cert.Kernel.AllSum.body_obligation' depends on axioms: [propext, Classical.choice, Quot.sound] -/
#guard_msgs in #print axioms body_obligation

end Cert.Kernel.AllSum

end
-- ==== Proof.WAlloc.lean ====
/-
  The ghost state of the whole mesh: what is minted at launch, and the one global step that gives every device the cells'
  invariants, its positions and the tokens of the duties it pays.

  Minted per device are its own fifteen cells' round states, positions and round-0 marks, and the tokens of its own cells'
  twenty-one duties. A duty's token belongs with its PAYER: duty `i` of device `d`'s barrier cell is paid by `pk d i`, the one
  duty of its receive cell `j` by `pk d (6 - j)`, the one duty of its send cell `j` by `d` itself. Dealing the tokens to their
  payers is a re-indexing of the devices by the turns `pk · j`.
-/
import proofs.«901073_g7700000000001074_dist_sum_ax0_shard0_i_m1024_n512_v7x_i8_bf16_1_alg».proof.Proof.Gen.Kernel.Skeleton
import proofs.«901073_g7700000000001074_dist_sum_ax0_shard0_i_m1024_n512_v7x_i8_bf16_1_alg».proof.Proof.Gen.Kernel.Launch
import proofs.«901073_g7700000000001074_dist_sum_ax0_shard0_i_m1024_n512_v7x_i8_bf16_1_alg».proof.Proof.Gen.Kernel.Frame
import proofs.«901073_g7700000000001074_dist_sum_ax0_shard0_i_m1024_n512_v7x_i8_bf16_1_alg».proof.Proof.WProto
import proofs.«901073_g7700000000001074_dist_sum_ax0_shard0_i_m1024_n512_v7x_i8_bf16_1_alg».proof.Proof.WLevels
import proofs.«901073_g7700000000001074_dist_sum_ax0_shard0_i_m1024_n512_v7x_i8_bf16_1_alg».proof.Proof.WData
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel's own (scoped) semaphores, as the launch indexes them: the seven send ones, then the seven receive ones. -/
abbrev osem : Fin 14 → SemLoc sig := fun k =>
  if h : k.val < 7 then .dma (sendS ⟨k.val, h⟩) else .dma (recvS ⟨k.val - 7, by omega⟩)

theorem ownSemFacts : Pipeline.OwnSemFacts cfg0.spec osem := by decide

/-- Every device's fifteen cells. -/
def ringCells : Finset (GSem nD τ sig) := Finset.univ.map ⟨kcell, kcell_injective⟩

/-- A device's own cells' duty tokens as minted: `(0, i)` its barrier's duty `i`; `(1, j)` its send cell `j`'s; `(2, j)` its receive cell `j`'s. -/
abbrev tokOf (cj : Dev nD × (Fin 3 × Fin 7)) : GSem nD τ sig × ℕ × Fin 7 := match cj.2.1 with
  | 0 => (barCell cj.1, 0, cj.2.2)
  | 1 => (sendCell cj.1 cj.2.2, 0, 0)
  | 2 => (recvCell cj.1 cj.2.2, 0, 0)
/-- The semaphore and the duty name of a minted token, the device left out. -/
abbrev tokSem (t : Fin 3 × Fin 7) : SemLoc sig × Fin 7 := match t.1 with
  | 0 => (.reg barS, t.2)
  | 1 => (.dma (sendS t.2), 0)
  | 2 => (.dma (recvS t.2), 0)
/-- The twenty-one tokens of one device are pairwise different: the cells differ, or on the barrier cell the duties do. -/
theorem tokSem_injective : Function.Injective tokSem := by decide
theorem tokOf_eq (c : Dev nD) (t : Fin 3 × Fin 7) :
    (tokOf (c, t) : GSem nD τ sig × ℕ × Fin 7) = (((c : Thread nD τ), (tokSem t).1), 0, (tokSem t).2) := by
  obtain ⟨a, j⟩ := t
  fin_cases a <;> rfl
theorem tokOf_injective : Function.Injective (tokOf : Dev nD × (Fin 3 × Fin 7) → GSem nD τ sig × ℕ × Fin 7) := by
  rintro ⟨c, t⟩ ⟨c', t'⟩ h
  rw [tokOf_eq, tokOf_eq] at h
  have h1 : c = c' := congrArg (fun x : GSem nD τ sig × ℕ × Fin 7 => x.1.1.1) h
  subst h1
  have h2 : tokSem t = tokSem t' :=
    Prod.ext (congrArg (fun x : GSem nD τ sig × ℕ × Fin 7 => x.1.2) h) (congrArg (fun x : GSem nD τ sig × ℕ × Fin 7 => x.2.2) h)
  rw [tokSem_injective h2]
def ringToks : Finset (GSem nD τ sig × ℕ × Fin 7) := Finset.univ.map ⟨tokOf, tokOf_injective⟩

/-- The launch's ghost element: the pipeline's own and the rounds'. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun tj : Fin 3 × Fin 7 => dutyTok ER (tokOf (c, tj)).1 (tokOf (c, tj)).2.1 (tokOf (c, tj)).2.2

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks (F := F) c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  -- a product over all cells is a product over the devices of a product over a device's fifteen cells,
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  -- and the minted tokens are each device's own cells' tokens.
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### A device's fifteen counters at zero -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A product over a device's cells, written out: the barrier cell, the seven send cells, the seven receive cells. -/
theorem bigSep_CK (Φ : CK → sProp 𝕄) : bigSep Finset.univ Φ
    = iprop(Φ none ∗ Φ (some (false, 0)) ∗ Φ (some (false, 1)) ∗ Φ (some (false, 2)) ∗ Φ (some (false, 3)) ∗ Φ (some (false, 4))
        ∗ Φ (some (false, 5)) ∗ Φ (some (false, 6)) ∗ Φ (some (true, 0)) ∗ Φ (some (true, 1)) ∗ Φ (some (true, 2)) ∗ Φ (some (true, 3))
        ∗ Φ (some (true, 4)) ∗ Φ (some (true, 5)) ∗ Φ (some (true, 6))) :=
  bigSep_univ_eq_bigSepL [none, some (false, 0), some (false, 1), some (false, 2), some (false, 3), some (false, 4), some (false, 5),
    some (false, 6), some (true, 0), some (true, 1), some (true, 2), some (true, 3), some (true, 4), some (true, 5), some (true, 6)]
    (by decide) (by decide) Φ

/-- The send and receive semaphores are the kernel's own fourteen; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0
        ∗ semVal (sendCell c 5) 0 ∗ semVal (sendCell c 6) 0 ∗ semVal (recvCell c 0) 0 ∗ semVal (recvCell c 1) 0 ∗ semVal (recvCell c 2) 0
        ∗ semVal (recvCell c 3) 0 ∗ semVal (recvCell c 4) 0 ∗ semVal (recvCell c 5) 0 ∗ semVal (recvCell c 6) 0) := by
  rw [Pipeline.ownSems0_eq_of_list c osem [0, 1, 2, 3, 4, 5, 6, 7, 8, 9, 10, 11, 12, 13] (by decide) (by decide)]; rfl
/-- the barrier semaphore the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨S0, S1, S2, S3, S4, S5, S6, R0, R1, R2, R3, R4, R5, R6⟩, HB⟩
  isplitl [HB]; · iexact HB
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [R0]; · iexact R0
  isplitl [R1]; · iexact R1
  isplitl [R2]; · iexact R2
  isplitl [R3]; · iexact R3
  isplitl [R4]; · iexact R4
  isplitl [R5]; · iexact R5
  iexact R6

/-! ### The cells' invariants, device by device -/

/-- Each of a device's cells gets its invariant from its counter at zero and its round state at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens to their payers -/

/-- A device's minted tokens, by kind of cell. -/
theorem toks_eq (c : Dev nD) : (toks c : sProp 𝕄)
    = iprop((bigSep Finset.univ fun i : Fin 7 => dutyTok ER (barCell c) 0 i)
        ∗ (bigSep Finset.univ fun j : Fin 7 => dutyTok ER (sendCell c j) 0 0)
        ∗ (bigSep Finset.univ fun j : Fin 7 => dutyTok ER (recvCell c j) 0 0)) := by
  unfold toks; rw [bigSep_univ_prod, bigSep_fin3]

/-- The barrier tokens: duty `i` of device `d`'s barrier cell goes to `c = pk d i`, for which `d = pk c (6 - i)`. Fix the
    duty, turn the devices by `6 - i`, then name the duty by `j = 6 - i`. -/
theorem deal_bar :
    (bigSep Finset.univ fun d : Dev nD => bigSep Finset.univ fun i : Fin 7 => (dutyTok ER (barCell d) 0 i : sProp 𝕄))
      = bigSep Finset.univ fun c : Dev nD => bigSep Finset.univ fun j : Fin 7 => dutyTok ER (barCell (pk c j)) 0 j.rev := by
  rw [bigSep_univ_comm (fun (d : Dev nD) (i : Fin 7) => (dutyTok ER (barCell d) 0 i : sProp 𝕄)),
    bigSep_univ_comm (fun (c : Dev nD) (j : Fin 7) => (dutyTok ER (barCell (pk c j)) 0 j.rev : sProp 𝕄)),
    bigSep_univ_equiv Fin.revPerm (fun i : Fin 7 => bigSep Finset.univ fun d : Dev nD => (dutyTok ER (barCell d) 0 i : sProp 𝕄))]
  exact bigSep_congr fun j _ => bigSep_univ_equiv (turn j) (fun d : Dev nD => (dutyTok ER (barCell d) 0 j.rev : sProp 𝕄))

/-- The receive tokens: the one duty of device `d`'s receive cell `j` goes to `c = pk d (6 - j)`, for which `d = pk c j`. -/
theorem deal_recv :
    (bigSep Finset.univ fun d : Dev nD => bigSep Finset.univ fun j : Fin 7 => (dutyTok ER (recvCell d j) 0 0 : sProp 𝕄))
      = bigSep Finset.univ fun c : Dev nD => bigSep Finset.univ fun j : Fin 7 => dutyTok ER (recvCell (pk c j) j) 0 0 := by
  rw [bigSep_univ_comm (fun (d : Dev nD) (j : Fin 7) => (dutyTok ER (recvCell d j) 0 0 : sProp 𝕄)),
    bigSep_univ_comm (fun (c : Dev nD) (j : Fin 7) => (dutyTok ER (recvCell (pk c j) j) 0 0 : sProp 𝕄))]
  exact bigSep_congr fun j _ => bigSep_univ_equiv (turn j) (fun d : Dev nD => (dutyTok ER (recvCell d j) 0 0 : sProp 𝕄))

/-- All minted tokens, regrouped by payer. -/
theorem toks_around : (bigSep Finset.univ fun c : Dev nD => (toks c : sProp 𝕄)) ⊢ bigSep Finset.univ fun c : Dev nD => payToks c := by
  have hp (c : Dev nD) : (payToks c : sProp 𝕄)
      = iprop((bigSep Finset.univ fun j : Fin 7 => dutyTok ER (barCell (pk c j)) 0 j.rev)
          ∗ (bigSep Finset.univ fun j : Fin 7 => dutyTok ER (recvCell (pk c j) j) 0 0)
          ∗ (bigSep Finset.univ fun j : Fin 7 => dutyTok ER (sendCell c j) 0 0)) := by
    unfold payToks payTok; rw [bigSep_sep', bigSep_sep']
  rw [bigSep_congr (s := Finset.univ) (fun (c : Dev nD) _ => toks_eq (F := F) c),
    bigSep_congr (s := Finset.univ) (fun (c : Dev nD) _ => hp c),
    bigSep_sep', bigSep_sep', bigSep_sep', bigSep_sep', deal_bar, deal_recv]
  iintro ⟨H1, H2, H3⟩
  isplitl [H1]; · iexact H1
  isplitl [H3]; · iexact H3
  iexact H2

/-! ### The whole mesh's records, and each device's share -/

/-- What stays with device `c`: its positions, and the tokens of the duties it pays. -/
def linear (c : Dev nD) : sProp 𝕄 := iprop(positions (F := F) c ∗ payToks (F := F) c)

theorem ghost_intro (K : Dev nD × CK → ℕ) (c : Dev nD) : iprop(records m K ∗ linear (F := F) c) ⊢ G' m c := by
  unfold linear G' ghost
  iintro ⟨#HR, Hp, Ht⟩
  iexists K
  isplitr; · iexact HR
  isplitl [Hp]; · iexact Hp
  iexact Ht

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions (F := F) c) (fun c : Dev nD => payToks (F := F) c)).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.AllSum.fund_ring' depends on axioms: [propext, Classical.choice, Quot.sound] -/
#guard_msgs in #print axioms fund_ring
/-- info: 'Cert.Kernel.AllSum.glob' depends on axioms: [propext, Classical.choice, Quot.sound] -/
#guard_msgs in #print axioms glob

end Cert.Kernel.AllSum

end
-- ==== Proof.WLaunch.lean ====
/-
  The launch: from "each device's body is proved" to the run of the whole mesh, every device's result named.
-/
import proofs.«901073_g7700000000001074_dist_sum_ax0_shard0_i_m1024_n512_v7x_i8_bf16_1_alg».proof.Proof.Gen.Kernel.Skeleton
import proofs.«901073_g7700000000001074_dist_sum_ax0_shard0_i_m1024_n512_v7x_i8_bf16_1_alg».proof.Proof.Gen.Kernel.Launch
import proofs.«901073_g7700000000001074_dist_sum_ax0_shard0_i_m1024_n512_v7x_i8_bf16_1_alg».proof.Proof.Gen.Kernel.Frame
import proofs.«901073_g7700000000001074_dist_sum_ax0_shard0_i_m1024_n512_v7x_i8_bf16_1_alg».proof.Proof.WProto
import proofs.«901073_g7700000000001074_dist_sum_ax0_shard0_i_m1024_n512_v7x_i8_bf16_1_alg».proof.Proof.WLevels
import proofs.«901073_g7700000000001074_dist_sum_ax0_shard0_i_m1024_n512_v7x_i8_bf16_1_alg».proof.Proof.WData
import proofs.«901073_g7700000000001074_dist_sum_ax0_shard0_i_m1024_n512_v7x_i8_bf16_1_alg».proof.Proof.WSlots
import proofs.«901073_g7700000000001074_dist_sum_ax0_shard0_i_m1024_n512_v7x_i8_bf16_1_alg».proof.Proof.WBody
import proofs.«901073_g7700000000001074_dist_sum_ax0_shard0_i_m1024_n512_v7x_i8_bf16_1_alg».proof.Proof.WAlloc
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The launch credit -/

omit [FloatOps F] in
/-- Seven units on one cell are one tally of seven. -/
theorem seven_units (g : GSem nD τ sig) : (∑ _j : Fin 7, (tallyAt g () 1 : CellTallies nD τ sig Unit)) = tallyAt g () 7 := by
  rw [Fin.sum_univ_seven]; simp only [tallyAt_add]

omit [FloatOps F] in
/-- What the launch deals device `c` under the debts `O₀`. Every device's signal `j` goes to the barrier cell of the device
    `j + 1` places on, and going `j + 1` places on is a permutation of the devices: so `c` is dealt one unit per `j`, seven
    in all. Every device's copy `j` goes to receive cell `j` of that same device: so `c` is dealt a row's credit on each of
    its seven receive cells. -/
theorem creds (c : Dev nD) : (Pipeline.launchCred O₀ c : sProp 𝕄) ⊢ credits (F := F) c := by
  rw [show (O₀ : Dev nD → CellTallies nD τ sig Unit) = fun d => (∑ j : Fin 7, cpyT d j) + ∑ j : Fin 7, sigT d j from funext O₀_eq_sum,
    Pipeline.launchCred_add, Pipeline.launchCred_sum, Pipeline.launchCred_sum]
  unfold credits
  rw [← seven_units, Pipeline.cred_finsetSum]
  have hS : (bigSep Finset.univ fun j : Fin 7 => (Pipeline.launchCred (fun d => sigT d j) c : sProp 𝕄))
      ⊢ bigSep Finset.univ fun _j : Fin 7 => (cred (tallyAt (barCell c) () 1) : sProp 𝕄) :=
    bigSep_mono fun j _ => Pipeline.launchCred_tallyAt (.reg barS) (fun d => pk d j) (fun c => pk c j.rev)
      (fun c => pk_rev_pk c j) (fun d => pk_pk_rev d j) () 1 c
  have hC : (bigSep Finset.univ fun j : Fin 7 => (Pipeline.launchCred (fun d => cpyT d j) c : sProp 𝕄))
      ⊢ bigSep Finset.univ fun j : Fin 7 => (cred (tallyAt (recvCell c j) () N) : sProp 𝕄) :=
    bigSep_mono fun j _ => Pipeline.launchCred_tallyAt (.dma (recvS j)) (fun d => pk d j) (fun c => pk c j.rev)
      (fun c => pk_rev_pk c j) (fun d => pk_pk_rev d j) () N c
  iintro ⟨HC, HS⟩
  isplitl [HS]
  · iapply hS; iexact HS
  · iapply hC; iexact HC

/-! ## The theorem's side conditions -/

theorem share_eq (c : Dev nD) (w : Fin cfg0.W) : (dats m 0 c).share w = fullShare := by unfold Dat.share; split <;> rfl

/-- From what the launch hands a device to its start: the credit read off the debts, the ghost state and the levels as given. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The one scoped buffer that is no staging buffer is the scratch. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrSome
  iintro ⟨Hs, -, Hr⟩
  isplitl [Hs]; · iexact Hs
  iexact Hr

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- At the end the fourteen own cells are at zero and the scratch is whole again. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ scrSome
  rw [bigSep_fin7]
  iintro ⟨Hr, ⟨S0, R0⟩, ⟨S1, R1⟩, ⟨S2, R2⟩, ⟨S3, R3⟩, ⟨S4, R4⟩, ⟨S5, R5⟩, ⟨S6, R6⟩⟩
  isplitr; · iempintro
  isplitr [Hr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [R0]; · iexact R0
    isplitl [R1]; · iexact R1
    isplitl [R2]; · iexact R2
    isplitl [R3]; · iexact R3
    isplitl [R4]; · iexact R4
    isplitl [R5]; · iexact R5
    iexact R6
  · iexact Hr

/-- The pipeline's two staging semaphores sit at level 0, below everything a device owes. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ## The run -/

/-- What window `w`'s array on device `c` holds after the one point's write-backs. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- The run of the whole mesh, every window's array named after it. -/
theorem run_QC : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array is an input window's: never written back. -/
theorem finalA_x (c : Dev nD) : finalA m c (0 : Fin 2) = m ((c : Thread nD τ).loc main_arg0) :=
  (dats (F := F) m 0 c).arrAt_in (0 : Fin 2) rfl _

/-- The result array is written back once, whole, at the one point: it holds what the body left in its staging buffer. -/
theorem finalA_out (c : Dev nD) : finalA m c (1 : Fin 2) = outAt m c := by
  have h := (dats (F := F) m 0 c).arrAt_succ (1 : Fin 2) t₀
  rw [flush0_1 t₀, if_pos rfl] at h
  refine (congrArg ((dats (F := F) m 0 c).arrAt (1 : Fin 2)) cfg0_N).trans (h.trans ?_)
  exact Memref.write_access_unit_zero_univ (Elt F) main_v1 (funext fun a => Nat.zero_mul _) _ _ _

end Launch

/-- At the compiled mesh of eight devices, for any float values, from any memory with zero counters: every weakly fair
    execution of @main terminates, and every final state has each device's result array holding the eight rows added up
    and its argument array unchanged. -/
theorem run_main : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) := by
  exact (θ_run defs _ _).mono (fun _ h c => ⟨(h c (1 : Fin 2)).trans (Launch.finalA_out m c), (h c (0 : Fin 2)).trans (Launch.finalA_x m c)⟩)
    (Launch.run_QC m ρ)

/-- info: 'Cert.Kernel.AllSum.run_main' depends on axioms: [propext, Classical.choice, Quot.sound] -/
#guard_msgs in #print axioms run_main

end Cert.Kernel.AllSum

end
-- ==== Proof.Value.lean ====
/-
  The value: over the extended reals, the eight rows added up on any device are the sums of the columns of the whole array.
-/
import proofs.«901073_g7700000000001074_dist_sum_ax0_shard0_i_m1024_n512_v7x_i8_bf16_1_alg».proof.Defs
import proofs.«901073_g7700000000001074_dist_sum_ax0_shard0_i_m1024_n512_v7x_i8_bf16_1_alg».proof.Proof.Gen.ReferenceIdeal.Read
import proofs.«901073_g7700000000001074_dist_sum_ax0_shard0_i_m1024_n512_v7x_i8_bf16_1_alg».proof.Proof.Proto
import proofs.«901073_g7700000000001074_dist_sum_ax0_shard0_i_m1024_n512_v7x_i8_bf16_1_alg».proof.Proof.Levels
import proofs.«901073_g7700000000001074_dist_sum_ax0_shard0_i_m1024_n512_v7x_i8_bf16_1_alg».proof.Proof.Data
import proofs.«901073_g7700000000001074_dist_sum_ax0_shard0_i_m1024_n512_v7x_i8_bf16_1_alg».proof.Proof.Slots
import Idealize.ShloMosaic.Lib.Layout
import Idealize.ShloMosaic.Lib.ValueIdx
import Idealize.ShloMosaic.Lib.Pipeline.Value
import Idealize.ShloMosaic.PureOps.Ideal.Laws

noncomputable section

namespace Cert.KernelIdeal.AllSum

open Cert.KernelIdeal Cert.KernelIdeal.Gen
open Idealize.ShloMosaic Idealize.ShloMosaic.TcCoe Idealize.ShloMosaic.ValueIdx
open Idealize.SL.Sem

/-! ## Regrouping a sum over 8192 rows as eight blocks of 1024 rows, the blocks taken in any order -/

/-- A sum over `Fin 8192` is the sum, over the eight blocks in the order a permutation `e` lists them, of the sums over
    each block's 1024 rows; `idx d r` is row `r` of block `d`, that is row `1024 d + r`. Only that addition is
    commutative and associative is used. -/
theorem sum_blocks {M : Type} [AddCommMonoid M] (g : Fin 8192 → M) (e : Fin 8 ≃ Fin 8)
    (idx : Fin 8 → Fin 1024 → Fin 8192) (hidx : ∀ d r, (idx d r).val = d.val * 1024 + r.val) :
    ∑ s : Fin 8, ∑ r : Fin 1024, g (idx (e s) r) = ∑ K : Fin 8192, g K := by
  rw [Equiv.sum_comp e (fun d => ∑ r : Fin 1024, g (idx d r))]
  rw [← Fintype.sum_prod_type' (fun d r => g (idx d r))]
  refine Fintype.sum_equiv (finProdFinEquiv : Fin 8 × Fin 1024 ≃ Fin 8192) _ _ fun p => congrArg g (Fin.ext ?_)
  rw [hidx]
  show p.1.val * 1024 + p.2.val = p.2.val + 1024 * p.1.val
  omega

/-- The device whose row sits in slot `s` of device `c`'s scratch: slot 7 holds `c`'s own row, slot `j < 7` the row of
    the device `7 - j` places after `c` on the ring. -/
def devOf (c : Dev nD) (s : Fin 8) : Dev nD := Fin.lastCases c (fun j => pk c j.rev) s

/-- The eight slots of a device hold the rows of the eight devices, each once. -/
theorem devOf_bijective : ∀ c : Dev nD, Function.Bijective (devOf c) := by decide

def devEquiv (c : Dev nD) : Fin 8 ≃ Fin 8 := Equiv.ofBijective (devOf c) (devOf_bijective c)

/-- Row `1024 d + r` of the whole array: row `r` of block `d`. -/
def rowIdx (d : Fin 8) (r : Fin 1024) : Fin 8192 := ⟨d.val * 1024 + r.val, by omega⟩

/-- Entry `[r, q]` of block `d` of an 8192 × 512 array cut along its rows into eight is its entry `[1024 d + r, q]`. -/
theorem block_entry {α : Type} (X : (⟨2, ![8192, 512]⟩ : Shape).Idx → α) (d : Fin 8) (r : Fin 1024) (q : Fin 512) :
    (Layout.block ⟨2, ![1024, 512]⟩ ⟨2, ![8192, 512]⟩ 0 8 d X) (ix2 r q) = X (ix2 (rowIdx d r) q) :=
  congrArg X (funext fun a => Fin.ext (by match a with | ⟨0, _⟩ => rfl | ⟨1, _⟩ => rfl))

/-! ## The two payloads at an index, over the extended reals -/

/-- The first payload: the sums of the columns of a 1024 × 512 block, laid as a 1 × 1 × 512 row. -/
theorem pay1_apply (v : FVec Ideal S1024x512 .f32) (q : Fin 512) :
    (k0_pay1 (F := Ideal) v : S1x1x512.Idx → EReal) (ix3 (0 : Fin 1) (0 : Fin 1) q) = ∑ r : Fin 1024, v (ix2 r q) := by
  unfold k0_pay1
  refine (shapeCast_apply _ shapeCasts_S1x512_S1x1x512 (ix3 (0 : Fin 1) (0 : Fin 1) q) (ix2 (0 : Fin 1) q) ?_).trans ?_
  · rw [Shape.rowMajor_val_two, Shape.rowMajor_val_three]; rfl
  refine (shapeCast_apply _ shapeCasts_S512_S1x512 (ix2 (0 : Fin 1) q) (ix1 q) ?_).trans ?_
  · rw [Shape.rowMajor_val_one, Shape.rowMajor_val_two]; show q.val = 0 * 512 + q.val; omega
  refine (Ideal.multiReduction_add_single _ 0x00000000#32 reduces_S1024x512_S512 (.inl rfl) rfl (ix1 q)).trans ?_
  rw [shapeCast_self]
  exact Finset.sum_congr rfl fun r _ => congrArg v (funext fun a => Fin.ext (by match a with | ⟨0, _⟩ => rfl | ⟨1, _⟩ => rfl))

/-- The second payload: the eight rows of an 8 × 1 × 512 array added up. -/
theorem pay2_apply (v : FVec Ideal S8x1x512 .f32) (i : S1x512.Idx) :
    (k0_pay2 (F := Ideal) v : S1x512.Idx → EReal) i = ∑ s : Fin 8, v (ix3 s (i 0) (i 1)) := by
  unfold k0_pay2
  refine (Ideal.multiReduction_add_single _ 0x00000000#32 reduces_S8x1x512_S1x512 (.inl rfl) rfl i).trans ?_
  exact Finset.sum_congr rfl fun s _ => congrArg v (funext fun a => Fin.ext (by match a with | ⟨0, _⟩ => rfl | ⟨1, _⟩ => rfl | ⟨2, _⟩ => rfl))

/-! ## From the scratch's rows to the blocks of the whole array -/

/-- A device's staging buffer holds its whole block: the window is the whole array, at block index 0. -/
theorem xstg_eq {F : FTy → Type} [FloatOps F] (m : (ℓ : Loc nD τ sig) → Buf (Elt F) ℓ) (d : Dev nD) :
    (xstg m d : S1024x512.Idx → Elt F .f32) = m ((d : Thread nD τ).loc main_arg0) := by
  unfold xstg
  exact Memref.read_access_unit_zero (Elt F) main_arg0 (funext fun a => Nat.zero_mul _) _ _

/-- Row `s` of the scratch, once everything has landed, is the row the device `devOf c s` sends. -/
theorem row_dev {F : FTy → Type} [FloatOps F] (m : (ℓ : Loc nD τ sig) → Buf (Elt F) ℓ) (c : Dev nD) (s : Fin 8) :
    rowOf c (commBuf m c) s = partRow m (devOf c s) := by
  induction s using Fin.lastCases with
  | last => unfold devOf; rw [Fin.lastCases_last]; exact rowOf_commBuf_own m c
  | cast j => unfold devOf; rw [Fin.lastCases_castSucc]; exact rowOf_commBuf_land m c j

/-- The row a device sends, at a column: the sum of that column over the device's block of the whole array. -/
theorem partRow_apply (m : (ℓ : Loc nD τ sig) → Buf (Elt Ideal) ℓ)
    (X : (⟨Cert.ReferenceIdeal.S8192x512, .f32⟩ : BufTy).Contents (Elt Ideal))
    (h : ∀ c : Dev nD, m ((c.tc : Thread nD τ).loc main_arg0) = Layout.block ⟨2, ![1024, 512]⟩ ⟨2, ![8192, 512]⟩ 0 8 c X)
    (d : Dev nD) (q : Fin 512) :
    (show EReal from partRow m d (ix2 (0 : Fin 1) q)) = ∑ r : Fin 1024, (show EReal from X (ix2 (rowIdx d r) q)) := by
  rw [partRow_eq]
  refine (pay1_apply (xstg m d) q).trans (Finset.sum_congr rfl fun r _ => ?_)
  rw [xstg_eq, h d]
  exact block_entry X d r q

/-- Each device holding its block of rows of `X`, the result on every device is the reference's: the column sums of `X`. -/
theorem outAt_eq (m : (ℓ : Loc nD τ sig) → Buf (Elt Ideal) ℓ)
    (X : (⟨Cert.ReferenceIdeal.S8192x512, .f32⟩ : BufTy).Contents (Elt Ideal))
    (h : ∀ c : Dev nD, m ((c.tc : Thread nD τ).loc main_arg0) = Layout.block ⟨2, ![1024, 512]⟩ ⟨2, ![8192, 512]⟩ 0 8 c X)
    (c : Dev nD) :
    outAt (F := Ideal) m c = Cert.ReferenceIdeal.Read.val_main_v1 (F := Ideal) X := by
  funext i
  -- the reference at `i`: the zero word, which is the real 0, plus the sum of column `i 1` over all 8192 rows
  have href : (show EReal from Cert.ReferenceIdeal.Read.val_main_v1 (F := Ideal) X i)
      = ∑ K : Fin 8192, (show EReal from X (ix2 K (i 1))) := by
    rw [Cert.ReferenceIdeal.Read.val_main_v1_apply, Cert.ReferenceIdeal.Read.val_main_v0_apply,
      Cert.ReferenceIdeal.Read.val_main_cst_apply]
    show Ideal.ofBits .f32 0x00000000#32 + _ = _
    rw [Ideal.ofBits_zero_f32, zero_add]
    exact Finset.sum_congr rfl fun K _ => congrArg X (funext fun a => Fin.ext (by match a with | ⟨0, _⟩ => rfl | ⟨1, _⟩ => rfl))
  -- the kernel at `i`: the sum over the eight slots of the sum of column `i 1` over the block of the slot's device
  have hker : (show EReal from outAt (F := Ideal) m c i)
      = ∑ s : Fin 8, ∑ r : Fin 1024, (show EReal from X (ix2 (rowIdx (devOf c s) r) (i 1))) := by
    unfold outAt
    refine (pay2_apply _ i).trans (Finset.sum_congr rfl fun s _ => ?_)
    rw [readAll_apply, row_dev]
    exact partRow_apply m X h (devOf c s) (i 1)
  exact hker.trans ((sum_blocks (fun K => (show EReal from X (ix2 K (i 1)))) (devEquiv c) rowIdx (fun _ _ => rfl)).trans href.symm)

/-- info: 'Cert.KernelIdeal.AllSum.outAt_eq' depends on axioms: [propext, Classical.choice, Quot.sound] -/
#guard_msgs in #print axioms outAt_eq

end Cert.KernelIdeal.AllSum

end
-- ==== Proof.lean ====
/-
  The certificate of the all-reduce of column sums over eight devices.

  Every device adds up the columns of its 1024 rows, sends that row to the seven others, and adds up the eight rows it then
  holds; the reference adds up the columns of all 8192 rows on one device. Over the extended reals the two are one sum,
  regrouped by device: no finiteness is used.

  The two kernels' frames are their runs with the results dropped; the reference's frame and value are its generated run;
  the idealized kernel is the kernel's own text read at the ideal instance, so nothing is to be preserved; the algebraic
  claim is the idealized kernel's run, whose result on every device is the reference's value of the whole array.
-/
import proofs.«901073_g7700000000001074_dist_sum_ax0_shard0_i_m1024_n512_v7x_i8_bf16_1_alg».proof.Defs
import proofs.«901073_g7700000000001074_dist_sum_ax0_shard0_i_m1024_n512_v7x_i8_bf16_1_alg».proof.Proof.Gen.Kernel
import proofs.«901073_g7700000000001074_dist_sum_ax0_shard0_i_m1024_n512_v7x_i8_bf16_1_alg».proof.Proof.Gen.KernelIdeal
import proofs.«901073_g7700000000001074_dist_sum_ax0_shard0_i_m1024_n512_v7x_i8_bf16_1_alg».proof.Proof.Gen.ReferenceIdeal
import proofs.«901073_g7700000000001074_dist_sum_ax0_shard0_i_m1024_n512_v7x_i8_bf16_1_alg».proof.Proof.Gen.ReferenceIdeal.Run
import proofs.«901073_g7700000000001074_dist_sum_ax0_shard0_i_m1024_n512_v7x_i8_bf16_1_alg».proof.Proof.Gen.ReferenceIdeal.Read
import proofs.«901073_g7700000000001074_dist_sum_ax0_shard0_i_m1024_n512_v7x_i8_bf16_1_alg».proof.Proof.Gen.Pre_finite_inputs_Kernel
import proofs.«901073_g7700000000001074_dist_sum_ax0_shard0_i_m1024_n512_v7x_i8_bf16_1_alg».proof.Proof.Gen.Pre_finite_inputs_ReferenceIdeal
import proofs.«901073_g7700000000001074_dist_sum_ax0_shard0_i_m1024_n512_v7x_i8_bf16_1_alg».proof.Proof.Launch
import proofs.«901073_g7700000000001074_dist_sum_ax0_shard0_i_m1024_n512_v7x_i8_bf16_1_alg».proof.Proof.WLaunch
import proofs.«901073_g7700000000001074_dist_sum_ax0_shard0_i_m1024_n512_v7x_i8_bf16_1_alg».proof.Proof.Value
import Idealize.ShloMosaic.Adequacy
import Idealize.ShloMosaic.Init

noncomputable section

namespace Cert.Proof

open Idealize.ShloMosaic Idealize.SL.Sem

/-- The word-level kernel runs to the end with its argument unchanged: its run, the result dropped. -/
theorem frame_kernel : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2) (Cert.Kernel.AllSum.run_main (F := Bits) m ρ)

/-- The idealized kernel likewise. -/
theorem frame_kernelIdeal : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c).2) (Cert.KernelIdeal.AllSum.run_main (F := Ideal) m ρ)

/-- The reference's frame is its run with the result dropped. -/
theorem frame_reference : Cert.frame_ReferenceIdeal (hReferenceIdeal := Cert.ReferenceIdeal.Gen.facts) (hPre_finite_inputs_ReferenceIdeal := Cert.Pre_finite_inputs_ReferenceIdeal.Gen.facts) :=
  fun m ρ _ => (θ_run (Cert.ReferenceIdeal.defs (F := Ideal)) _ _).mono (fun _ h c => (h c).2) (Cert.ReferenceIdeal.Value.run (F := Ideal) m ρ)

/-- Each device holding its block of the reference's array, every device's result is the reference's: the column sums. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m g m' g' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (Cert.KernelIdeal.AllSum.outAt_eq m _ hagree c), (h c).2⟩)
      (Cert.KernelIdeal.AllSum.run_main (F := Ideal) m g)
  · exact (θ_run (Cert.ReferenceIdeal.defs (F := Ideal)) _ _).mono
      (fun _ h => ⟨(h 0).1.trans (Cert.ReferenceIdeal.Read.val_main_v1_eq _), (h 0).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_kernel, frame_kernelIdeal, frame_reference, trivial, algebraic⟩

end Cert.Proof

end
